-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S4096x2 : Shape := ⟨2, ![4096, 2]⟩
abbrev S512x128 : Shape := ⟨2, ![512, 128]⟩
abbrev S128 : Shape := ⟨1, ![128]⟩
abbrev S_ : Shape := ⟨0, ![]⟩
abbrev S4096 : Shape := ⟨1, ![4096]⟩
abbrev S262144x1 : Shape := ⟨2, ![262144, 1]⟩
abbrev S4096x1 : Shape := ⟨2, ![4096, 1]⟩

class Facts : Prop where
  bcast_S_S262144 : S_.BroadcastsInDim S262144 (![] : Fin 0 → Fin S262144.rank)
  bcast_S_S4096 : S_.BroadcastsInDim S4096 (![] : Fin 0 → Fin S4096.rank)
  bcast_S262144_S262144x1_0 : S262144.BroadcastsInDim S262144x1 (![0] : Fin 1 → Fin S262144x1.rank)
  reduceWindows_S4096_S4096_w4096s1p4095_0 : S4096.ReduceWindows (![4096] : Fin 1 → Nat) ![1] ![4095] ![0] S4096
  h_S_ : 0 < S_.numel
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  bcast_S_S262144x256 : S_.BroadcastsInDim S262144x256 (![] : Fin 0 → Fin S262144x256.rank)
  reducesTo_S262144x256_S_d0_1 : S262144x256.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S4096x2 : S_.BroadcastsInDim S4096x2 (![] : Fin 0 → Fin S4096x2.rank)
  reducesTo_S4096x2_S_d0_1 : S4096x2.ReducesTo [0, 1] S_
  scatter_S4096_S262144x1_S262144_n_0_0_1_wf : ScatterDims.WF S4096 S262144x1 S262144 [] [0] [0] 1

variable [Facts]

def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def fn_part1 {F : FTy → Type} [FloatOps F] (main_arg4 : FVec F S128 .f32) (main_v8 : IVec S4096x2 32) (main_v12 : IVec S_ 1) (main_v16 : IVec S_ 1) : IVec S_ 1 :=
  let main_v17 : IVec S_ 1 := andi main_v12 main_v16
  let main_v18 : FVec F S128 .f32 := Host.absf main_arg4
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_c_6 : IVec S_ 1 := constantI S_ 1 1#1
  let main_v21 : IVec S_ 1 := (fun x v => Host.reduce IntOp.andi x v reducesTo_S128_S_d0 h_S_) main_v20 main_c_6
  let main_v22 : IVec S_ 1 := andi main_v17 main_v21
  let main_c_7 : IVec S_ 32 := constantI S_ 32 0#32
  let main_v23 : IVec S4096x2 32 := broadcastInDim S4096x2 ![] bcast_S_S4096x2 main_c_7
  let main_v24 : IVec S4096x2 1 := cmpi .sge main_v8 main_v23
  let main_c_8 : IVec S_ 32 := constantI S_ 32 262144#32
  let main_v25 : IVec S4096x2 32 := broadcastInDim S4096x2 ![] bcast_S_S4096x2 main_c_8
  let main_v26 : IVec S4096x2 1 := cmpi .slt main_v8 main_v25
  let main_v27 : IVec S4096x2 1 := andi main_v24 main_v26
  let main_c_9 : IVec S_ 1 := constantI S_ 1 1#1
  let main_v28 : IVec S_ 1 := (fun x v => Host.reduce IntOp.andi x v reducesTo_S4096x2_S_d0_1 h_S_) main_v27 main_c_9
  let main_v29 : IVec S_ 1 := andi main_v22 main_v28
  main_v29

def fn {F : FTy → Type} [FloatOps F] (main_arg0 : FVec F S262144x256 .f32) (main_arg1 : IVec S262144 32) (main_arg2 : IVec S4096x2 32) (main_arg3 : FVec F S512x128 .f32) (main_arg4 : FVec F S128 .f32) : IVec S_ 1 :=
  let main_c : IVec S_ 32 := constantI S_ 32 1#32
  let main_v0 : IVec S262144 32 := broadcastInDim S262144 ![] bcast_S_S262144 main_c
  let main_c_0 : IVec S_ 32 := constantI S_ 32 0#32
  let main_v1 : IVec S4096 32 := broadcastInDim S4096 ![] bcast_S_S4096 main_c_0
  let main_v2 : IVec S262144x1 32 := broadcastInDim S262144x1 ![0] bcast_S262144_S262144x1_0 main_arg1
  let main_v3 : IVec S4096 32 := (fun x i u => Host.scatter scatter_S4096_S262144x1_S262144_n_0_0_1 IntOp.addi x i u) main_v1 main_v2 main_v0
  let main_c_1 : IVec S_ 32 := constantI S_ 32 0#32
  let main_v4 : IVec S4096 32 := (fun x v => Host.reduceWindow IntOp.addi ![4096] ![1] ![4095] ![0] x v reduceWindows_S4096_S4096_w4096s1p4095_0 h_S_) main_v3 main_c_1
  let main_v5 : IVec S4096 32 := subi main_v4 main_v3
  let main_v6 : IVec S4096x1 32 := broadcastInDim S4096x1 ![0] bcast_S4096_S4096x1_0 main_v5
  let main_v7 : IVec S4096x2 32 := broadcastInDim S4096x2 ![0, 1] bcast_S4096x1_S4096x2_0_1 main_v6
  let main_v8 : IVec S4096x2 32 := addi main_v7 main_arg2
  let main_v9 : FVec F S262144x256 .f32 := Host.absf main_arg0
  let main_cst : FVec F S_ .f32 := constant S_ .f32 0x7F800000#32
  let main_v10 : FVec F S262144x256 .f32 := broadcastInDim S262144x256 ![] bcast_S_S262144x256 main_cst
  let main_v11 : IVec S262144x256 1 := cmpf .olt main_v9 main_v10
  let main_c_2 : IVec S_ 1 := constantI S_ 1 1#1
  let main_v12 : IVec S_ 1 := (fun x v => Host.reduce IntOp.andi x v reducesTo_S262144x256_S_d0_1 h_S_) main_v11 main_c_2
  let main_v13 : FVec F S512x128 .f32 := Host.absf main_arg3
  let main_cst_3 : FVec F S_ .f32 := constant S_ .f32 0x7F800000#32
  let main_v14 : FVec F S512x128 .f32 := broadcastInDim S512x128 ![] bcast_S_S512x128 main_cst_3
  let main_v15 : IVec S512x128 1 := cmpf .olt main_v13 main_v14
  let main_c_4 : IVec S_ 1 := constantI S_ 1 1#1
  let main_v16 : IVec S_ 1 := (fun x v => Host.reduce IntOp.andi x v reducesTo_S512x128_S_d0_1 h_S_) main_v15 main_c_4
  fn_part1 (F := F) main_arg4 main_v8 main_v12 main_v16
-- ==== Kernel.lean ====
abbrev S262144x256 : Shape := ⟨2, ![262144, 256]⟩
abbrev S262144 : Shape := ⟨1, ![262144]⟩
abbrev S4096x2 : Shape := ⟨2, ![4096, 2]⟩
abbrev S512x128 : Shape := ⟨2, ![512, 128]⟩
abbrev S128 : Shape := ⟨1, ![128]⟩
abbrev S_ : Shape := ⟨0, ![]⟩
abbrev S4096 : Shape := ⟨1, ![4096]⟩
abbrev S262144x1 : Shape := ⟨2, ![262144, 1]⟩
abbrev S4096x1 : Shape := ⟨2, ![4096, 1]⟩
abbrev S262144x1x256 : Shape := ⟨3, ![262144, 1, 256]⟩
abbrev S4096x1x128 : Shape := ⟨3, ![4096, 1, 128]⟩
abbrev S1x1x256 : Shape := ⟨3, ![1, 1, 256]⟩
abbrev S1 : Shape := ⟨1, ![1]⟩
abbrev S1x1x128 : Shape := ⟨3, ![1, 1, 128]⟩
abbrev S1x256 : Shape := ⟨2, ![1, 256]⟩
abbrev S1x512 : Shape := ⟨2, ![1, 512]⟩
abbrev S1x128 : Shape := ⟨2, ![1, 128]⟩
abbrev S4096x128 : Shape := ⟨2, ![4096, 128]⟩

abbrev nBuf : Space → Nat
  | .hbm => 23
  | .vmem => 8
  | .smem => 2
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S4096x2, .i32⟩
  | .hbm, ⟨3, _⟩ => ⟨S512x128, .f32⟩
  | .hbm, ⟨4, _⟩ => ⟨S128, .f32⟩
  | .hbm, ⟨5, _⟩ => ⟨S_, .i32⟩
  | .hbm, ⟨6, _⟩ => ⟨S262144, .i32⟩
  | .hbm, ⟨7, _⟩ => ⟨S_, .i32⟩
  | .hbm, ⟨8, _⟩ => ⟨S4096, .i32⟩
  | .hbm, ⟨9, _⟩ => ⟨S262144x1, .i32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x2, .i32⟩
  | .hbm, ⟨17, _⟩ => ⟨S4096x2, .i32⟩
  | .hbm, ⟨18, _⟩ => ⟨S4096x1, .i32⟩
  | .hbm, ⟨19, _⟩ => ⟨S4096x1, .i32⟩
  | .hbm, ⟨20, _⟩ => ⟨S262144x1x256, .f32⟩
  | .hbm, ⟨21, _⟩ => ⟨S4096x1x128, .f32⟩
  | .hbm, ⟨22, _⟩ => ⟨S4096x128, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S512x128, .f32⟩
  | .local _ .vmem, ⟨5, _⟩ => ⟨S128, .f32⟩
  | .local _ .vmem, ⟨6, _⟩ => ⟨S1x1x128, .f32⟩
  | .local _ .vmem, ⟨7, _⟩ => ⟨S1x1x128, .f32⟩
  | .local _ .smem, ⟨0, _⟩ => ⟨S4096, .i32⟩
  | .local _ .smem, ⟨1, _⟩ => ⟨S4096, .i32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_call0_c : Ref sig .tc := ⟨.hbm, 11, rfl⟩
abbrev main_call0_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v11 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v10 : Ref sig .tc := ⟨.smem, 0, rfl⟩
abbrev main_v12 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4096], ![false]⟩

abbrev pre0 : Pipeline.Prefetch sig := ⟨2, ![main_v10.idx, main_v12.idx], fun | 0 => main_v10.names | 1 => main_v12.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S262144 : S_.BroadcastsInDim S262144 (![] : Fin 0 → Fin S262144.rank)
  bcast_S_S4096 : S_.BroadcastsInDim S4096 (![] : Fin 0 → Fin S4096.rank)
  bcast_S262144_S262144x1_0 : S262144.BroadcastsInDim S262144x1 (![0] : Fin 1 → Fin S262144x1.rank)
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  slices_S4096x2_S4096x1_0_0 : S4096x2.Slices ![0, 0] S4096x1
  shapeCasts_S4096x1_S4096 : S4096x1.ShapeCasts S4096
  slices_S4096x2_S4096x1_0_1 : S4096x2.Slices ![0, 1] S4096x1
  shapeCasts_S262144x256_S262144x1x256 : S262144x256.ShapeCasts S262144x1x256
  numel1_S1 : S1.numel = 1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S1x1x256_S1x256 : S1x1x256.ShapeCasts S1x256
  bitsLt_bf16_f32 : FTy.bits .bf16 < FTy.bits .f32
  concatenates_S1x256_S1x256_S1x512_d1 : Shape.Concatenates [S1x256, S1x256] S1x512 1
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S4096x1x128_S4096x128 : S4096x1x128.ShapeCasts S4096x128
  scatter_S4096_S262144x1_S262144_n_0_0_1_wf : ScatterDims.WF S4096 S262144x1 S262144 [] [0] [0] 1
  dot_S1x512_S512x128_S1x128_1_0_0_1_n_n_wf : DotDims.WF S1x512 S512x128 S1x128 [1] [0] [0] [1] [] []
  hrank0 : 0 < grid0.rank
  k0_off1_inb : ∀ i : grid0.Coords, ∀ a, (k0_off1 i) a + S1.size a ≤ S4096.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S4096x1x128.size a
  hwx0_4 : ∀ i : grid0.Coords, EltTy.bits .f32 = 32 ∨ (Rect.block (s := S4096x1x128) S1x1x128.size (cc0_transform_4 i) (hinb0_4 i)).WholeWords (EltTy.packing .f32)

variable [Facts₀]

def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf

abbrev spec0_0 : Pipeline.WinSpec sig grid0.rank :=
  Pipeline.WinSpec.ofSpec (Memref.whole main_v13) S1x1x256.size reads0_0 false false 2 stage0_0 sem0_0 nbuf0_0 hstage0_0

abbrev spec0_1 : Pipeline.WinSpec sig grid0.rank :=
  Pipeline.WinSpec.ofSpec (Memref.whole main_v13) S1x1x256.size reads0_1 false false 2 stage0_1 sem0_1 nbuf0_1 hstage0_1

abbrev spec0_2 : Pipeline.WinSpec sig grid0.rank :=
  Pipeline.WinSpec.ofSpec (Memref.whole main_arg3) S512x128.size reads0_2 false true 1 stage0_2 sem0_2 nbuf0_2 hstage0_2

abbrev spec0_3 : Pipeline.WinSpec sig grid0.rank :=
  Pipeline.WinSpec.ofSpec (Memref.whole main_arg4) S128.size reads0_3 false true 1 stage0_3 sem0_3 nbuf0_3 hstage0_3

abbrev spec0_4 : Pipeline.WinSpec sig grid0.rank :=
  Pipeline.WinSpec.ofSpec (Memref.whole main_v14) S1x1x128.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x256.size a ≤ S262144x1x256.size a), EltTy.bits .f32 = 32 ∨ (Rect.block (s := S262144x1x256) S1x1x256.size (cc0_transform_0 k0_off1_inb numel1_S1 pf i) h).WholeWords (EltTy.packing .f32)) ∧
  (∀ i : grid0.Coords, ∃ h : (∀ a, (cc0_transform_1 k0_off1_inb numel1_S1 pf i a + 1) * S1x1x256.size a ≤ S262144x1x256.size a), EltTy.bits .f32 = 32 ∨ (Rect.block (s := S262144x1x256) S1x1x256.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S262144x256 : Shape := ⟨2, ![262144, 256]⟩
abbrev S262144 : Shape := ⟨1, ![262144]⟩
abbrev S4096x2 : Shape := ⟨2, ![4096, 2]⟩
abbrev S512x128 : Shape := ⟨2, ![512, 128]⟩
abbrev S128 : Shape := ⟨1, ![128]⟩
abbrev S_ : Shape := ⟨0, ![]⟩
abbrev S4096 : Shape := ⟨1, ![4096]⟩
abbrev S262144x1 : Shape := ⟨2, ![262144, 1]⟩
abbrev S4096x1 : Shape := ⟨2, ![4096, 1]⟩
abbrev S4096x2x1 : Shape := ⟨3, ![4096, 2, 1]⟩
abbrev S4096x2x256 : Shape := ⟨3, ![4096, 2, 256]⟩
abbrev S4096x512 : Shape := ⟨2, ![4096, 512]⟩
abbrev S4096x128 : Shape := ⟨2, ![4096, 128]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S4096x2, .i32⟩
  | .hbm, ⟨3, _⟩ => ⟨S512x128, .f32⟩
  | .hbm, ⟨4, _⟩ => ⟨S128, .f32⟩
  | .hbm, ⟨5, _⟩ => ⟨S_, .i32⟩
  | .hbm, ⟨6, _⟩ => ⟨S262144, .i32⟩
  | .hbm, ⟨7, _⟩ => ⟨S_, .i32⟩
  | .hbm, ⟨8, _⟩ => ⟨S4096, .i32⟩
  | .hbm, ⟨9, _⟩ => ⟨S262144x1, .i32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x2, .i32⟩
  | .hbm, ⟨17, _⟩ => ⟨S4096x2, .i32⟩
  | .hbm, ⟨18, _⟩ => ⟨S_, .i32⟩
  | .hbm, ⟨19, _⟩ => ⟨S4096x2, .i32⟩
  | .hbm, ⟨20, _⟩ => ⟨S4096x2, .i1⟩
  | .hbm, ⟨21, _⟩ => ⟨S_, .i32⟩
  | .hbm, ⟨22, _⟩ => ⟨S4096x2, .i32⟩
  | .hbm, ⟨23, _⟩ => ⟨S4096x2, .i32⟩
  | .hbm, ⟨24, _⟩ => ⟨S4096x2, .i32⟩
  | .hbm, ⟨25, _⟩ => ⟨S4096x2x1, .i32⟩
  | .hbm, ⟨26, _⟩ => ⟨S4096x2x256, .f32⟩
  | .hbm, ⟨27, _⟩ => ⟨S4096x512, .f32⟩
  | .hbm, ⟨28, _⟩ => ⟨S4096x128, .f32⟩
  | .hbm, ⟨29, _⟩ => ⟨S1x128, .f32⟩
  | .hbm, ⟨30, _⟩ => ⟨S4096x128, .f32⟩
  | .hbm, ⟨31, _⟩ => ⟨S4096x128, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_call0_c : Ref sig .tc := ⟨.hbm, 11, rfl⟩
abbrev main_call0_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S4096 : S_.BroadcastsInDim S4096 (![] : Fin 0 → Fin S4096.rank)
  bcast_S262144_S262144x1_0 : S262144.BroadcastsInDim S262144x1 (![0] : Fin 1 → Fin S262144x1.rank)
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  shapeCasts_S4096x2x256_S4096x512 : S4096x2x256.ShapeCasts S4096x512
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  scatter_S4096_S262144x1_S262144_n_0_0_1_wf : ScatterDims.WF S4096 S262144x1 S262144 [] [0] [0] 1
  gather_S262144x256_S4096x2x1_S4096x2x256_2_0_n_n_0_2_1256_wf : GatherDims.WF S262144x256 S4096x2x1 S4096x2x256 [2] [0] [] [0] [] 2 ![1, 256]
  dot_S4096x512_S512x128_S4096x128_1_0_0_1_n_n_wf : DotDims.WF S4096x512 S512x128 S4096x128 [1] [0] [0] [1] [] []

variable [Facts₀]

def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def gather_S262144x256_S4096x2x1_S4096x2x256_2_0_n_n_0_2_1256 : GatherDims S262144x256 S4096x2x1 S4096x2x256 where
  offsetDims := [2]
  collapsedSliceDims := [0]
  operandBatchingDims := []
  startIndicesBatchingDims := []
  startIndexMap := [0]
  indexVectorDim := 2
  sliceSizes := ![1, 256]
  wf := gather_S262144x256_S4096x2x1_S4096x2x256_2_0_n_n_0_2_1256_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

class Facts : Prop extends Facts₀ where

variable [Facts]
-- ==== Proof.Spec.lean ====
/-
  What the two programs compute, stated once over the argument arrays.

  A batch of 4096 graphs lies concatenated in a node table of 262144 rows of 256 features. `ids` gives each node's
  graph, `tg` two local node numbers per graph. The number of nodes of each graph is a segment sum of ones over `ids`;
  the first row of graph i is the exclusive prefix sum of those counts (the running sum less the count itself); the row
  read for endpoint j of graph i is that first row plus `tg (i, j)`: `gidx`. Both programs then lay the two rows side by
  side as one vector of 512 features, multiply it by the 512 × 128 matrix `W` and add the bias `b`: `G`.

  The claim is made where every such row number is a row of the table (`InRange`): read as a signed word it is at
  least 0 and less than 262144.
-/
import proofs.«428622_j19267223290700_2_alg».proof.Pre_finite_inputs
import proofs.«428622_j19267223290700_2_alg».proof.Proof.Gen.Pre_finite_inputs
import Idealize.ShloMosaic.PureOps.Ideal
import Idealize.ShloMosaic.Lib.ValueIdx

noncomputable section

namespace Cert.Spec

open Idealize.ShloMosaic Idealize.ShloMosaic.ValueIdx
open Cert.Pre_finite_inputs Cert.Pre_finite_inputs.Facts

/-- The row of the node table read for each (graph, endpoint): node counts by a segment sum of ones, their exclusive
    prefix sums, plus the local node number. All arithmetic is on 32-bit words. -/
def gidx (ids : IVec S262144 32) (tg : IVec S4096x2 32) : IVec S4096x2 32 :=
  let ones : IVec S262144 32 := broadcastInDim S262144 ![] bcast_S_S262144 (constantI S_ 32 1#32)
  let zeros : IVec S4096 32 := broadcastInDim S4096 ![] bcast_S_S4096 (constantI S_ 32 0#32)
  let col : IVec S262144x1 32 := broadcastInDim S262144x1 ![0] bcast_S262144_S262144x1_0 ids
  let counts : IVec S4096 32 := Host.scatter scatter_S4096_S262144x1_S262144_n_0_0_1 IntOp.addi zeros col ones
  let running : IVec S4096 32 :=
    Host.reduceWindow IntOp.addi ![4096] ![1] ![4095] ![0] counts (constantI S_ 32 0#32) reduceWindows_S4096_S4096_w4096s1p4095_0 h_S_
  let offsets : IVec S4096 32 := subi running counts
  addi (broadcastInDim S4096x2 ![0, 1] bcast_S4096x1_S4096x2_0_1 (broadcastInDim S4096x1 ![0] bcast_S4096_S4096x1_0 offsets)) tg

/-- Every row number is a row of the table: as a signed word, at least 0 and less than 262144. -/
def InRange (ids : IVec S262144 32) (tg : IVec S4096x2 32) : Prop :=
  ∀ x : S4096x2.Idx, 0 ≤ (gidx ids tg x).toInt ∧ (gidx ids tg x).toInt < 262144

/-- The row read for endpoint `j` of graph `i`, as a row of the table (clamped into it, which changes nothing where
    `InRange` holds). -/
def row (ids : IVec S262144 32) (tg : IVec S4096x2 32) (i : Fin 4096) (j : Fin 2) : Fin 262144 :=
  ⟨min (gidx ids tg (ix2 i j)).toNat 262143, by omega⟩

/-- Feature `k` of graph `i`'s query vector: the two rows side by side, the first 256 features from endpoint 0. -/
def query (emb : S262144x256.Idx → EReal) (ids : IVec S262144 32) (tg : IVec S4096x2 32) (i : Fin 4096) (k : Fin 512) : EReal :=
  emb (ix2 (row ids tg i ⟨k.val / 256, by omega⟩) ⟨k.val % 256, Nat.mod_lt _ (by decide)⟩)

/-- The result: each graph's query vector times `W`, plus the bias. -/
def G (emb : S262144x256.Idx → EReal) (ids : IVec S262144 32) (tg : IVec S4096x2 32) (W : S512x128.Idx → EReal) (b : S128.Idx → EReal)
    (i : Fin 4096) (t : Fin 128) : EReal :=
  (∑ k : Fin 512, query emb ids tg i k * W (ix2 k t)) + b (ix1 t)

end Cert.Spec

end
-- ==== Proof.PreRead.lean ====
/-
  The precondition read back. Its last conjunct is a conjunction, over every (graph, endpoint), of two signed word
  comparisons of the row number: at least 0, and less than 262144. Where the precondition is 1 everywhere, each of those
  comparisons is 1 at each index, which says the row number read signed lies in [0, 262144). A signed word in that range
  has the same unsigned reading, so it is below 262144 unsigned as well, and the clamp in the row is the identity.
-/
import proofs.«428622_j19267223290700_2_alg».proof.Pre_finite_inputs
import proofs.«428622_j19267223290700_2_alg».proof.Proof.Gen.Pre_finite_inputs
import proofs.«428622_j19267223290700_2_alg».proof.Proof.Spec
import Idealize.ShloMosaic.Lib.ReduceAll
import Idealize.ShloMosaic.Lib.Affine
import Idealize.ShloMosaic.Lib.ValueIdx

noncomputable section

namespace Cert.PreRead

open Idealize.ShloMosaic Idealize.ShloMosaic.ValueIdx
open Cert.Pre_finite_inputs Cert.Pre_finite_inputs.Facts

/-- The result shape of a reduction over all axes has one index. -/
instance : Subsingleton S_.Idx := ⟨fun a b => funext fun d => d.elim0⟩

/-- The precondition's row numbers are the specification's: the same operations in the same order. -/
theorem fn_eq {F : FTy → Type} [FloatOps F] (a0 : FVec F S262144x256 .f32) (a1 : IVec S262144 32) (a2 : IVec S4096x2 32)
    (a3 : FVec F S512x128 .f32) (a4 : FVec F S128 .f32) :
    ∃ A : IVec S_ 1,
      Cert.Pre_finite_inputs.fn (F := F) a0 a1 a2 a3 a4 =
        andi A (Host.reduce IntOp.andi
          (andi (cmpi .sge (Cert.Spec.gidx a1 a2) (broadcastInDim S4096x2 ![] bcast_S_S4096x2 (constantI S_ 32 0#32)))
                (cmpi .slt (Cert.Spec.gidx a1 a2) (broadcastInDim S4096x2 ![] bcast_S_S4096x2 (constantI S_ 32 262144#32))))
          (constantI S_ 1 1#1) reducesTo_S4096x2_S_d0_1 h_S_) :=
  ⟨_, rfl⟩

theorem inRange_of_pre {F : FTy → Type} [FloatOps F] (a0 : FVec F S262144x256 .f32) (a1 : IVec S262144 32) (a2 : IVec S4096x2 32)
    (a3 : FVec F S512x128 .f32) (a4 : FVec F S128 .f32)
    (h : Cert.Pre_finite_inputs.fn (F := F) a0 a1 a2 a3 a4 = fun _ => 1#1) : Cert.Spec.InRange a1 a2 := by
  obtain ⟨A, hA⟩ := fn_eq a0 a1 a2 a3 a4
  rw [hA] at h
  intro x
  generalize Cert.Spec.gidx a1 a2 = g at h ⊢
  have h0 := congrFun h ix0
  have hD := (IntOp.andi_eq_one.1 h0).2
  have hx := Host.reduce_andi_all _ _ _ _ _ hD x
  obtain ⟨h1, h2⟩ := IntOp.andi_eq_one.1 hx
  have h1' : (0#32 : BitVec 32).toInt ≤ (g x).toInt := IntOp.cmpi_sge.1 h1
  have h2' : (g x).toInt < (262144#32 : BitVec 32).toInt := IntOp.cmpi_slt.1 h2
  have e0 : (0#32 : BitVec 32).toInt = 0 := by decide
  have e1 : (262144#32 : BitVec 32).toInt = 262144 := by decide
  rw [e0] at h1'
  rw [e1] at h2'
  exact ⟨h1', h2'⟩

/-- A row number in range reads the same unsigned: it is below 262144. -/
theorem toNat_lt_of_inRange {a1 : IVec S262144 32} {a2 : IVec S4096x2 32} (h : Cert.Spec.InRange a1 a2) (x : S4096x2.Idx) :
    (Cert.Spec.gidx a1 a2 x).toNat < 262144 := by
  obtain ⟨h0, h1⟩ := h x
  generalize Cert.Spec.gidx a1 a2 x = w at h0 h1 ⊢
  have hm : 2 * w.toNat < 2 ^ 32 := BitVec.toInt_pos_iff.1 h0
  rw [BitVec.toInt_eq_toNat_of_lt hm] at h1
  omega

/-- Where the row numbers are in range the clamp is the identity: the row is the row number read unsigned. -/
theorem row_val_of_inRange {a1 : IVec S262144 32} {a2 : IVec S4096x2 32} (h : Cert.Spec.InRange a1 a2) (i : Fin 4096) (j : Fin 2) :
    (Cert.Spec.row a1 a2 i j).val = (Cert.Spec.gidx a1 a2 (ix2 i j)).toNat := by
  have hlt := toNat_lt_of_inRange h (ix2 i j)
  show min (Cert.Spec.gidx a1 a2 (ix2 i j)).toNat 262143 = _
  omega

end Cert.PreRead

end
-- ==== Proof.KWEntry.lean ====
/-
  The kernel's program around its one launch: the host operations before it (the row numbers, the two
  index tables cut from them, the node table seen as 262144 × 1 × 256), the launch, and the one host operation after it
  (the 4096 × 1 × 128 result seen as 4096 × 128). `V0` is what every buffer holds when the launch is reached: the
  operations before it applied, in order, to the memory the program starts from.
-/
import proofs.«428622_j19267223290700_2_alg».proof.Proof.Gen.Kernel.Launch
import proofs.«428622_j19267223290700_2_alg».proof.Proof.Gen.Kernel.Skeleton
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Cert.Kernel Cert.Kernel.Gen

variable {F : FTy → Type} [FloatOps F]

/-- The stretches of host operations before the launch, in order. -/
abbrev preOps : List (List (HloOp τ sig (Elt F))) := [hostOps0, hostOps0_1, hostOps0_2]
/-- The stretch after it. -/
abbrev tailOps : List (List (HloOp τ sig (Elt F))) := [hostOps1]

/-- No host operation of the program allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

variable (m : (ℓ : Loc nD τ sig) → Buf (Elt F) ℓ)

/-- Every buffer of core `c` as the launch finds it. -/
def V0 (c : Dev nD) : Valuation τ sig (Elt F) := StableHlo.after (preOps (F := F)).flatten (fun b => m (c, b))

/-- The same, at a TensorCore reference. -/
abbrev V (c : Dev nD) (b : Ref sig .tc) : Buf (Elt F) ((c.tc : Thread nD τ).loc b) := V0 m c (Proc.devRef .tc b)

/-- The program is the operations before the launch, the launch, the operation after it. -/
theorem hmain (𝒱₀ : Variants) :
    Pipeline.HMainPK (Ix := Unit) (Name := ℕ) (U := UR sig nD τ) (Lvl := ℕ) (pcfgs (F := F)) 0 defs₀ 𝒱₀ m (main (F := F))
      (fun c b => V0 m c (Proc.devRef .tc b)) (fun _ => Pipeline.chain ((tailOps (F := F)).map StableHlo.seq)) :=
  Pipeline.hmainP_around (pcfgs (F := F)) 0 defs₀ 𝒱₀ m main preOps tailOps
    ⟨hostOps0_sub, hostOps0_1_sub, hostOps0_2_sub⟩ ⟨hostOps0_fresh, hostOps0_1_fresh, hostOps0_2_fresh⟩ (fun c => (main_chain c).trans rfl)

end Cert.Kernel.Hand

end
-- ==== Proof.KWData.lean ====
/-
  What the pipeline's staging buffers hold at each of the 4096 grid points, for any admissible contents of the two
  index tables. Point t fetches row (table 0)[t] of the node table into the first window and row (table 1)[t] into the
  second (both windows read the one node table, each at half of the read share), holds the whole matrix and the whole
  bias in the third and fourth, and the body leaves in the fifth window's buffer its one stored value, a function of
  those four blocks; that buffer is written back as row t of the result.
-/
import proofs.«428622_j19267223290700_2_alg».proof.Proof.KWEntry
import Idealize.ShloMosaic.Lib.Pipeline.FrameBody

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- The one pipeline's admissible table contents, as a family over the program's pipelines. -/
abbrev adms : (p : Fin 1) → (pcfgs (F := F) p).Adm := fun _ => a

/-- Window `w`'s block at point `t`, read off its array as the launch finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V m c (Pipeline.arrRef spec0 w))

/-- The proof data of the pipeline on core `c`. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => k0_pay1 (iblk m a c 0 t) (iblk m a c 1 t) (iblk m a c 2 t) (iblk m a c 3 t)
  Φ _ := iprop(Pipeline.ΦA spec0 c ∗ Pipeline.ΦT pre0 a.1 c)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin (cfg0 a).W) : (dats m a 0 c).A w = V m c (Pipeline.arrRef spec0 w) := by
  dsimp only [dats]

theorem after0_0 (c : Dev nD) (t : Fin (cfg0 a).N) : (dats m a 0 c).after 0 t = iblk m a c 0 t := by dsimp only [dats]; rfl
theorem after0_1 (c : Dev nD) (t : Fin (cfg0 a).N) : (dats m a 0 c).after 1 t = iblk m a c 1 t := by dsimp only [dats]; rfl
theorem after0_2 (c : Dev nD) (t : Fin (cfg0 a).N) : (dats m a 0 c).after 2 t = iblk m a c 2 t := by dsimp only [dats]; rfl
theorem after0_3 (c : Dev nD) (t : Fin (cfg0 a).N) : (dats m a 0 c).after 3 t = iblk m a c 3 t := by dsimp only [dats]; rfl
theorem after0_4 (c : Dev nD) (t : Fin (cfg0 a).N) :
    (dats m a 0 c).after 4 t = k0_pay1 (iblk m a c 0 t) (iblk m a c 1 t) (iblk m a c 2 t) (iblk m a c 3 t) := by dsimp only [dats]; rfl

end Cert.Kernel.Hand

end
-- ==== Proof.KWExit.lean ====
/-
  What every buffer holds when the region is left and when the program ends: on leaving, everything is as the launch found
  it except the result array, which holds what the write-backs of all 4096 points left; the one host operation after the
  launch then writes the program's result from it.
-/
import proofs.«428622_j19267223290700_2_alg».proof.Proof.KWData
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- Every buffer of core `c` when the region is left: as the launch found it, but the result array at what the
    write-backs left. -/
def Wexit (c : Dev nD) : Valuation τ sig (Elt F) :=
  Function.update (V0 m c) (Proc.devRef .tc main_v14) ((dats m a 0 c).arrAt 4 (cfg0 a).N)

/-- Every buffer of core `c` at the program's end. -/
def Vfin (c : Dev nD) : Valuation τ sig (Elt F) := StableHlo.after (tailOps (F := F)).flatten (Wexit m a c)

/-- What holds of the final memory: each array of the pipeline at what the write-backs left, every other buffer that
    is no index table at what the operation after the launch leaves. -/
def Post (s : MemSt nD τ sig (Elt F)) : Prop :=
  ∀ c : Dev nD,
    (∀ w, s.mem ((((pcfgs (F := F) 0).at a).spec w).arr.view.loc (c.tc : Thread nD τ)) = (dats m a 0 c).arrAt w (cfg0 a).N)
    ∧ (∀ b ∈ Pipeline.restRefsP sig pre0 spec0, s.mem ((c.tc : Thread nD τ).loc b) = Vfin m a c (Proc.devRef .tc b))

end Cert.Kernel.Hand

end
-- ==== Proof.KWSplit.lean ====
/-
  Two of the pipeline's input windows read the one node table. The launch hands the pipeline each distinct array once, whole;
  the pipeline's own view is one share of its array per window. The node table's whole share is the two halves the two
  windows hold; every other array has one window, which holds it whole.
-/
import proofs.«428622_j19267223290700_2_alg».proof.Proof.KWData
import Idealize.ShloMosaic.Lib.Pipeline.Launch

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- The four distinct arrays behind the five windows. -/
theorem arrRefs_eq : Finset.univ.image (Pipeline.arrRef spec0) = [main_v13, main_arg3, main_arg4, main_v14].toFinset := by decide

/-- A window's array is a whole buffer: its points-to over the view's set is the plain points-to of the buffer behind it,
    at the contents the launch finds there. -/
theorem win_eq (c : Dev nD) (w : Fin 5) :
    (View.loc c.tc ((cfg0 a).win w).arr.view ↦[((cfg0 a).win w).arr.view.set]{(dats m a 0 c).share w} (dats m a 0 c).arrAt w 0 : sProp 𝕄)
      = ((c.tc : Thread nD τ).loc (Pipeline.arrRef spec0 w) ↦{(dats m a 0 c).share w} V m c (Pipeline.arrRef spec0 w)) := by
  have h : ((cfg0 a).win w).arr.view.set = Finset.univ := (arr_whole0 w).set_eq_univ
  rw [h]
  rfl

/-- The two windows on the node table hold its two halves; every other window holds its array whole. -/
theorem share_0 (c : Dev nD) : (dats m a 0 c).share (0 : Fin 5) = fullShare.left := by unfold Dat.share; dsimp only [dats]; rfl
theorem share_1 (c : Dev nD) : (dats m a 0 c).share (1 : Fin 5) = fullShare.right := by unfold Dat.share; dsimp only [dats]; rfl
theorem share_2 (c : Dev nD) : (dats m a 0 c).share (2 : Fin 5) = fullShare := by unfold Dat.share; dsimp only [dats]; rfl
theorem share_3 (c : Dev nD) : (dats m a 0 c).share (3 : Fin 5) = fullShare := by unfold Dat.share; dsimp only [dats]; rfl
theorem share_4 (c : Dev nD) : (dats m a 0 c).share (4 : Fin 5) = fullShare := by unfold Dat.share; dsimp only [dats]; rfl

/-- The buffers behind the windows' arrays, each held whole, make the pipeline's arrays at entry: the node table is split
    between the two windows that read it. -/
theorem arrays_split (c : Dev nD) :
    (Pipeline.arrBufs (Pipeline.pin (pcfgs (F := F)) (adms a) 0).spec c (fun b => V0 m c (Proc.devRef .tc b)) : sProp 𝕄)
      ⊢ (dats m a 0 c).arrays ((dats m a 0 c).arrAt · 0) := by
  classical
  unfold Pipeline.arrBufs Dat.arrays
  refine BIBase.Entails.trans (Entails.of_eq (bigSep_eq_bigSepL_of_eq [main_v13, main_arg3, main_arg4, main_v14] arrRefs_eq (by decide) _)) ?_
  refine BIBase.Entails.trans ?_ (Entails.of_eq (bigSep_W0 _).symm)
  show _ ⊢ iprop(
    (View.loc c.tc ((cfg0 a).win (0 : Fin 5)).arr.view ↦[((cfg0 a).win (0 : Fin 5)).arr.view.set]{(dats m a 0 c).share (0 : Fin 5)} (dats m a 0 c).arrAt (0 : Fin 5) 0) ∗
    (View.loc c.tc ((cfg0 a).win (1 : Fin 5)).arr.view ↦[((cfg0 a).win (1 : Fin 5)).arr.view.set]{(dats m a 0 c).share (1 : Fin 5)} (dats m a 0 c).arrAt (1 : Fin 5) 0) ∗
    (View.loc c.tc ((cfg0 a).win (2 : Fin 5)).arr.view ↦[((cfg0 a).win (2 : Fin 5)).arr.view.set]{(dats m a 0 c).share (2 : Fin 5)} (dats m a 0 c).arrAt (2 : Fin 5) 0) ∗
    (View.loc c.tc ((cfg0 a).win (3 : Fin 5)).arr.view ↦[((cfg0 a).win (3 : Fin 5)).arr.view.set]{(dats m a 0 c).share (3 : Fin 5)} (dats m a 0 c).arrAt (3 : Fin 5) 0) ∗
    (View.loc c.tc ((cfg0 a).win (4 : Fin 5)).arr.view ↦[((cfg0 a).win (4 : Fin 5)).arr.view.set]{(dats m a 0 c).share (4 : Fin 5)} (dats m a 0 c).arrAt (4 : Fin 5) 0))
  rw [win_eq m a c 0, win_eq m a c 1, win_eq m a c 2, win_eq m a c 3, win_eq m a c 4,
    share_0 m a c, share_1 m a c, share_2 m a c, share_3 m a c, share_4 m a c]
  show iprop(
      ((c.tc : Thread nD τ).loc main_v13 ↦{fullShare} V m c main_v13) ∗
      ((c.tc : Thread nD τ).loc main_arg3 ↦{fullShare} V m c main_arg3) ∗
      ((c.tc : Thread nD τ).loc main_arg4 ↦{fullShare} V m c main_arg4) ∗
      ((c.tc : Thread nD τ).loc main_v14 ↦{fullShare} V m c main_v14)) ⊢ iprop(
      ((c.tc : Thread nD τ).loc main_v13 ↦{fullShare.left} V m c main_v13) ∗
      ((c.tc : Thread nD τ).loc main_v13 ↦{fullShare.right} V m c main_v13) ∗
      ((c.tc : Thread nD τ).loc main_arg3 ↦{fullShare} V m c main_arg3) ∗
      ((c.tc : Thread nD τ).loc main_arg4 ↦{fullShare} V m c main_arg4) ∗
      ((c.tc : Thread nD τ).loc main_v14 ↦{fullShare} V m c main_v14))
  exact BIBase.Entails.trans (sep_mono_left (pointsTo_share (PosShare.mem_left_op_right fullShare)).1) (Idealize.SL.BI.Laws.sep_assoc).1

end Cert.Kernel.Hand

end
-- ==== Proof.KWTail.lean ====
/-
  The one host operation after the launch sees the 4096 × 1 × 128 result array as 4096 × 128 and writes it to the program's result.
  It reads the result array, which the pipeline hands back whole, and writes one buffer that is no array of the pipeline.
-/
import proofs.«428622_j19267223290700_2_alg».proof.Proof.KWExit

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- The one host operation after the launch reads the result array and writes the program's result. -/
theorem tail_step (c : Dev nD) (Q' : PUnit → sProp 𝕄) :
    iprop((iprop((dats m a 0 c).arrays ((dats m a 0 c).arrAt · (Pipeline.pin (pcfgs (F := F)) (adms a) 0).N)
            ∗ Pipeline.unscopedRestP (Ix := Unit) (Name := ℕ) (U := UR sig nD τ) (Lvl := ℕ) pre0 spec0 c (fun b => Vfin m a c (Proc.devRef .tc b))) -∗ Q' ⟨⟩)
        ∗ boundary (c.tc : Thread nD τ) ∗ (dats m a 0 c).arrays ((dats m a 0 c).arrAt · (Pipeline.pin (pcfgs (F := F)) (adms a) 0).N)
        ∗ Pipeline.unscopedRestP (Ix := Unit) (Name := ℕ) (U := UR sig nD τ) (Lvl := ℕ) pre0 spec0 c (fun b => V0 m c (Proc.devRef .tc b)))
      ⊢ wp frame (wpE (Pipeline.defs (pcfgs (F := F)) defs₀) (Variants.lift Variants.none) (c.tc : Thread nD τ) none) Set.univ
          (Pipeline.chain ((tailOps (F := F)).map StableHlo.seq)) Q' := by
  classical
  -- the two buffers the operation touches
  let S : Finset (DevRef τ sig) := {Proc.devRef .tc main_v14, Proc.devRef .tc main_v15}
  have hne : (Proc.devRef (τ := τ) .tc main_v14 : DevRef τ sig) ≠ Proc.devRef .tc main_v15 := by decide
  have h15 : main_v15 ∈ Pipeline.restRefsP sig pre0 spec0 := by decide
  have h14 : ∀ b ∈ (Pipeline.restRefsP sig pre0 spec0).erase main_v15,
      (Proc.devRef (τ := τ) .tc b : DevRef τ sig) ≠ Proc.devRef .tc main_v14 ∧ (Proc.devRef (τ := τ) .tc b : DevRef τ sig) ≠ Proc.devRef .tc main_v15 := by
    decide
  have hsub : ∀ ops ∈ (tailOps (F := F)), ∀ op ∈ ops, op.bufs ⊆ S := by
    intro ops hops op hop
    obtain rfl : ops = hostOps1 := List.mem_singleton.mp hops
    obtain rfl := List.mem_singleton.mp hop
    exact subset_of_eq rfl
  have hfresh : ∀ ops ∈ (tailOps (F := F)), ∀ op ∈ ops, op.fresh = ∅ := by
    intro ops hops op hop
    obtain rfl : ops = hostOps1 := List.mem_singleton.mp hops
    obtain rfl := List.mem_singleton.mp hop
    rfl
  -- no operation after the launch writes a buffer other than the program's result
  have hkeep : ∀ b : DevRef τ sig, b ≠ Proc.devRef .tc main_v15 → Vfin m a c b = Wexit m a c b := by
    intro b hb
    unfold Vfin
    refine StableHlo.after_of_forall_not_mem _ _ fun op hop hw => ?_
    simp only [tailOps, hostOps1, List.flatten_cons, List.flatten_nil, List.append_nil, List.mem_singleton] at hop
    subst hop
    rw [StableHlo.reshape_writes, Finset.mem_singleton] at hw
    exact hb hw
  have hW14 : Wexit m a c (Proc.devRef .tc main_v14) = (dats m a 0 c).arrAt 4 (cfg0 a).N := Function.update_self ..
  have hWne : ∀ b : DevRef τ sig, b ≠ Proc.devRef .tc main_v14 → Wexit m a c b = V0 m c b := fun b hb => Function.update_of_ne hb ..
  have hshare4 : (dats m a 0 c).share 4 = fullShare := rfl
  -- the arrays, the result array's window taken out
  have hArr : ∀ Fn : (w : Fin (cfg0 a).W) → Buf (Elt F) (((cfg0 a).win w).arr.view.loc (c.tc : Thread nD τ)),
      ((dats m a 0 c).arrays Fn : sProp 𝕄)
      = iprop((((c.tc : Thread nD τ).loc main_v14) ↦{fullShare} Fn 4)
          ∗ bigSep (Finset.univ.erase (4 : Fin (cfg0 a).W)) fun w =>
              (((cfg0 a).win w).arr.view.loc (c.tc : Thread nD τ) ↦[((cfg0 a).win w).arr.view.set]{(dats m a 0 c).share w} Fn w : sProp 𝕄)) := fun Fn => by
    have hs : ((cfg0 a).win 4).arr.view.set = Finset.univ := (arr_whole0 4).set_eq_univ
    unfold Dat.arrays
    rw [bigSep_univ_split (4 : Fin (cfg0 a).W), hs, hshare4]
    rfl
  -- the bypassing buffers, the program's result taken out
  have hZ : ∀ W : Valuation τ sig (Elt F),
      (Pipeline.unscopedRestP (Ix := Unit) (Name := ℕ) (U := UR sig nD τ) (Lvl := ℕ) pre0 spec0 c (fun b => W (Proc.devRef .tc b)) : sProp 𝕄)
        = iprop((((c.tc : Thread nD τ).loc main_v15) ↦{fullShare} W (Proc.devRef .tc main_v15))
            ∗ bigSep ((Pipeline.restRefsP sig pre0 spec0).erase main_v15) fun b => (((c.tc : Thread nD τ).loc b) ↦{fullShare} W (Proc.devRef .tc b) : sProp 𝕄)) := fun W => by
    unfold Pipeline.unscopedRestP
    exact bigSep_erase h15
  have hheld : ∀ W : Valuation τ sig (Elt F), (StableHlo.held (c.tc : Thread nD τ) S W : sProp 𝕄)
      = iprop((((c.tc : Thread nD τ).loc main_v14) ↦{fullShare} W (Proc.devRef .tc main_v14))
          ∗ (((c.tc : Thread nD τ).loc main_v15) ↦{fullShare} W (Proc.devRef .tc main_v15))) := fun W => by
    unfold StableHlo.held
    rw [bigSep_insert (by rw [Finset.mem_singleton]; exact hne), bigSep_singleton]
    rfl
  have hrest : (bigSep ((Pipeline.restRefsP sig pre0 spec0).erase main_v15) fun b => (((c.tc : Thread nD τ).loc b) ↦{fullShare} Vfin m a c (Proc.devRef .tc b) : sProp 𝕄))
      = bigSep ((Pipeline.restRefsP sig pre0 spec0).erase main_v15) fun b => (((c.tc : Thread nD τ).loc b) ↦{fullShare} V0 m c (Proc.devRef .tc b) : sProp 𝕄) :=
    bigSep_congr fun b hb => by rw [hkeep _ (h14 b hb).2, hWne _ (h14 b hb).1]
  rw [hArr, hZ (V0 m c), hZ (Vfin m a c), hrest, ← List.append_nil ((tailOps (F := F)).map StableHlo.seq)]
  iintro ⟨Hk, Hb, ⟨H14, Hrest⟩, H15, HZ⟩
  iapply (Pipeline.wp_seqs_then (pcfgs (F := F)) defs₀ Variants.none c S [] (tailOps (F := F)) hsub hfresh (Wexit m a c)) $$ [Hb H14 H15]
  · rw [hheld, hW14, hWne _ hne.symm]
    isplitl [Hb]; · iexact Hb
    isplitl [H14]; · iexact H14
    iexact H15
  have e : StableHlo.after (tailOps (F := F)).flatten (Wexit m a c) = Vfin m a c := rfl
  rw [Pipeline.chain_nil, wp_pure, e, hheld, hkeep _ hne, hW14]
  iintro ⟨Hb, H14, H15⟩
  imodintro
  iapply Hk
  isplitl [H14 Hrest]
  · isplitl [H14]; · iexact H14
    iexact Hrest
  isplitl [H15]; · iexact H15
  iexact HZ

end Cert.Kernel.Hand

end
-- ==== Proof.KWLaunch.lean ====
/-
  The launch: from any memory, under admissible table contents that are what the launch finds in the two tables, every
  weakly fair execution of the program ends, and in every final state each array of the pipeline holds what the
  write-backs of all 4096 points left in it and every other buffer what the one host operation after the launch leaves there.
-/
import proofs.«428622_j19267223290700_2_alg».proof.Proof.KWExit
import proofs.«428622_j19267223290700_2_alg».proof.Proof.KWSplit
import proofs.«428622_j19267223290700_2_alg».proof.Proof.KWTail

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

theorem run_main
    (hbody : ∀ c, BodyObligationLoose (dats m a 0 c) (defs₀ (F := F)) Variants.none () Set.univ)
    (hpf : ∀ c k, V0 m c (Proc.devRef .tc (pre0.ref k)) = a.1 k) :
    θ_run (defs (F := F)) (onTc (τ := τ) (main (F := F))) ⟨m, fun _ => 0, ρ⟩ (fun r => Post m a r.2) := by
  classical
  exact Pipeline.θ_run_region_pf_tail (pcfgs (F := F)) (adms a) (dats m a) () (cellOf_inj (adms a)) 0 winFacts₀0
    (Pipeline.OwnSemFacts.none spec0) preFacts0 emb₁ defs₀ Variants.none m ρ main
    (fun _ => Pipeline.chain ((tailOps (F := F)).map StableHlo.seq)) hbody
    block_pos0 arr_whole0 stage_whole0 (fun _ _ => rfl)
    (G := fun _ => iprop(emp)) (u₀ := initOf (Pipeline.cells (Pipeline.pin (pcfgs (F := F)) (adms a)) (cellOf_inj (adms a))) (Pipeline.launchToks (Pipeline.pin (pcfgs (F := F)) (adms a)) (cellOf_inj (adms a))))
    (hu₀ := by
      iintro Hu; imodintro
      isplitl [Hu]
      · iapply (show (ownU _ : sProp 𝕄) ⊢ BI.own (emb₁ (initOf (Pipeline.cells (Pipeline.pin (pcfgs (F := F)) (adms a)) (cellOf_inj (adms a))) (Pipeline.launchToks (Pipeline.pin (pcfgs (F := F)) (adms a)) (cellOf_inj (adms a))))) from .rfl)
        iexact Hu
      iapply (show (BI.emp : sProp 𝕄) ⊢ bigSep Finset.univ (fun _ : Dev nD => (BI.emp : sProp 𝕄)) from by rw [BI.bigSep_emp_const])
      iempintro)
    (V := fun c b => V0 m c (Proc.devRef .tc b)) (hmain := hmain m Variants.none)
    (hsplit := fun c => arrays_split m a c)
    (hpf := hpf)
    (X := fun c => iprop(∃ r, prngReg c r)) (Y := fun c => iprop(∃ r, prngReg c r))
    (Z := fun c => Pipeline.unscopedRestP (Ix := Unit) (Name := ℕ) (U := UR sig nD τ) (Lvl := ℕ) pre0 spec0 c (fun b => V0 m c (Proc.devRef .tc b)))
    (Z' := fun c => Pipeline.unscopedRestP (Ix := Unit) (Name := ℕ) (U := UR sig nD τ) (Lvl := ℕ) pre0 spec0 c (fun b => Vfin m a c (Proc.devRef .tc b)))
    (hX := fun c => by
      iintro ⟨HU, -, -, -, Hp, -⟩; imodintro
      isplitl [Hp]; · iexists _; iexact Hp
      iexact HU)
    (hin := fun c => by
      show _ ⊢ iprop(Pipeline.ΦA spec0 c ∗ Pipeline.ΦT pre0 a.1 c)
      unfold Pipeline.ΦA Pipeline.ΦT; iintro ⟨Hp, Ht, Hr⟩
      isplitr [Ht]
      · isplitl [Hr] <;> iassumption
      · iexact Ht)
    (hout := fun c => by
      show iprop(Pipeline.ΦA spec0 c ∗ Pipeline.ΦT pre0 a.1 c) ⊢ _
      rw [Pipeline.ownSems0_none]; unfold Pipeline.ΦA
      iintro ⟨⟨Hr, Hp⟩, -⟩
      isplitl [Hp]; · iexact Hp
      isplitr; · iempintro
      iexact Hr)
    (htail := fun c Q' => tail_step m a c Q')
    (QY := fun c s => ∀ b ∈ Pipeline.restRefsP sig pre0 spec0, s.mem ((c.tc : Thread nD τ).loc b) = Vfin m a c (Proc.devRef .tc b))
    (hY := fun c s' => by
      iintro ⟨-, HU, HSI⟩
      unfold Pipeline.unscopedRestP
      imodintro
      iapply (pointsTo_read_all (Pipeline.restRefsP sig pre0 spec0) (fun b => (c.tc : Thread nD τ).loc b) (fun b => Vfin m a c (Proc.devRef .tc b)) s')
      isplitl [HU] <;> iassumption)
    (hQ := fun s h c => ⟨(h c).1, (h c).2.2⟩)

end Cert.Kernel.Hand

end
-- ==== Proof.KWBody.lean ====
/-
  The kernel's body at one grid point, run on whole staging buffers at any contents.

  The body reads its four input blocks whole (two rows of 256 features, the 512 × 128 matrix, the bias of 128), reads
  the output block (the value read is not used), and stores over the whole output block the payload computed from the
  four values read. It touches neither index table. So, handed the four input blocks at named contents and the output
  block at anything, it returns the inputs as they were and the output block holding the payload at those contents.
-/
import proofs.«428622_j19267223290700_2_alg».proof.Proof.Gen.Kernel.Skeleton
import proofs.«428622_j19267223290700_2_alg».proof.Proof.Gen.Kernel.Launch
import Idealize.ShloMosaic.Lib.Pipeline.FrameBody
import Idealize.ShloMosaic.Lib.Pipeline.Value
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The offsets of every access of the body are zero, in each rank met. -/
theorem body_zeros3 : (![0, 0, 0] : Fin 3 → ℕ) = fun _ => 0 := by decide
theorem body_zeros2 : (![0, 0] : Fin 2 → ℕ) = fun _ => 0 := by decide
theorem body_zeros1 : (![0] : Fin 1 → ℕ) = fun _ => 0 := by decide

set_option maxHeartbeats 1000000 in
/-- The body's triple: the four input blocks come back unchanged, the output block holds the payload. -/
theorem body_run (c : Dev nD) (i : grid0.Coords) (arg1 : Memref sig .tc .smem S4096 .i32) (harg1 : arg1.IsWhole) (arg2 : Memref sig .tc .smem S4096 .i32) (harg2 : arg2.IsWhole)
    (arg3 : Memref sig .tc .vmem S1x1x256 .f32) (harg3 : arg3.IsWhole) (arg4 : Memref sig .tc .vmem S1x1x256 .f32) (harg4 : arg4.IsWhole) (arg5 : Memref sig .tc .vmem S512x128 .f32) (harg5 : arg5.IsWhole) (arg6 : Memref sig .tc .vmem S128 .f32) (harg6 : arg6.IsWhole) (arg7 : Memref sig .tc .vmem S1x1x128 .f32) (harg7 : arg7.IsWhole)
    (x0 x4 : Vec F S1x1x256 .f32) (x9 : Vec F S512x128 .f32) (x12 : Vec F S128 .f32) (E : Set ℕ) (K : PUnit → sProp 𝕄) :
    iprop(owns (c : Thread nD τ) arg3 fullShare x0 ∗ owns (c : Thread nD τ) arg4 fullShare x4 ∗ owns (c : Thread nD τ) arg5 fullShare x9 ∗ owns (c : Thread nD τ) arg6 fullShare x12 ∗ (∃ d, owns (c : Thread nD τ) arg7 fullShare d)
        ∗ (iprop(owns (c : Thread nD τ) arg3 fullShare x0 ∗ owns (c : Thread nD τ) arg4 fullShare x4 ∗ owns (c : Thread nD τ) arg5 fullShare x9 ∗ owns (c : Thread nD τ) arg6 fullShare x12 ∗ owns (c : Thread nD τ) arg7 fullShare (k0_pay1 x0 x4 x9 x12)) -∗ K ⟨⟩))
      ⊢ wp frame (wpE (defs₀ (F := F)) Variants.none c none) E (cc0__gather_concat_linear_kernel i arg1 harg1 arg2 harg2 arg3 harg3 arg4 harg4 arg5 harg5 arg6 harg6 arg7 harg7) K := by
  simp only [cc0__gather_concat_linear_kernel_eq_skeleton]; unfold cc0__gather_concat_linear_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4
  obtain rfl := harg5.eq_unread hf5; obtain rfl := harg6.eq_unread hf6
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- the output block: one store over the whole block, so what is read back is what was stored,
  iexists _; isplitr
  swap; · iexact H7
  ipureintro
  rw [View.read_writes_eq_canon _ _ _ (fun y => ⟨_, List.mem_singleton_self _, View.mem_set_unit_zero body_zeros3 Facts₀.inb_S1x1x128_S1x1x128_0_0_0 y⟩),
    View.canon_unit_zero body_zeros3]
  -- and each value read was a whole input block read at offset zero: the block's contents
  simp only [View.readAt_eq_ld, harg3.read_unread, harg4.read_unread, harg5.read_unread, harg6.read_unread,
    View.ld_unit_zero (S := S1x1x256) body_zeros3, View.ld_unit_zero (S := S512x128) body_zeros2, View.ld_unit_zero (S := S128) body_zeros1]

end Cert.Kernel.Hand

end
-- ==== Proof.KWObl.lean ====
/-
  The body obligation of the pipeline: at every grid point the body, called on the windows' current staging buffers,
  takes the loop's invariant and the five buffers at what they then hold to the invariant and the five buffers at what
  the proof data says the body leaves.

  The four input windows (two rows of the node table, the matrix, the bias) are never written by the body, so the
  buffer of each holds the window's block at every point, whether the block was fetched there or stayed from the point
  before. The body's triple then applies at those four blocks: it gives the inputs back as they were and leaves in the
  result window's buffer its one stored value, which is what the proof data records for that window.
-/
import proofs.«428622_j19267223290700_2_alg».proof.Proof.KWData
import proofs.«428622_j19267223290700_2_alg».proof.Proof.KWBody
import Idealize.ShloMosaic.Lib.Pipeline.FrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- An input window's current buffer holds the window's block at every point, fetched there or not. -/
theorem before0_0 (c : Dev nD) (t : Fin (cfg0 a).N) (d) : (dats m a 0 c).before 0 t d = iblk m a c 0 t :=
  ((dats m a 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 a).N) (d) : (dats m a 0 c).before 1 t d = iblk m a c 1 t :=
  ((dats m a 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 a).N) (d) : (dats m a 0 c).before 2 t d = iblk m a c 2 t :=
  ((dats m a 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 a).N) (d) : (dats m a 0 c).before 3 t d = iblk m a c 3 t :=
  ((dats m a 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- Each window's current staging buffer at point `t`, as the pipeline hands it to the body, and its wholeness. -/
abbrev ms0_0 (t : Fin (cfg0 a).N) : Memref sig .tc .vmem S1x1x256 .f32 := spec0_0.stage ((cfg0 a).slots t 0)
abbrev hs0_0 (t : Fin (cfg0 a).N) : (ms0_0 a t).IsWhole := Facts₀.hstage0_0 (((cfg0 a).slots t 0).cast Facts₀.nbuf0_0)
abbrev ms0_1 (t : Fin (cfg0 a).N) : Memref sig .tc .vmem S1x1x256 .f32 := spec0_1.stage ((cfg0 a).slots t 1)
abbrev hs0_1 (t : Fin (cfg0 a).N) : (ms0_1 a t).IsWhole := Facts₀.hstage0_1 (((cfg0 a).slots t 1).cast Facts₀.nbuf0_1)
abbrev ms0_2 (t : Fin (cfg0 a).N) : Memref sig .tc .vmem S512x128 .f32 := spec0_2.stage ((cfg0 a).slots t 2)
abbrev hs0_2 (t : Fin (cfg0 a).N) : (ms0_2 a t).IsWhole := Facts₀.hstage0_2 (((cfg0 a).slots t 2).cast Facts₀.nbuf0_2)
abbrev ms0_3 (t : Fin (cfg0 a).N) : Memref sig .tc .vmem S128 .f32 := spec0_3.stage ((cfg0 a).slots t 3)
abbrev hs0_3 (t : Fin (cfg0 a).N) : (ms0_3 a t).IsWhole := Facts₀.hstage0_3 (((cfg0 a).slots t 3).cast Facts₀.nbuf0_3)
abbrev ms0_4 (t : Fin (cfg0 a).N) : Memref sig .tc .vmem S1x1x128 .f32 := spec0_4.stage ((cfg0 a).slots t 4)
abbrev hs0_4 (t : Fin (cfg0 a).N) : (ms0_4 a t).IsWhole := Facts₀.hstage0_4 (((cfg0 a).slots t 4).cast Facts₀.nbuf0_4)

/-- The body at point `t`, on what the pipeline calls it with: the two index tables whole, each window's current buffer. -/
abbrev bodyAt0 (t : Fin (cfg0 a).N) : Prog (TpuEff nD τ sig (Elt F) Λ₀ .tc) PUnit :=
  cc0__gather_concat_linear_kernel (grid0.coords t) (Memref.whole main_v10) (Memref.isWhole_whole _) (Memref.whole main_v12) (Memref.isWhole_whole _)
    (ms0_0 a t) (hs0_0 a t) (ms0_1 a t) (hs0_1 a t) (ms0_2 a t) (hs0_2 a t) (ms0_3 a t) (hs0_3 a t) (ms0_4 a t) (hs0_4 a t)

/-- What the body is called with at point `t`: the invariant, what the core owes, the five current buffers. -/
def bodyPre (c : Dev nD) (t : Fin (cfg0 a).N) : sProp 𝕄 :=
  iprop((dats m a 0 c).Φ t.castSucc ∗ (dats m a 0 c).owesAt () t.castSucc
    ∗ (∃ d, owns (c : Thread nD τ) (ms0_0 a t) fullShare ((dats m a 0 c).before 0 t d))
    ∗ (∃ d, owns (c : Thread nD τ) (ms0_1 a t) fullShare ((dats m a 0 c).before 1 t d))
    ∗ (∃ d, owns (c : Thread nD τ) (ms0_2 a t) fullShare ((dats m a 0 c).before 2 t d))
    ∗ (∃ d, owns (c : Thread nD τ) (ms0_3 a t) fullShare ((dats m a 0 c).before 3 t d))
    ∗ (∃ d, owns (c : Thread nD τ) (ms0_4 a t) fullShare ((dats m a 0 c).before 4 t d)))

/-- and what it returns. -/
def bodyPost (c : Dev nD) (t : Fin (cfg0 a).N) : sProp 𝕄 :=
  iprop((dats m a 0 c).Φ t.succ ∗ (dats m a 0 c).owesAt () t.succ
    ∗ owns (c : Thread nD τ) (ms0_0 a t) fullShare ((dats m a 0 c).after 0 t)
    ∗ owns (c : Thread nD τ) (ms0_1 a t) fullShare ((dats m a 0 c).after 1 t)
    ∗ owns (c : Thread nD τ) (ms0_2 a t) fullShare ((dats m a 0 c).after 2 t)
    ∗ owns (c : Thread nD τ) (ms0_3 a t) fullShare ((dats m a 0 c).after 3 t)
    ∗ owns (c : Thread nD τ) (ms0_4 a t) fullShare ((dats m a 0 c).after 4 t))

/-- The body at any point: each input's buffer holds its block, so the body's triple applies at the four blocks; the
    invariant and what the core owes pass through untouched (they are the same at the next point). -/
theorem sound_body (c : Dev nD) (t : Fin (cfg0 a).N) :
    bodyPre m a c t ⊢ wp frame (wpE (defs₀ (F := F)) Variants.none c none) Set.univ (bodyAt0 a t) (fun _ => bodyPost m a c t) := by
  unfold bodyPre bodyPost bodyAt0
  simp only [before0_0, before0_1, before0_2, before0_3]
  rw [show (dats m a 0 c).Φ t.succ = (dats m a 0 c).Φ t.castSucc from rfl,
    show (dats m a 0 c).owesAt () t.succ = (dats m a 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_run c (grid0.coords t) (Memref.whole main_v10) (Memref.isWhole_whole _) (Memref.whole main_v12) (Memref.isWhole_whole _)
    (ms0_0 a t) (hs0_0 a t) (ms0_1 a t) (hs0_1 a t) (ms0_2 a t) (hs0_2 a t) (ms0_3 a t) (hs0_3 a t) (ms0_4 a t) (hs0_4 a t)
    (iblk m a c 0 t) (iblk m a c 1 t) (iblk m a c 2 t) (iblk m a c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m a 0 c) (defs₀ (F := F)) Variants.none () Set.univ := fun t => by
  rw [bigSep_W0, bigSep_W0]
  exact sound_body m a c t

end Cert.Kernel.Hand

end
-- ==== Proof.KWAdmCore.lean ====
/-
  The pipeline's side condition on its two index tables, from their range.

  The launch reads two tables of 4096 words from scalar memory. At grid point i the first two windows fetch block
  (t, 0, 0), of size 1 × 1 × 256, of the node table seen as 262144 × 1 × 256, where t is word i of the first
  (second) table read as a natural number: the index map loads the table at the offset i, through the unit
  rectangle at that offset, whose one index is i itself. The side condition asks that every such block lie inside
  the array: (t + 1) · 1 ≤ 262144 on the first axis, which is t < 262144, and (0 + 1) · 1 ≤ 1, (0 + 1) · 256 ≤ 256 on
  the other two; the transfers move 32-bit words, so their ends are whole words. All of this is stated with the
  tables' contents a variable; the contents the launch finds are put in last.
-/
import proofs.«428622_j19267223290700_2_alg».proof.Proof.KWEntry
import proofs.«428622_j19267223290700_2_alg».proof.Proof.PreRead
import proofs.«428622_j19267223290700_2_alg».proof.Proof.Spec
import Idealize.ShloMosaic.Lib.ValueIdx

noncomputable section

namespace Cert.Kernel.Hand

open Idealize.ShloMosaic Idealize.ShloMosaic.TcCoe Idealize.ShloMosaic.ValueIdx
open Idealize.SL Idealize.SL.Sem
open Cert.Kernel Cert.Kernel.Gen

variable {F : FTy → Type} [FloatOps F]

/-- A grid point's one coordinate, as a position in the tables. -/
def gridPos (i : grid0.Coords) : Fin 4096 := ⟨(i 0).val, (i 0).isLt⟩

/-- The unit rectangle at the offset a grid point computes has that point's position as its one index: the offset is
    the coordinate as a 32-bit word read back as a natural number, and the coordinate is below 4096. -/
theorem unit_emb (i : grid0.Coords) (inb : ∀ a, (k0_off1 i) a + S1.size a ≤ S4096.size a) (h1 : 0 < S1.numel) :
    (Rect.unit (s := S4096) (k0_off1 i) S1.size inb).emb (Shape.Idx.first h1) = ix1 (gridPos i) := by
  funext a
  apply Fin.ext
  match a with
  | ⟨0, _⟩ =>
    show (BitVec.ofNat 32 (i 0).val).toNat + 1 * 0 = (i 0).val
    have hlt : (i 0).val < 4096 := (i 0).isLt
    rw [BitVec.toNat_ofNat, Nat.mod_eq_of_lt (by omega)]
    omega

/-- The first window's block index at a grid point, whatever the tables hold: the first table's word at that position,
    read as a natural number, then 0, 0. -/
theorem transform0_eq (pf : pre0.Contents (Elt F)) (i : grid0.Coords) :
    cc0_transform_0 Facts₀.k0_off1_inb Facts₀.numel1_S1 pf i = ![(pf 0 (ix1 (gridPos i)) : BitVec 32).toNat, 0, 0] := by
  have e := unit_emb i (Facts₀.k0_off1_inb i) (Facts₀.numel1_S1.symm ▸ Nat.one_pos)
  show ![(pf 0 ((Rect.unit (s := S4096) (k0_off1 i) S1.size (Facts₀.k0_off1_inb i)).emb (Shape.Idx.first _)) : BitVec 32).toNat, _, _] = _
  rw [e]
  rfl

/-- The second window's, from the second table. -/
theorem transform1_eq (pf : pre0.Contents (Elt F)) (i : grid0.Coords) :
    cc0_transform_1 Facts₀.k0_off1_inb Facts₀.numel1_S1 pf i = ![(pf 1 (ix1 (gridPos i)) : BitVec 32).toNat, 0, 0] := by
  have e := unit_emb i (Facts₀.k0_off1_inb i) (Facts₀.numel1_S1.symm ▸ Nat.one_pos)
  show ![(pf 1 ((Rect.unit (s := S4096) (k0_off1 i) S1.size (Facts₀.k0_off1_inb i)).emb (Shape.Idx.first _)) : BitVec 32).toNat, _, _] = _
  rw [e]
  rfl

/-- Block (t, 0, 0) of size 1 × 1 × 256 lies inside the 262144 × 1 × 256 array when t < 262144. -/
theorem block_inb (t : Nat) (ht : t < 262144) (a : Fin 3) :
    ((![t, 0, 0] : Fin 3 → Nat) a + 1) * S1x1x256.size a ≤ S262144x1x256.size a := by
  match a with
  | ⟨0, _⟩ => show (t + 1) * 1 ≤ 262144; omega
  | ⟨1, _⟩ => show (0 + 1) * 1 ≤ 1; omega
  | ⟨2, _⟩ => show (0 + 1) * 256 ≤ 256; omega

/-- The side condition holds of any tables whose every word is below 262144. -/
theorem ok0_of_lt (pf : pre0.Contents (Elt F))
    (h0 : ∀ i : Fin 4096, (pf 0 (ix1 i) : BitVec 32).toNat < 262144)
    (h1 : ∀ i : Fin 4096, (pf 1 (ix1 i) : BitVec 32).toNat < 262144) : ok0 pf := by
  refine ⟨fun i => ⟨fun a => ?_, Or.inl rfl⟩, fun i => ⟨fun a => ?_, Or.inl rfl⟩⟩
  · rw [transform0_eq]; exact block_inb _ (h0 _) a
  · rw [transform1_eq]; exact block_inb _ (h1 _) a

variable (m : (ℓ : Loc nD τ sig) → Buf (Elt F) ℓ)

/-- On the program's one core: where every word of the two tables the launch finds is below 262144, those tables satisfy
    the side condition, and they are what every core's launch reads. -/
theorem adm_of_tables
    (h10 : ∀ (c : Dev nD) (i : Fin 4096), (V m c main_v10 (ix1 i) : BitVec 32).toNat < 262144)
    (h12 : ∀ (c : Dev nD) (i : Fin 4096), (V m c main_v12 (ix1 i) : BitVec 32).toNat < 262144) :
    ∃ a : (pcfg0 (F := F)).Adm, ∀ (c : Dev nD) (k : Fin pre0.K), V0 m c (Proc.devRef .tc (pre0.ref k)) = a.1 k := by
  refine ⟨⟨fun k => V0 m 0 (Proc.devRef .tc (pre0.ref k)), ok0_of_lt _ (h10 0) (h12 0)⟩, fun c k => ?_⟩
  rw [Subsingleton.elim c 0]

end Cert.Kernel.Hand

end
-- ==== Proof.KWHost.lean ====
/-
  What the launch finds in the buffers it touches. The host operations before it never write an argument array, nor
  the result arrays; they see the node table as 262144 × 1 × 256 (the same numbers in row-major order, so entry
  (r, 0, q) is entry (r, q) of the table); and they compute the row numbers (node counts by a segment sum of ones,
  exclusive prefix sums, plus the local node number) and cut their two columns out as two tables of 4096 words.
-/
import proofs.«428622_j19267223290700_2_alg».proof.Proof.KWEntry
import proofs.«428622_j19267223290700_2_alg».proof.Proof.Spec
import Idealize.ShloMosaic.Lib.StableHlo.Run
import Idealize.ShloMosaic.Lib.ValueIdx
import Idealize.ShloMosaic.Lib.Pipeline.Value

noncomputable section

namespace Cert.Kernel.Hand

open Idealize.ShloMosaic Idealize.ShloMosaic.TcCoe Idealize.ShloMosaic.ValueIdx
open Idealize.SL Idealize.SL.Sem
open Cert.Kernel Cert.Kernel.Gen
open Cert.Kernel.Facts₀ Cert.Kernel.Facts

variable {F : FTy → Type} [FloatOps F] (m : (ℓ : Loc nD τ sig) → Buf (Elt F) ℓ)

/-! ## Buffers no operation before the launch writes -/

/-- The node table is as the program was started with it: every operation before the launch writes another buffer. -/
theorem V_main_arg0 (c : Dev nD) : V m c main_arg0 = m ((c.tc : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- So is the array of graph numbers. -/
theorem V_main_arg1 (c : Dev nD) : V m c main_arg1 = m ((c.tc : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- So is the array of local node numbers. -/
theorem V_main_arg2 (c : Dev nD) : V m c main_arg2 = m ((c.tc : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- So is the matrix. -/
theorem V_main_arg3 (c : Dev nD) : V m c main_arg3 = m ((c.tc : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- So is the bias. -/
theorem V_main_arg4 (c : Dev nD) : V m c main_arg4 = m ((c.tc : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- The launch's result array is written by the launch only: before it, it is as the program was started. -/
theorem V_main_v14 (c : Dev nD) : V m c main_v14 = m ((c.tc : Thread nD τ).loc main_v14) :=
  StableHlo.after_of_forall_not_mem (b := Proc.devRef .tc main_v14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- The program's result array is written only after the launch. -/
theorem V_main_v15 (c : Dev nD) : V m c main_v15 = m ((c.tc : Thread nD τ).loc main_v15) :=
  StableHlo.after_of_forall_not_mem (b := Proc.devRef .tc main_v15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The node table seen as 262144 × 1 × 256 -/

theorem V_main_v13 (c : Dev nD) :
    V m c main_v13 = shapeCast S262144x1x256 (m ((c.tc : Thread nD τ).loc main_arg0)) Facts₀.shapeCasts_S262144x256_S262144x1x256 := by
  unfold V V0
  simp only [preOps, hostOps0, hostOps0_1, hostOps0_2, List.flatten_cons, List.flatten_nil, List.append_nil, List.cons_append,
    List.nil_append]
  after_results
  rfl

theorem V_main_v13_apply (c : Dev nD) (r : Fin 262144) (q : Fin 256) :
    V m c main_v13 (ix3 r 0 q) = m ((c.tc : Thread nD τ).loc main_arg0) (ix2 r q) := by
  rw [V_main_v13]
  refine shapeCast_apply _ _ _ (ix2 r q) ?_
  rw [Shape.rowMajor_val_two, Shape.rowMajor_val_three]
  show r.val * 256 + q.val = (r.val * 1 + 0) * 256 + q.val
  omega

/-! ## The two tables of row numbers -/

/-- The row numbers in the program's own operations: as `Cert.Spec.gidx`, but the running sums start from the
    constant 0 passed through a broadcast from rank 0 to rank 0. -/
def kidx (ids : IVec S262144 32) (tg : IVec S4096x2 32) : IVec S4096x2 32 :=
  let ones : IVec S262144 32 := broadcastInDim S262144 ![] Facts₀.bcast_S_S262144 (constantI S_ 32 1#32)
  let zeros : IVec S4096 32 := broadcastInDim S4096 ![] Facts₀.bcast_S_S4096 (constantI S_ 32 0#32)
  let col : IVec S262144x1 32 := broadcastInDim S262144x1 ![0] Facts₀.bcast_S262144_S262144x1_0 ids
  let counts : IVec S4096 32 := Host.scatter scatter_S4096_S262144x1_S262144_n_0_0_1 IntOp.addi zeros col ones
  let running : IVec S4096 32 :=
    Host.reduceWindow IntOp.addi ![4096] ![1] ![4095] ![0] counts
      (broadcastInDim S_ ![] Facts₀.bcast_S_S_ (constantI S_ 32 0#32)) Facts₀.reduceWindows_S4096_S4096_w4096s1p4095_0 Facts₀.h_S_
  let offsets : IVec S4096 32 := subi running counts
  addi (broadcastInDim S4096x2 ![0, 1] Facts₀.bcast_S4096x1_S4096x2_0_1
    (broadcastInDim S4096x1 ![0] Facts₀.bcast_S4096_S4096x1_0 offsets)) tg

/-- A broadcast from rank 0 to rank 0 of a constant is the constant: there is one index, and the constant does not
    look at it. -/
theorem bcast_const0 : broadcastInDim S_ ![] Facts₀.bcast_S_S_ (constantI S_ 32 0#32) = constantI S_ 32 0#32 := rfl

/-- The two records naming the scatter's axes have the same fields. -/
theorem scatter_eq : (scatter_S4096_S262144x1_S262144_n_0_0_1 : ScatterDims S4096 S262144x1 S262144)
    = Cert.Pre_finite_inputs.scatter_S4096_S262144x1_S262144_n_0_0_1 := rfl

/-- The program's row numbers are `Cert.Spec.gidx`: the same operations on the same operands. -/
theorem kidx_eq (ids : IVec S262144 32) (tg : IVec S4096x2 32) : kidx ids tg = Cert.Spec.gidx ids tg := by
  unfold kidx Cert.Spec.gidx
  rw [bcast_const0, scatter_eq]

/-- The row numbers' array as the launch finds it. -/
theorem V_main_v8 (c : Dev nD) :
    V m c main_v8 = kidx (m ((c.tc : Thread nD τ).loc main_arg1)) (m ((c.tc : Thread nD τ).loc main_arg2)) := by
  unfold V V0
  simp only [preOps, hostOps0, hostOps0_1, hostOps0_2, List.flatten_cons, List.flatten_nil, List.append_nil, List.cons_append,
    List.nil_append]
  after_results_simp
  simp only [StableHlo.TRef.ofBuf, StableHlo.TRef.toBuf, cast_eq]
  rfl

/-- Column `col` of the row numbers, as a table of 4096 words: the slice [0:4096, col:col+1] seen as 4096 entries. -/
theorem V_main_v10 (c : Dev nD) :
    V m c main_v10 = shapeCast S4096
      (extractStridedSlice S4096x1 ![0, 0] (V m c main_v8) Facts₀.slices_S4096x2_S4096x1_0_0) Facts₀.shapeCasts_S4096x1_S4096 := by
  unfold V V0
  simp only [preOps, hostOps0, hostOps0_1, hostOps0_2, List.flatten_cons, List.flatten_nil, List.append_nil, List.cons_append,
    List.nil_append]
  after_results_simp
  rfl

theorem V_main_v12 (c : Dev nD) :
    V m c main_v12 = shapeCast S4096
      (extractStridedSlice S4096x1 ![0, 1] (V m c main_v8) Facts₀.slices_S4096x2_S4096x1_0_1) Facts₀.shapeCasts_S4096x1_S4096 := by
  unfold V V0
  simp only [preOps, hostOps0, hostOps0_1, hostOps0_2, List.flatten_cons, List.flatten_nil, List.append_nil, List.cons_append,
    List.nil_append]
  after_results_simp
  rfl

/-- Entry `i` of a column cut out of a 4096 × 2 array and seen as 4096 entries is entry (i, column) of the array:
    the 4096 × 1 slice has entry (i, 0) at row-major position i, and the slice's entry (i, 0) is the array's
    (i, 0 + column). -/
theorem column_apply {α : Type} (x : S4096x2.Idx → α) (off : Fin 2 → Nat) (col : Fin 2) (h0 : off 0 = 0) (h1 : off 1 = col.val)
    (hs : S4096x2.Slices off S4096x1) (hc : S4096x1.ShapeCasts S4096) (i : Fin 4096) :
    shapeCast S4096 (extractStridedSlice S4096x1 off x hs) hc (ix1 i) = x (ix2 i col) := by
  refine (shapeCast_apply _ hc (ix1 i) (ix2 i (0 : Fin 1)) ?_).trans ?_
  · rw [Shape.rowMajor_val_two, Shape.rowMajor_val_one]
    show i.val * 1 + 0 = i.val
    omega
  · refine extractStridedSlice_apply off x hs _ (ix2 i col) fun a => ?_
    match a with
    | ⟨0, _⟩ => show i.val = off 0 + i.val; omega
    | ⟨1, _⟩ => show col.val = off 1 + 0; omega

/-- The first table holds the row numbers of endpoint 0. -/
theorem V_main_v10_apply (c : Dev nD) (i : Fin 4096) :
    V m c main_v10 (ix1 i)
      = Cert.Spec.gidx (m ((c.tc : Thread nD τ).loc main_arg1)) (m ((c.tc : Thread nD τ).loc main_arg2)) (ix2 i 0) := by
  rw [V_main_v10, V_main_v8, kidx_eq]
  exact column_apply _ ![0, 0] 0 rfl rfl _ _ i

/-- The second table holds the row numbers of endpoint 1. -/
theorem V_main_v12_apply (c : Dev nD) (i : Fin 4096) :
    V m c main_v12 (ix1 i)
      = Cert.Spec.gidx (m ((c.tc : Thread nD τ).loc main_arg1)) (m ((c.tc : Thread nD τ).loc main_arg2)) (ix2 i 1) := by
  rw [V_main_v12, V_main_v8, kidx_eq]
  exact column_apply _ ![0, 1] 1 rfl rfl _ _ i

end Cert.Kernel.Hand

end
-- ==== Proof.KWAdm.lean ====
/-
  The launch's index tables satisfy the pipeline's side condition wherever every row number is a row of the node table.

  The two tables the launch finds are the two columns of the row numbers; a row number in range, read as a natural
  number, is below 262144; so every block the first two windows fetch lies inside the node table.
-/
import proofs.«428622_j19267223290700_2_alg».proof.Proof.KWAdmCore
import proofs.«428622_j19267223290700_2_alg».proof.Proof.KWHost
import proofs.«428622_j19267223290700_2_alg».proof.Proof.PreRead
import proofs.«428622_j19267223290700_2_alg».proof.Proof.Spec

noncomputable section

namespace Cert.Kernel.Hand

open Idealize.ShloMosaic Idealize.ShloMosaic.TcCoe Idealize.ShloMosaic.ValueIdx
open Idealize.SL Idealize.SL.Sem
open Cert.Kernel Cert.Kernel.Gen

variable {F : FTy → Type} [FloatOps F] (m : (ℓ : Loc nD τ sig) → Buf (Elt F) ℓ)

/-- Where every row number is in range, the tables the launch finds are admissible, on every core. -/
theorem adm_of_inRange
    (hR : ∀ c : Dev nD, Cert.Spec.InRange (m ((c.tc : Thread nD τ).loc main_arg1)) (m ((c.tc : Thread nD τ).loc main_arg2))) :
    ∃ a : (pcfg0 (F := F)).Adm, ∀ (c : Dev nD) (k : Fin pre0.K), V0 m c (Proc.devRef .tc (pre0.ref k)) = a.1 k :=
  adm_of_tables m
    (fun c i => by rw [V_main_v10_apply]; exact Cert.PreRead.toNat_lt_of_inRange (hR c) _)
    (fun c i => by rw [V_main_v12_apply]; exact Cert.PreRead.toNat_lt_of_inRange (hR c) _)

end Cert.Kernel.Hand

end
-- ==== Proof.KWFrame.lean ====
/-
  What the final memory says of the program's arguments and of its result, given that every array of the pipeline
  holds what the write-backs left and every bypassing buffer what the one operation after the launch leaves.

  The matrix and the bias are arrays of input windows, which are never written back: they hold what the launch found,
  and no operation before the launch writes them. The node table, the graph numbers and the local node numbers bypass
  the region; the operation after the launch writes the program's result only, leaving the region writes the launch's
  result only, and no operation before the launch writes them: they are as the program was started. The program's
  result is the launch's result (what the 4096 write-backs left, 4096 × 1 × 128) seen as 4096 × 128: the same numbers in
  row-major order, so entry (i, t) is entry (i, 0, t).
-/
import proofs.«428622_j19267223290700_2_alg».proof.Proof.KWExit
import proofs.«428622_j19267223290700_2_alg».proof.Proof.KWHost
import Idealize.ShloMosaic.Lib.StableHlo.Run
import Idealize.ShloMosaic.Lib.ValueIdx
import Idealize.ShloMosaic.Lib.Pipeline.Value

set_option maxRecDepth 16384

noncomputable section

namespace Cert.Kernel.Hand

open Idealize.ShloMosaic Idealize.ShloMosaic.TcCoe Idealize.ShloMosaic.ValueIdx
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ) (a : (pcfg0 (F := F)).Adm)

/-- A buffer that is neither the launch's result nor the program's result holds at the end what the launch found:
    the operation after the launch writes the program's result only, leaving the region the launch's result only. -/
theorem Vfin_of_ne (c : Dev nD) (b : Ref sig .tc) (h14 : b ≠ main_v14) (h15 : b ≠ main_v15) :
    Vfin m a c (Proc.devRef .tc b) = V m c b := by
  unfold Vfin
  rw [StableHlo.after_of_forall_not_mem]
  · unfold Wexit
    exact Function.update_of_ne (StableHlo.devRef_ne_of_ne h14) _ _
  · intro op hop
    simp only [tailOps, hostOps1, List.flatten_cons, List.flatten_nil, List.append_nil, List.mem_singleton] at hop
    subst hop
    rw [StableHlo.reshape_writes, Finset.mem_singleton]
    exact StableHlo.devRef_ne_of_ne h15

/-- The launch's result when the region is left is what the write-backs left. -/
theorem Wexit_v14 (c : Dev nD) : Wexit m a c (Proc.devRef .tc main_v14) = (dats m a 0 c).arrAt 4 (cfg0 a).N := by
  unfold Wexit
  exact Function.update_self _ _ _

/-- The five arguments are at the end as the program was started with them. -/
theorem args_of_post (s : MemSt nD τ sig (Elt F)) (h : Post m a s) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4) := by
  refine ⟨?_, ?_, ?_, ?_, ?_⟩
  · exact ((h c).2 main_arg0 (by decide)).trans ((Vfin_of_ne m a c main_arg0 (by decide) (by decide)).trans (V_main_arg0 m c))
  · exact ((h c).2 main_arg1 (by decide)).trans ((Vfin_of_ne m a c main_arg1 (by decide) (by decide)).trans (V_main_arg1 m c))
  · exact ((h c).2 main_arg2 (by decide)).trans ((Vfin_of_ne m a c main_arg2 (by decide) (by decide)).trans (V_main_arg2 m c))
  · exact ((h c).1 2).trans (((dats m a 0 c).arrAt_in 2 rfl _).trans ((A_eq m a c 2).trans (V_main_arg3 m c)))
  · exact ((h c).1 3).trans (((dats m a 0 c).arrAt_in 3 rfl _).trans ((A_eq m a c 3).trans (V_main_arg4 m c)))

/-- The program's result is what the write-backs left in the launch's result, seen as 4096 × 128. -/
theorem result_of_post (s : MemSt nD τ sig (Elt F)) (h : Post m a s) (c : Dev nD) :
    s.mem ((c.tc : Thread nD τ).loc main_v15)
      = shapeCast S4096x128 ((dats m a 0 c).arrAt 4 (cfg0 a).N) Facts₀.shapeCasts_S4096x1x128_S4096x128 := by
  rw [(h c).2 main_v15 (by decide)]
  unfold Vfin
  simp only [tailOps, hostOps1, List.flatten_cons, List.flatten_nil, List.append_nil]
  after_results
  rw [Wexit_v14]
  rfl

/-- Entry (i, t) of the program's result is entry (i, 0, t) of what the write-backs left: the same row-major position. -/
theorem result_apply (s : MemSt nD τ sig (Elt F)) (h : Post m a s) (c : Dev nD) (i : Fin 4096) (t : Fin 128) :
    s.mem ((c.tc : Thread nD τ).loc main_v15) (ix2 i t) = (dats m a 0 c).arrAt 4 (cfg0 a).N (ix3 i (0 : Fin 1) t) := by
  rw [result_of_post m a s h c]
  refine shapeCast_apply _ _ _ (ix3 i (0 : Fin 1) t) ?_
  rw [Shape.rowMajor_val_three, Shape.rowMajor_val_two]
  show (i.val * 1 + 0) * 128 + t.val = i.val * 128 + t.val
  omega

end Cert.Kernel.Hand

end
-- ==== Proof.KWRun.lean ====
/-
  The kernel's program runs to the end and leaves its arguments as they were, wherever every row number is a row of the
  node table: the two index tables the launch finds are then admissible, the body's obligation holds at every grid
  point, and the launch's final state is read at the argument arrays.
-/
import proofs.«428622_j19267223290700_2_alg».proof.Proof.KWLaunch
import proofs.«428622_j19267223290700_2_alg».proof.Proof.KWObl
import proofs.«428622_j19267223290700_2_alg».proof.Proof.KWAdm
import proofs.«428622_j19267223290700_2_alg».proof.Proof.KWFrame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- Every weakly fair execution ends, faults nowhere, and leaves the five arguments unchanged. -/
theorem frame_run
    (hR : ∀ c : Dev nD, Cert.Spec.InRange (m ((c.tc : Thread nD τ).loc main_arg1)) (m ((c.tc : Thread nD τ).loc main_arg2))) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  obtain ⟨a, hpf⟩ := adm_of_inRange m hR
  exact (θ_run (defs (F := F)) _ _).mono (fun r h c => args_of_post m a r.2 h c)
    (run_main m ρ a (fun c => (body_obligation m a c).loose) hpf)

end Cert.Kernel.Hand

end
-- ==== Proof.KIEntry.lean ====
/-
  The idealized kernel's program around its one launch: the host operations before it (the row numbers, the two
  index tables cut from them, the node table seen as 262144 × 1 × 256), the launch, and the one host operation after it
  (the 4096 × 1 × 128 result seen as 4096 × 128). `V0` is what every buffer holds when the launch is reached: the
  operations before it applied, in order, to the memory the program starts from.
-/
import proofs.«428622_j19267223290700_2_alg».proof.Proof.Gen.KernelIdeal.Launch
import proofs.«428622_j19267223290700_2_alg».proof.Proof.Gen.KernelIdeal.Skeleton
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Cert.KernelIdeal Cert.KernelIdeal.Gen

variable {F : FTy → Type} [FloatOps F]

/-- The stretches of host operations before the launch, in order. -/
abbrev preOps : List (List (HloOp τ sig (Elt F))) := [hostOps0, hostOps0_1, hostOps0_2]
/-- The stretch after it. -/
abbrev tailOps : List (List (HloOp τ sig (Elt F))) := [hostOps1]

/-- No host operation of the program allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

variable (m : (ℓ : Loc nD τ sig) → Buf (Elt F) ℓ)

/-- Every buffer of core `c` as the launch finds it. -/
def V0 (c : Dev nD) : Valuation τ sig (Elt F) := StableHlo.after (preOps (F := F)).flatten (fun b => m (c, b))

/-- The same, at a TensorCore reference. -/
abbrev V (c : Dev nD) (b : Ref sig .tc) : Buf (Elt F) ((c.tc : Thread nD τ).loc b) := V0 m c (Proc.devRef .tc b)

/-- The program is the operations before the launch, the launch, the operation after it. -/
theorem hmain (𝒱₀ : Variants) :
    Pipeline.HMainPK (Ix := Unit) (Name := ℕ) (U := UR sig nD τ) (Lvl := ℕ) (pcfgs (F := F)) 0 defs₀ 𝒱₀ m (main (F := F))
      (fun c b => V0 m c (Proc.devRef .tc b)) (fun _ => Pipeline.chain ((tailOps (F := F)).map StableHlo.seq)) :=
  Pipeline.hmainP_around (pcfgs (F := F)) 0 defs₀ 𝒱₀ m main preOps tailOps
    ⟨hostOps0_sub, hostOps0_1_sub, hostOps0_2_sub⟩ ⟨hostOps0_fresh, hostOps0_1_fresh, hostOps0_2_fresh⟩ (fun c => (main_chain c).trans rfl)

end Cert.KernelIdeal.Hand

end
-- ==== Proof.KIData.lean ====
/-
  What the pipeline's staging buffers hold at each of the 4096 grid points, for any admissible contents of the two
  index tables. Point t fetches row (table 0)[t] of the node table into the first window and row (table 1)[t] into the
  second (both windows read the one node table, each at half of the read share), holds the whole matrix and the whole
  bias in the third and fourth, and the body leaves in the fifth window's buffer its one stored value, a function of
  those four blocks; that buffer is written back as row t of the result.
-/
import proofs.«428622_j19267223290700_2_alg».proof.Proof.KIEntry
import Idealize.ShloMosaic.Lib.Pipeline.FrameBody

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- The one pipeline's admissible table contents, as a family over the program's pipelines. -/
abbrev adms : (p : Fin 1) → (pcfgs (F := F) p).Adm := fun _ => a

/-- Window `w`'s block at point `t`, read off its array as the launch finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V m c (Pipeline.arrRef spec0 w))

/-- The proof data of the pipeline on core `c`. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => k0_pay1 (iblk m a c 0 t) (iblk m a c 1 t) (iblk m a c 2 t) (iblk m a c 3 t)
  Φ _ := iprop(Pipeline.ΦA spec0 c ∗ Pipeline.ΦT pre0 a.1 c)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin (cfg0 a).W) : (dats m a 0 c).A w = V m c (Pipeline.arrRef spec0 w) := by
  dsimp only [dats]

theorem after0_0 (c : Dev nD) (t : Fin (cfg0 a).N) : (dats m a 0 c).after 0 t = iblk m a c 0 t := by dsimp only [dats]; rfl
theorem after0_1 (c : Dev nD) (t : Fin (cfg0 a).N) : (dats m a 0 c).after 1 t = iblk m a c 1 t := by dsimp only [dats]; rfl
theorem after0_2 (c : Dev nD) (t : Fin (cfg0 a).N) : (dats m a 0 c).after 2 t = iblk m a c 2 t := by dsimp only [dats]; rfl
theorem after0_3 (c : Dev nD) (t : Fin (cfg0 a).N) : (dats m a 0 c).after 3 t = iblk m a c 3 t := by dsimp only [dats]; rfl
theorem after0_4 (c : Dev nD) (t : Fin (cfg0 a).N) :
    (dats m a 0 c).after 4 t = k0_pay1 (iblk m a c 0 t) (iblk m a c 1 t) (iblk m a c 2 t) (iblk m a c 3 t) := by dsimp only [dats]; rfl

end Cert.KernelIdeal.Hand

end
-- ==== Proof.KIExit.lean ====
/-
  What every buffer holds when the region is left and when the program ends: on leaving, everything is as the launch found
  it except the result array, which holds what the write-backs of all 4096 points left; the one host operation after the
  launch then writes the program's result from it.
-/
import proofs.«428622_j19267223290700_2_alg».proof.Proof.KIData
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- Every buffer of core `c` when the region is left: as the launch found it, but the result array at what the
    write-backs left. -/
def Wexit (c : Dev nD) : Valuation τ sig (Elt F) :=
  Function.update (V0 m c) (Proc.devRef .tc main_v14) ((dats m a 0 c).arrAt 4 (cfg0 a).N)

/-- Every buffer of core `c` at the program's end. -/
def Vfin (c : Dev nD) : Valuation τ sig (Elt F) := StableHlo.after (tailOps (F := F)).flatten (Wexit m a c)

/-- What holds of the final memory: each array of the pipeline at what the write-backs left, every other buffer that
    is no index table at what the operation after the launch leaves. -/
def Post (s : MemSt nD τ sig (Elt F)) : Prop :=
  ∀ c : Dev nD,
    (∀ w, s.mem ((((pcfgs (F := F) 0).at a).spec w).arr.view.loc (c.tc : Thread nD τ)) = (dats m a 0 c).arrAt w (cfg0 a).N)
    ∧ (∀ b ∈ Pipeline.restRefsP sig pre0 spec0, s.mem ((c.tc : Thread nD τ).loc b) = Vfin m a c (Proc.devRef .tc b))

end Cert.KernelIdeal.Hand

end
-- ==== Proof.KISplit.lean ====
/-
  Two of the pipeline's input windows read the one node table. The launch hands the pipeline each distinct array once, whole;
  the pipeline's own view is one share of its array per window. The node table's whole share is the two halves the two
  windows hold; every other array has one window, which holds it whole.
-/
import proofs.«428622_j19267223290700_2_alg».proof.Proof.KIData
import Idealize.ShloMosaic.Lib.Pipeline.Launch

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- The four distinct arrays behind the five windows. -/
theorem arrRefs_eq : Finset.univ.image (Pipeline.arrRef spec0) = [main_v13, main_arg3, main_arg4, main_v14].toFinset := by decide

/-- A window's array is a whole buffer: its points-to over the view's set is the plain points-to of the buffer behind it,
    at the contents the launch finds there. -/
theorem win_eq (c : Dev nD) (w : Fin 5) :
    (View.loc c.tc ((cfg0 a).win w).arr.view ↦[((cfg0 a).win w).arr.view.set]{(dats m a 0 c).share w} (dats m a 0 c).arrAt w 0 : sProp 𝕄)
      = ((c.tc : Thread nD τ).loc (Pipeline.arrRef spec0 w) ↦{(dats m a 0 c).share w} V m c (Pipeline.arrRef spec0 w)) := by
  have h : ((cfg0 a).win w).arr.view.set = Finset.univ := (arr_whole0 w).set_eq_univ
  rw [h]
  rfl

/-- The two windows on the node table hold its two halves; every other window holds its array whole. -/
theorem share_0 (c : Dev nD) : (dats m a 0 c).share (0 : Fin 5) = fullShare.left := by unfold Dat.share; dsimp only [dats]; rfl
theorem share_1 (c : Dev nD) : (dats m a 0 c).share (1 : Fin 5) = fullShare.right := by unfold Dat.share; dsimp only [dats]; rfl
theorem share_2 (c : Dev nD) : (dats m a 0 c).share (2 : Fin 5) = fullShare := by unfold Dat.share; dsimp only [dats]; rfl
theorem share_3 (c : Dev nD) : (dats m a 0 c).share (3 : Fin 5) = fullShare := by unfold Dat.share; dsimp only [dats]; rfl
theorem share_4 (c : Dev nD) : (dats m a 0 c).share (4 : Fin 5) = fullShare := by unfold Dat.share; dsimp only [dats]; rfl

/-- The buffers behind the windows' arrays, each held whole, make the pipeline's arrays at entry: the node table is split
    between the two windows that read it. -/
theorem arrays_split (c : Dev nD) :
    (Pipeline.arrBufs (Pipeline.pin (pcfgs (F := F)) (adms a) 0).spec c (fun b => V0 m c (Proc.devRef .tc b)) : sProp 𝕄)
      ⊢ (dats m a 0 c).arrays ((dats m a 0 c).arrAt · 0) := by
  classical
  unfold Pipeline.arrBufs Dat.arrays
  refine BIBase.Entails.trans (Entails.of_eq (bigSep_eq_bigSepL_of_eq [main_v13, main_arg3, main_arg4, main_v14] arrRefs_eq (by decide) _)) ?_
  refine BIBase.Entails.trans ?_ (Entails.of_eq (bigSep_W0 _).symm)
  show _ ⊢ iprop(
    (View.loc c.tc ((cfg0 a).win (0 : Fin 5)).arr.view ↦[((cfg0 a).win (0 : Fin 5)).arr.view.set]{(dats m a 0 c).share (0 : Fin 5)} (dats m a 0 c).arrAt (0 : Fin 5) 0) ∗
    (View.loc c.tc ((cfg0 a).win (1 : Fin 5)).arr.view ↦[((cfg0 a).win (1 : Fin 5)).arr.view.set]{(dats m a 0 c).share (1 : Fin 5)} (dats m a 0 c).arrAt (1 : Fin 5) 0) ∗
    (View.loc c.tc ((cfg0 a).win (2 : Fin 5)).arr.view ↦[((cfg0 a).win (2 : Fin 5)).arr.view.set]{(dats m a 0 c).share (2 : Fin 5)} (dats m a 0 c).arrAt (2 : Fin 5) 0) ∗
    (View.loc c.tc ((cfg0 a).win (3 : Fin 5)).arr.view ↦[((cfg0 a).win (3 : Fin 5)).arr.view.set]{(dats m a 0 c).share (3 : Fin 5)} (dats m a 0 c).arrAt (3 : Fin 5) 0) ∗
    (View.loc c.tc ((cfg0 a).win (4 : Fin 5)).arr.view ↦[((cfg0 a).win (4 : Fin 5)).arr.view.set]{(dats m a 0 c).share (4 : Fin 5)} (dats m a 0 c).arrAt (4 : Fin 5) 0))
  rw [win_eq m a c 0, win_eq m a c 1, win_eq m a c 2, win_eq m a c 3, win_eq m a c 4,
    share_0 m a c, share_1 m a c, share_2 m a c, share_3 m a c, share_4 m a c]
  show iprop(
      ((c.tc : Thread nD τ).loc main_v13 ↦{fullShare} V m c main_v13) ∗
      ((c.tc : Thread nD τ).loc main_arg3 ↦{fullShare} V m c main_arg3) ∗
      ((c.tc : Thread nD τ).loc main_arg4 ↦{fullShare} V m c main_arg4) ∗
      ((c.tc : Thread nD τ).loc main_v14 ↦{fullShare} V m c main_v14)) ⊢ iprop(
      ((c.tc : Thread nD τ).loc main_v13 ↦{fullShare.left} V m c main_v13) ∗
      ((c.tc : Thread nD τ).loc main_v13 ↦{fullShare.right} V m c main_v13) ∗
      ((c.tc : Thread nD τ).loc main_arg3 ↦{fullShare} V m c main_arg3) ∗
      ((c.tc : Thread nD τ).loc main_arg4 ↦{fullShare} V m c main_arg4) ∗
      ((c.tc : Thread nD τ).loc main_v14 ↦{fullShare} V m c main_v14))
  exact BIBase.Entails.trans (sep_mono_left (pointsTo_share (PosShare.mem_left_op_right fullShare)).1) (Idealize.SL.BI.Laws.sep_assoc).1

end Cert.KernelIdeal.Hand

end
-- ==== Proof.KITail.lean ====
/-
  The one host operation after the launch sees the 4096 × 1 × 128 result array as 4096 × 128 and writes it to the program's result.
  It reads the result array, which the pipeline hands back whole, and writes one buffer that is no array of the pipeline.
-/
import proofs.«428622_j19267223290700_2_alg».proof.Proof.KIExit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- The one host operation after the launch reads the result array and writes the program's result. -/
theorem tail_step (c : Dev nD) (Q' : PUnit → sProp 𝕄) :
    iprop((iprop((dats m a 0 c).arrays ((dats m a 0 c).arrAt · (Pipeline.pin (pcfgs (F := F)) (adms a) 0).N)
            ∗ Pipeline.unscopedRestP (Ix := Unit) (Name := ℕ) (U := UR sig nD τ) (Lvl := ℕ) pre0 spec0 c (fun b => Vfin m a c (Proc.devRef .tc b))) -∗ Q' ⟨⟩)
        ∗ boundary (c.tc : Thread nD τ) ∗ (dats m a 0 c).arrays ((dats m a 0 c).arrAt · (Pipeline.pin (pcfgs (F := F)) (adms a) 0).N)
        ∗ Pipeline.unscopedRestP (Ix := Unit) (Name := ℕ) (U := UR sig nD τ) (Lvl := ℕ) pre0 spec0 c (fun b => V0 m c (Proc.devRef .tc b)))
      ⊢ wp frame (wpE (Pipeline.defs (pcfgs (F := F)) defs₀) (Variants.lift Variants.none) (c.tc : Thread nD τ) none) Set.univ
          (Pipeline.chain ((tailOps (F := F)).map StableHlo.seq)) Q' := by
  classical
  -- the two buffers the operation touches
  let S : Finset (DevRef τ sig) := {Proc.devRef .tc main_v14, Proc.devRef .tc main_v15}
  have hne : (Proc.devRef (τ := τ) .tc main_v14 : DevRef τ sig) ≠ Proc.devRef .tc main_v15 := by decide
  have h15 : main_v15 ∈ Pipeline.restRefsP sig pre0 spec0 := by decide
  have h14 : ∀ b ∈ (Pipeline.restRefsP sig pre0 spec0).erase main_v15,
      (Proc.devRef (τ := τ) .tc b : DevRef τ sig) ≠ Proc.devRef .tc main_v14 ∧ (Proc.devRef (τ := τ) .tc b : DevRef τ sig) ≠ Proc.devRef .tc main_v15 := by
    decide
  have hsub : ∀ ops ∈ (tailOps (F := F)), ∀ op ∈ ops, op.bufs ⊆ S := by
    intro ops hops op hop
    obtain rfl : ops = hostOps1 := List.mem_singleton.mp hops
    obtain rfl := List.mem_singleton.mp hop
    exact subset_of_eq rfl
  have hfresh : ∀ ops ∈ (tailOps (F := F)), ∀ op ∈ ops, op.fresh = ∅ := by
    intro ops hops op hop
    obtain rfl : ops = hostOps1 := List.mem_singleton.mp hops
    obtain rfl := List.mem_singleton.mp hop
    rfl
  -- no operation after the launch writes a buffer other than the program's result
  have hkeep : ∀ b : DevRef τ sig, b ≠ Proc.devRef .tc main_v15 → Vfin m a c b = Wexit m a c b := by
    intro b hb
    unfold Vfin
    refine StableHlo.after_of_forall_not_mem _ _ fun op hop hw => ?_
    simp only [tailOps, hostOps1, List.flatten_cons, List.flatten_nil, List.append_nil, List.mem_singleton] at hop
    subst hop
    rw [StableHlo.reshape_writes, Finset.mem_singleton] at hw
    exact hb hw
  have hW14 : Wexit m a c (Proc.devRef .tc main_v14) = (dats m a 0 c).arrAt 4 (cfg0 a).N := Function.update_self ..
  have hWne : ∀ b : DevRef τ sig, b ≠ Proc.devRef .tc main_v14 → Wexit m a c b = V0 m c b := fun b hb => Function.update_of_ne hb ..
  have hshare4 : (dats m a 0 c).share 4 = fullShare := rfl
  -- the arrays, the result array's window taken out
  have hArr : ∀ Fn : (w : Fin (cfg0 a).W) → Buf (Elt F) (((cfg0 a).win w).arr.view.loc (c.tc : Thread nD τ)),
      ((dats m a 0 c).arrays Fn : sProp 𝕄)
      = iprop((((c.tc : Thread nD τ).loc main_v14) ↦{fullShare} Fn 4)
          ∗ bigSep (Finset.univ.erase (4 : Fin (cfg0 a).W)) fun w =>
              (((cfg0 a).win w).arr.view.loc (c.tc : Thread nD τ) ↦[((cfg0 a).win w).arr.view.set]{(dats m a 0 c).share w} Fn w : sProp 𝕄)) := fun Fn => by
    have hs : ((cfg0 a).win 4).arr.view.set = Finset.univ := (arr_whole0 4).set_eq_univ
    unfold Dat.arrays
    rw [bigSep_univ_split (4 : Fin (cfg0 a).W), hs, hshare4]
    rfl
  -- the bypassing buffers, the program's result taken out
  have hZ : ∀ W : Valuation τ sig (Elt F),
      (Pipeline.unscopedRestP (Ix := Unit) (Name := ℕ) (U := UR sig nD τ) (Lvl := ℕ) pre0 spec0 c (fun b => W (Proc.devRef .tc b)) : sProp 𝕄)
        = iprop((((c.tc : Thread nD τ).loc main_v15) ↦{fullShare} W (Proc.devRef .tc main_v15))
            ∗ bigSep ((Pipeline.restRefsP sig pre0 spec0).erase main_v15) fun b => (((c.tc : Thread nD τ).loc b) ↦{fullShare} W (Proc.devRef .tc b) : sProp 𝕄)) := fun W => by
    unfold Pipeline.unscopedRestP
    exact bigSep_erase h15
  have hheld : ∀ W : Valuation τ sig (Elt F), (StableHlo.held (c.tc : Thread nD τ) S W : sProp 𝕄)
      = iprop((((c.tc : Thread nD τ).loc main_v14) ↦{fullShare} W (Proc.devRef .tc main_v14))
          ∗ (((c.tc : Thread nD τ).loc main_v15) ↦{fullShare} W (Proc.devRef .tc main_v15))) := fun W => by
    unfold StableHlo.held
    rw [bigSep_insert (by rw [Finset.mem_singleton]; exact hne), bigSep_singleton]
    rfl
  have hrest : (bigSep ((Pipeline.restRefsP sig pre0 spec0).erase main_v15) fun b => (((c.tc : Thread nD τ).loc b) ↦{fullShare} Vfin m a c (Proc.devRef .tc b) : sProp 𝕄))
      = bigSep ((Pipeline.restRefsP sig pre0 spec0).erase main_v15) fun b => (((c.tc : Thread nD τ).loc b) ↦{fullShare} V0 m c (Proc.devRef .tc b) : sProp 𝕄) :=
    bigSep_congr fun b hb => by rw [hkeep _ (h14 b hb).2, hWne _ (h14 b hb).1]
  rw [hArr, hZ (V0 m c), hZ (Vfin m a c), hrest, ← List.append_nil ((tailOps (F := F)).map StableHlo.seq)]
  iintro ⟨Hk, Hb, ⟨H14, Hrest⟩, H15, HZ⟩
  iapply (Pipeline.wp_seqs_then (pcfgs (F := F)) defs₀ Variants.none c S [] (tailOps (F := F)) hsub hfresh (Wexit m a c)) $$ [Hb H14 H15]
  · rw [hheld, hW14, hWne _ hne.symm]
    isplitl [Hb]; · iexact Hb
    isplitl [H14]; · iexact H14
    iexact H15
  have e : StableHlo.after (tailOps (F := F)).flatten (Wexit m a c) = Vfin m a c := rfl
  rw [Pipeline.chain_nil, wp_pure, e, hheld, hkeep _ hne, hW14]
  iintro ⟨Hb, H14, H15⟩
  imodintro
  iapply Hk
  isplitl [H14 Hrest]
  · isplitl [H14]; · iexact H14
    iexact Hrest
  isplitl [H15]; · iexact H15
  iexact HZ

end Cert.KernelIdeal.Hand

end
-- ==== Proof.KILaunch.lean ====
/-
  The launch: from any memory, under admissible table contents that are what the launch finds in the two tables, every
  weakly fair execution of the program ends, and in every final state each array of the pipeline holds what the
  write-backs of all 4096 points left in it and every other buffer what the one host operation after the launch leaves there.
-/
import proofs.«428622_j19267223290700_2_alg».proof.Proof.KIExit
import proofs.«428622_j19267223290700_2_alg».proof.Proof.KISplit
import proofs.«428622_j19267223290700_2_alg».proof.Proof.KITail

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

theorem run_main
    (hbody : ∀ c, BodyObligationLoose (dats m a 0 c) (defs₀ (F := F)) Variants.none () Set.univ)
    (hpf : ∀ c k, V0 m c (Proc.devRef .tc (pre0.ref k)) = a.1 k) :
    θ_run (defs (F := F)) (onTc (τ := τ) (main (F := F))) ⟨m, fun _ => 0, ρ⟩ (fun r => Post m a r.2) := by
  classical
  exact Pipeline.θ_run_region_pf_tail (pcfgs (F := F)) (adms a) (dats m a) () (cellOf_inj (adms a)) 0 winFacts₀0
    (Pipeline.OwnSemFacts.none spec0) preFacts0 emb₁ defs₀ Variants.none m ρ main
    (fun _ => Pipeline.chain ((tailOps (F := F)).map StableHlo.seq)) hbody
    block_pos0 arr_whole0 stage_whole0 (fun _ _ => rfl)
    (G := fun _ => iprop(emp)) (u₀ := initOf (Pipeline.cells (Pipeline.pin (pcfgs (F := F)) (adms a)) (cellOf_inj (adms a))) (Pipeline.launchToks (Pipeline.pin (pcfgs (F := F)) (adms a)) (cellOf_inj (adms a))))
    (hu₀ := by
      iintro Hu; imodintro
      isplitl [Hu]
      · iapply (show (ownU _ : sProp 𝕄) ⊢ BI.own (emb₁ (initOf (Pipeline.cells (Pipeline.pin (pcfgs (F := F)) (adms a)) (cellOf_inj (adms a))) (Pipeline.launchToks (Pipeline.pin (pcfgs (F := F)) (adms a)) (cellOf_inj (adms a))))) from .rfl)
        iexact Hu
      iapply (show (BI.emp : sProp 𝕄) ⊢ bigSep Finset.univ (fun _ : Dev nD => (BI.emp : sProp 𝕄)) from by rw [BI.bigSep_emp_const])
      iempintro)
    (V := fun c b => V0 m c (Proc.devRef .tc b)) (hmain := hmain m Variants.none)
    (hsplit := fun c => arrays_split m a c)
    (hpf := hpf)
    (X := fun c => iprop(∃ r, prngReg c r)) (Y := fun c => iprop(∃ r, prngReg c r))
    (Z := fun c => Pipeline.unscopedRestP (Ix := Unit) (Name := ℕ) (U := UR sig nD τ) (Lvl := ℕ) pre0 spec0 c (fun b => V0 m c (Proc.devRef .tc b)))
    (Z' := fun c => Pipeline.unscopedRestP (Ix := Unit) (Name := ℕ) (U := UR sig nD τ) (Lvl := ℕ) pre0 spec0 c (fun b => Vfin m a c (Proc.devRef .tc b)))
    (hX := fun c => by
      iintro ⟨HU, -, -, -, Hp, -⟩; imodintro
      isplitl [Hp]; · iexists _; iexact Hp
      iexact HU)
    (hin := fun c => by
      show _ ⊢ iprop(Pipeline.ΦA spec0 c ∗ Pipeline.ΦT pre0 a.1 c)
      unfold Pipeline.ΦA Pipeline.ΦT; iintro ⟨Hp, Ht, Hr⟩
      isplitr [Ht]
      · isplitl [Hr] <;> iassumption
      · iexact Ht)
    (hout := fun c => by
      show iprop(Pipeline.ΦA spec0 c ∗ Pipeline.ΦT pre0 a.1 c) ⊢ _
      rw [Pipeline.ownSems0_none]; unfold Pipeline.ΦA
      iintro ⟨⟨Hr, Hp⟩, -⟩
      isplitl [Hp]; · iexact Hp
      isplitr; · iempintro
      iexact Hr)
    (htail := fun c Q' => tail_step m a c Q')
    (QY := fun c s => ∀ b ∈ Pipeline.restRefsP sig pre0 spec0, s.mem ((c.tc : Thread nD τ).loc b) = Vfin m a c (Proc.devRef .tc b))
    (hY := fun c s' => by
      iintro ⟨-, HU, HSI⟩
      unfold Pipeline.unscopedRestP
      imodintro
      iapply (pointsTo_read_all (Pipeline.restRefsP sig pre0 spec0) (fun b => (c.tc : Thread nD τ).loc b) (fun b => Vfin m a c (Proc.devRef .tc b)) s')
      isplitl [HU] <;> iassumption)
    (hQ := fun s h c => ⟨(h c).1, (h c).2.2⟩)

end Cert.KernelIdeal.Hand

end
-- ==== Proof.KIBody.lean ====
/-
  The kernel's body at one grid point, run on whole staging buffers at any contents.

  The body reads its four input blocks whole (two rows of 256 features, the 512 × 128 matrix, the bias of 128), reads
  the output block (the value read is not used), and stores over the whole output block the payload computed from the
  four values read. It touches neither index table. So, handed the four input blocks at named contents and the output
  block at anything, it returns the inputs as they were and the output block holding the payload at those contents.
-/
import proofs.«428622_j19267223290700_2_alg».proof.Proof.Gen.KernelIdeal.Skeleton
import proofs.«428622_j19267223290700_2_alg».proof.Proof.Gen.KernelIdeal.Launch
import Idealize.ShloMosaic.Lib.Pipeline.FrameBody
import Idealize.ShloMosaic.Lib.Pipeline.Value
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The offsets of every access of the body are zero, in each rank met. -/
theorem body_zeros3 : (![0, 0, 0] : Fin 3 → ℕ) = fun _ => 0 := by decide
theorem body_zeros2 : (![0, 0] : Fin 2 → ℕ) = fun _ => 0 := by decide
theorem body_zeros1 : (![0] : Fin 1 → ℕ) = fun _ => 0 := by decide

set_option maxHeartbeats 1000000 in
/-- The body's triple: the four input blocks come back unchanged, the output block holds the payload. -/
theorem body_run (c : Dev nD) (i : grid0.Coords) (arg1 : Memref sig .tc .smem S4096 .i32) (harg1 : arg1.IsWhole) (arg2 : Memref sig .tc .smem S4096 .i32) (harg2 : arg2.IsWhole)
    (arg3 : Memref sig .tc .vmem S1x1x256 .f32) (harg3 : arg3.IsWhole) (arg4 : Memref sig .tc .vmem S1x1x256 .f32) (harg4 : arg4.IsWhole) (arg5 : Memref sig .tc .vmem S512x128 .f32) (harg5 : arg5.IsWhole) (arg6 : Memref sig .tc .vmem S128 .f32) (harg6 : arg6.IsWhole) (arg7 : Memref sig .tc .vmem S1x1x128 .f32) (harg7 : arg7.IsWhole)
    (x0 x4 : Vec F S1x1x256 .f32) (x9 : Vec F S512x128 .f32) (x12 : Vec F S128 .f32) (E : Set ℕ) (K : PUnit → sProp 𝕄) :
    iprop(owns (c : Thread nD τ) arg3 fullShare x0 ∗ owns (c : Thread nD τ) arg4 fullShare x4 ∗ owns (c : Thread nD τ) arg5 fullShare x9 ∗ owns (c : Thread nD τ) arg6 fullShare x12 ∗ (∃ d, owns (c : Thread nD τ) arg7 fullShare d)
        ∗ (iprop(owns (c : Thread nD τ) arg3 fullShare x0 ∗ owns (c : Thread nD τ) arg4 fullShare x4 ∗ owns (c : Thread nD τ) arg5 fullShare x9 ∗ owns (c : Thread nD τ) arg6 fullShare x12 ∗ owns (c : Thread nD τ) arg7 fullShare (k0_pay1 x0 x4 x9 x12)) -∗ K ⟨⟩))
      ⊢ wp frame (wpE (defs₀ (F := F)) Variants.none c none) E (cc0__gather_concat_linear_kernel i arg1 harg1 arg2 harg2 arg3 harg3 arg4 harg4 arg5 harg5 arg6 harg6 arg7 harg7) K := by
  simp only [cc0__gather_concat_linear_kernel_eq_skeleton]; unfold cc0__gather_concat_linear_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4
  obtain rfl := harg5.eq_unread hf5; obtain rfl := harg6.eq_unread hf6
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- the output block: one store over the whole block, so what is read back is what was stored,
  iexists _; isplitr
  swap; · iexact H7
  ipureintro
  rw [View.read_writes_eq_canon _ _ _ (fun y => ⟨_, List.mem_singleton_self _, View.mem_set_unit_zero body_zeros3 Facts₀.inb_S1x1x128_S1x1x128_0_0_0 y⟩),
    View.canon_unit_zero body_zeros3]
  -- and each value read was a whole input block read at offset zero: the block's contents
  simp only [View.readAt_eq_ld, harg3.read_unread, harg4.read_unread, harg5.read_unread, harg6.read_unread,
    View.ld_unit_zero (S := S1x1x256) body_zeros3, View.ld_unit_zero (S := S512x128) body_zeros2, View.ld_unit_zero (S := S128) body_zeros1]

end Cert.KernelIdeal.Hand

end
-- ==== Proof.KIObl.lean ====
/-
  The body obligation of the pipeline: at every grid point the body, called on the windows' current staging buffers,
  takes the loop's invariant and the five buffers at what they then hold to the invariant and the five buffers at what
  the proof data says the body leaves.

  The four input windows (two rows of the node table, the matrix, the bias) are never written by the body, so the
  buffer of each holds the window's block at every point, whether the block was fetched there or stayed from the point
  before. The body's triple then applies at those four blocks: it gives the inputs back as they were and leaves in the
  result window's buffer its one stored value, which is what the proof data records for that window.
-/
import proofs.«428622_j19267223290700_2_alg».proof.Proof.KIData
import proofs.«428622_j19267223290700_2_alg».proof.Proof.KIBody
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- An input window's current buffer holds the window's block at every point, fetched there or not. -/
theorem before0_0 (c : Dev nD) (t : Fin (cfg0 a).N) (d) : (dats m a 0 c).before 0 t d = iblk m a c 0 t :=
  ((dats m a 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 a).N) (d) : (dats m a 0 c).before 1 t d = iblk m a c 1 t :=
  ((dats m a 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 a).N) (d) : (dats m a 0 c).before 2 t d = iblk m a c 2 t :=
  ((dats m a 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 a).N) (d) : (dats m a 0 c).before 3 t d = iblk m a c 3 t :=
  ((dats m a 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- Each window's current staging buffer at point `t`, as the pipeline hands it to the body, and its wholeness. -/
abbrev ms0_0 (t : Fin (cfg0 a).N) : Memref sig .tc .vmem S1x1x256 .f32 := spec0_0.stage ((cfg0 a).slots t 0)
abbrev hs0_0 (t : Fin (cfg0 a).N) : (ms0_0 a t).IsWhole := Facts₀.hstage0_0 (((cfg0 a).slots t 0).cast Facts₀.nbuf0_0)
abbrev ms0_1 (t : Fin (cfg0 a).N) : Memref sig .tc .vmem S1x1x256 .f32 := spec0_1.stage ((cfg0 a).slots t 1)
abbrev hs0_1 (t : Fin (cfg0 a).N) : (ms0_1 a t).IsWhole := Facts₀.hstage0_1 (((cfg0 a).slots t 1).cast Facts₀.nbuf0_1)
abbrev ms0_2 (t : Fin (cfg0 a).N) : Memref sig .tc .vmem S512x128 .f32 := spec0_2.stage ((cfg0 a).slots t 2)
abbrev hs0_2 (t : Fin (cfg0 a).N) : (ms0_2 a t).IsWhole := Facts₀.hstage0_2 (((cfg0 a).slots t 2).cast Facts₀.nbuf0_2)
abbrev ms0_3 (t : Fin (cfg0 a).N) : Memref sig .tc .vmem S128 .f32 := spec0_3.stage ((cfg0 a).slots t 3)
abbrev hs0_3 (t : Fin (cfg0 a).N) : (ms0_3 a t).IsWhole := Facts₀.hstage0_3 (((cfg0 a).slots t 3).cast Facts₀.nbuf0_3)
abbrev ms0_4 (t : Fin (cfg0 a).N) : Memref sig .tc .vmem S1x1x128 .f32 := spec0_4.stage ((cfg0 a).slots t 4)
abbrev hs0_4 (t : Fin (cfg0 a).N) : (ms0_4 a t).IsWhole := Facts₀.hstage0_4 (((cfg0 a).slots t 4).cast Facts₀.nbuf0_4)

/-- The body at point `t`, on what the pipeline calls it with: the two index tables whole, each window's current buffer. -/
abbrev bodyAt0 (t : Fin (cfg0 a).N) : Prog (TpuEff nD τ sig (Elt F) Λ₀ .tc) PUnit :=
  cc0__gather_concat_linear_kernel (grid0.coords t) (Memref.whole main_v10) (Memref.isWhole_whole _) (Memref.whole main_v12) (Memref.isWhole_whole _)
    (ms0_0 a t) (hs0_0 a t) (ms0_1 a t) (hs0_1 a t) (ms0_2 a t) (hs0_2 a t) (ms0_3 a t) (hs0_3 a t) (ms0_4 a t) (hs0_4 a t)

/-- What the body is called with at point `t`: the invariant, what the core owes, the five current buffers. -/
def bodyPre (c : Dev nD) (t : Fin (cfg0 a).N) : sProp 𝕄 :=
  iprop((dats m a 0 c).Φ t.castSucc ∗ (dats m a 0 c).owesAt () t.castSucc
    ∗ (∃ d, owns (c : Thread nD τ) (ms0_0 a t) fullShare ((dats m a 0 c).before 0 t d))
    ∗ (∃ d, owns (c : Thread nD τ) (ms0_1 a t) fullShare ((dats m a 0 c).before 1 t d))
    ∗ (∃ d, owns (c : Thread nD τ) (ms0_2 a t) fullShare ((dats m a 0 c).before 2 t d))
    ∗ (∃ d, owns (c : Thread nD τ) (ms0_3 a t) fullShare ((dats m a 0 c).before 3 t d))
    ∗ (∃ d, owns (c : Thread nD τ) (ms0_4 a t) fullShare ((dats m a 0 c).before 4 t d)))

/-- and what it returns. -/
def bodyPost (c : Dev nD) (t : Fin (cfg0 a).N) : sProp 𝕄 :=
  iprop((dats m a 0 c).Φ t.succ ∗ (dats m a 0 c).owesAt () t.succ
    ∗ owns (c : Thread nD τ) (ms0_0 a t) fullShare ((dats m a 0 c).after 0 t)
    ∗ owns (c : Thread nD τ) (ms0_1 a t) fullShare ((dats m a 0 c).after 1 t)
    ∗ owns (c : Thread nD τ) (ms0_2 a t) fullShare ((dats m a 0 c).after 2 t)
    ∗ owns (c : Thread nD τ) (ms0_3 a t) fullShare ((dats m a 0 c).after 3 t)
    ∗ owns (c : Thread nD τ) (ms0_4 a t) fullShare ((dats m a 0 c).after 4 t))

/-- The body at any point: each input's buffer holds its block, so the body's triple applies at the four blocks; the
    invariant and what the core owes pass through untouched (they are the same at the next point). -/
theorem sound_body (c : Dev nD) (t : Fin (cfg0 a).N) :
    bodyPre m a c t ⊢ wp frame (wpE (defs₀ (F := F)) Variants.none c none) Set.univ (bodyAt0 a t) (fun _ => bodyPost m a c t) := by
  unfold bodyPre bodyPost bodyAt0
  simp only [before0_0, before0_1, before0_2, before0_3]
  rw [show (dats m a 0 c).Φ t.succ = (dats m a 0 c).Φ t.castSucc from rfl,
    show (dats m a 0 c).owesAt () t.succ = (dats m a 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_run c (grid0.coords t) (Memref.whole main_v10) (Memref.isWhole_whole _) (Memref.whole main_v12) (Memref.isWhole_whole _)
    (ms0_0 a t) (hs0_0 a t) (ms0_1 a t) (hs0_1 a t) (ms0_2 a t) (hs0_2 a t) (ms0_3 a t) (hs0_3 a t) (ms0_4 a t) (hs0_4 a t)
    (iblk m a c 0 t) (iblk m a c 1 t) (iblk m a c 2 t) (iblk m a c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m a 0 c) (defs₀ (F := F)) Variants.none () Set.univ := fun t => by
  rw [bigSep_W0, bigSep_W0]
  exact sound_body m a c t

end Cert.KernelIdeal.Hand

end
-- ==== Proof.KIAdmCore.lean ====
/-
  The pipeline's side condition on its two index tables, from their range.

  The launch reads two tables of 4096 words from scalar memory. At grid point i the first two windows fetch block
  (t, 0, 0), of size 1 × 1 × 256, of the node table seen as 262144 × 1 × 256, where t is word i of the first
  (second) table read as a natural number: the index map loads the table at the offset i, through the unit
  rectangle at that offset, whose one index is i itself. The side condition asks that every such block lie inside
  the array: (t + 1) · 1 ≤ 262144 on the first axis, which is t < 262144, and (0 + 1) · 1 ≤ 1, (0 + 1) · 256 ≤ 256 on
  the other two; the transfers move 32-bit words, so their ends are whole words. All of this is stated with the
  tables' contents a variable; the contents the launch finds are put in last.
-/
import proofs.«428622_j19267223290700_2_alg».proof.Proof.KIEntry
import proofs.«428622_j19267223290700_2_alg».proof.Proof.PreRead
import proofs.«428622_j19267223290700_2_alg».proof.Proof.Spec
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]

/-- A grid point's one coordinate, as a position in the tables. -/
def gridPos (i : grid0.Coords) : Fin 4096 := ⟨(i 0).val, (i 0).isLt⟩

/-- The unit rectangle at the offset a grid point computes has that point's position as its one index: the offset is
    the coordinate as a 32-bit word read back as a natural number, and the coordinate is below 4096. -/
theorem unit_emb (i : grid0.Coords) (inb : ∀ a, (k0_off1 i) a + S1.size a ≤ S4096.size a) (h1 : 0 < S1.numel) :
    (Rect.unit (s := S4096) (k0_off1 i) S1.size inb).emb (Shape.Idx.first h1) = ix1 (gridPos i) := by
  funext a
  apply Fin.ext
  match a with
  | ⟨0, _⟩ =>
    show (BitVec.ofNat 32 (i 0).val).toNat + 1 * 0 = (i 0).val
    have hlt : (i 0).val < 4096 := (i 0).isLt
    rw [BitVec.toNat_ofNat, Nat.mod_eq_of_lt (by omega)]
    omega

/-- The first window's block index at a grid point, whatever the tables hold: the first table's word at that position,
    read as a natural number, then 0, 0. -/
theorem transform0_eq (pf : pre0.Contents (Elt F)) (i : grid0.Coords) :
    cc0_transform_0 Facts₀.k0_off1_inb Facts₀.numel1_S1 pf i = ![(pf 0 (ix1 (gridPos i)) : BitVec 32).toNat, 0, 0] := by
  have e := unit_emb i (Facts₀.k0_off1_inb i) (Facts₀.numel1_S1.symm ▸ Nat.one_pos)
  show ![(pf 0 ((Rect.unit (s := S4096) (k0_off1 i) S1.size (Facts₀.k0_off1_inb i)).emb (Shape.Idx.first _)) : BitVec 32).toNat, _, _] = _
  rw [e]
  rfl

/-- The second window's, from the second table. -/
theorem transform1_eq (pf : pre0.Contents (Elt F)) (i : grid0.Coords) :
    cc0_transform_1 Facts₀.k0_off1_inb Facts₀.numel1_S1 pf i = ![(pf 1 (ix1 (gridPos i)) : BitVec 32).toNat, 0, 0] := by
  have e := unit_emb i (Facts₀.k0_off1_inb i) (Facts₀.numel1_S1.symm ▸ Nat.one_pos)
  show ![(pf 1 ((Rect.unit (s := S4096) (k0_off1 i) S1.size (Facts₀.k0_off1_inb i)).emb (Shape.Idx.first _)) : BitVec 32).toNat, _, _] = _
  rw [e]
  rfl

/-- Block (t, 0, 0) of size 1 × 1 × 256 lies inside the 262144 × 1 × 256 array when t < 262144. -/
theorem block_inb (t : Nat) (ht : t < 262144) (a : Fin 3) :
    ((![t, 0, 0] : Fin 3 → Nat) a + 1) * S1x1x256.size a ≤ S262144x1x256.size a := by
  match a with
  | ⟨0, _⟩ => show (t + 1) * 1 ≤ 262144; omega
  | ⟨1, _⟩ => show (0 + 1) * 1 ≤ 1; omega
  | ⟨2, _⟩ => show (0 + 1) * 256 ≤ 256; omega

/-- The side condition holds of any tables whose every word is below 262144. -/
theorem ok0_of_lt (pf : pre0.Contents (Elt F))
    (h0 : ∀ i : Fin 4096, (pf 0 (ix1 i) : BitVec 32).toNat < 262144)
    (h1 : ∀ i : Fin 4096, (pf 1 (ix1 i) : BitVec 32).toNat < 262144) : ok0 pf := by
  refine ⟨fun i => ⟨fun a => ?_, Or.inl rfl⟩, fun i => ⟨fun a => ?_, Or.inl rfl⟩⟩
  · rw [transform0_eq]; exact block_inb _ (h0 _) a
  · rw [transform1_eq]; exact block_inb _ (h1 _) a

variable (m : (ℓ : Loc nD τ sig) → Buf (Elt F) ℓ)

/-- On the program's one core: where every word of the two tables the launch finds is below 262144, those tables satisfy
    the side condition, and they are what every core's launch reads. -/
theorem adm_of_tables
    (h10 : ∀ (c : Dev nD) (i : Fin 4096), (V m c main_v10 (ix1 i) : BitVec 32).toNat < 262144)
    (h12 : ∀ (c : Dev nD) (i : Fin 4096), (V m c main_v12 (ix1 i) : BitVec 32).toNat < 262144) :
    ∃ a : (pcfg0 (F := F)).Adm, ∀ (c : Dev nD) (k : Fin pre0.K), V0 m c (Proc.devRef .tc (pre0.ref k)) = a.1 k := by
  refine ⟨⟨fun k => V0 m 0 (Proc.devRef .tc (pre0.ref k)), ok0_of_lt _ (h10 0) (h12 0)⟩, fun c k => ?_⟩
  rw [Subsingleton.elim c 0]

end Cert.KernelIdeal.Hand

end
-- ==== Proof.KIHost.lean ====
/-
  What the launch finds in the buffers it touches. The host operations before it never write an argument array, nor
  the result arrays; they see the node table as 262144 × 1 × 256 (the same numbers in row-major order, so entry
  (r, 0, q) is entry (r, q) of the table); and they compute the row numbers (node counts by a segment sum of ones,
  exclusive prefix sums, plus the local node number) and cut their two columns out as two tables of 4096 words.
-/
import proofs.«428622_j19267223290700_2_alg».proof.Proof.KIEntry
import proofs.«428622_j19267223290700_2_alg».proof.Proof.Spec
import Idealize.ShloMosaic.Lib.StableHlo.Run
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Cert.KernelIdeal.Facts₀ Cert.KernelIdeal.Facts

variable {F : FTy → Type} [FloatOps F] (m : (ℓ : Loc nD τ sig) → Buf (Elt F) ℓ)

/-! ## Buffers no operation before the launch writes -/

/-- The node table is as the program was started with it: every operation before the launch writes another buffer. -/
theorem V_main_arg0 (c : Dev nD) : V m c main_arg0 = m ((c.tc : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- So is the array of graph numbers. -/
theorem V_main_arg1 (c : Dev nD) : V m c main_arg1 = m ((c.tc : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- So is the array of local node numbers. -/
theorem V_main_arg2 (c : Dev nD) : V m c main_arg2 = m ((c.tc : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- So is the matrix. -/
theorem V_main_arg3 (c : Dev nD) : V m c main_arg3 = m ((c.tc : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- So is the bias. -/
theorem V_main_arg4 (c : Dev nD) : V m c main_arg4 = m ((c.tc : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- The launch's result array is written by the launch only: before it, it is as the program was started. -/
theorem V_main_v14 (c : Dev nD) : V m c main_v14 = m ((c.tc : Thread nD τ).loc main_v14) :=
  StableHlo.after_of_forall_not_mem (b := Proc.devRef .tc main_v14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- The program's result array is written only after the launch. -/
theorem V_main_v15 (c : Dev nD) : V m c main_v15 = m ((c.tc : Thread nD τ).loc main_v15) :=
  StableHlo.after_of_forall_not_mem (b := Proc.devRef .tc main_v15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The node table seen as 262144 × 1 × 256 -/

theorem V_main_v13 (c : Dev nD) :
    V m c main_v13 = shapeCast S262144x1x256 (m ((c.tc : Thread nD τ).loc main_arg0)) Facts₀.shapeCasts_S262144x256_S262144x1x256 := by
  unfold V V0
  simp only [preOps, hostOps0, hostOps0_1, hostOps0_2, List.flatten_cons, List.flatten_nil, List.append_nil, List.cons_append,
    List.nil_append]
  after_results
  rfl

theorem V_main_v13_apply (c : Dev nD) (r : Fin 262144) (q : Fin 256) :
    V m c main_v13 (ix3 r 0 q) = m ((c.tc : Thread nD τ).loc main_arg0) (ix2 r q) := by
  rw [V_main_v13]
  refine shapeCast_apply _ _ _ (ix2 r q) ?_
  rw [Shape.rowMajor_val_two, Shape.rowMajor_val_three]
  show r.val * 256 + q.val = (r.val * 1 + 0) * 256 + q.val
  omega

/-! ## The two tables of row numbers -/

/-- The row numbers in the program's own operations: as `Cert.Spec.gidx`, but the running sums start from the
    constant 0 passed through a broadcast from rank 0 to rank 0. -/
def kidx (ids : IVec S262144 32) (tg : IVec S4096x2 32) : IVec S4096x2 32 :=
  let ones : IVec S262144 32 := broadcastInDim S262144 ![] Facts₀.bcast_S_S262144 (constantI S_ 32 1#32)
  let zeros : IVec S4096 32 := broadcastInDim S4096 ![] Facts₀.bcast_S_S4096 (constantI S_ 32 0#32)
  let col : IVec S262144x1 32 := broadcastInDim S262144x1 ![0] Facts₀.bcast_S262144_S262144x1_0 ids
  let counts : IVec S4096 32 := Host.scatter scatter_S4096_S262144x1_S262144_n_0_0_1 IntOp.addi zeros col ones
  let running : IVec S4096 32 :=
    Host.reduceWindow IntOp.addi ![4096] ![1] ![4095] ![0] counts
      (broadcastInDim S_ ![] Facts₀.bcast_S_S_ (constantI S_ 32 0#32)) Facts₀.reduceWindows_S4096_S4096_w4096s1p4095_0 Facts₀.h_S_
  let offsets : IVec S4096 32 := subi running counts
  addi (broadcastInDim S4096x2 ![0, 1] Facts₀.bcast_S4096x1_S4096x2_0_1
    (broadcastInDim S4096x1 ![0] Facts₀.bcast_S4096_S4096x1_0 offsets)) tg

/-- A broadcast from rank 0 to rank 0 of a constant is the constant: there is one index, and the constant does not
    look at it. -/
theorem bcast_const0 : broadcastInDim S_ ![] Facts₀.bcast_S_S_ (constantI S_ 32 0#32) = constantI S_ 32 0#32 := rfl

/-- The two records naming the scatter's axes have the same fields. -/
theorem scatter_eq : (scatter_S4096_S262144x1_S262144_n_0_0_1 : ScatterDims S4096 S262144x1 S262144)
    = Cert.Pre_finite_inputs.scatter_S4096_S262144x1_S262144_n_0_0_1 := rfl

/-- The program's row numbers are `Cert.Spec.gidx`: the same operations on the same operands. -/
theorem kidx_eq (ids : IVec S262144 32) (tg : IVec S4096x2 32) : kidx ids tg = Cert.Spec.gidx ids tg := by
  unfold kidx Cert.Spec.gidx
  rw [bcast_const0, scatter_eq]

/-- The row numbers' array as the launch finds it. -/
theorem V_main_v8 (c : Dev nD) :
    V m c main_v8 = kidx (m ((c.tc : Thread nD τ).loc main_arg1)) (m ((c.tc : Thread nD τ).loc main_arg2)) := by
  unfold V V0
  simp only [preOps, hostOps0, hostOps0_1, hostOps0_2, List.flatten_cons, List.flatten_nil, List.append_nil, List.cons_append,
    List.nil_append]
  after_results_simp
  simp only [StableHlo.TRef.ofBuf, StableHlo.TRef.toBuf, cast_eq]
  rfl

/-- Column `col` of the row numbers, as a table of 4096 words: the slice [0:4096, col:col+1] seen as 4096 entries. -/
theorem V_main_v10 (c : Dev nD) :
    V m c main_v10 = shapeCast S4096
      (extractStridedSlice S4096x1 ![0, 0] (V m c main_v8) Facts₀.slices_S4096x2_S4096x1_0_0) Facts₀.shapeCasts_S4096x1_S4096 := by
  unfold V V0
  simp only [preOps, hostOps0, hostOps0_1, hostOps0_2, List.flatten_cons, List.flatten_nil, List.append_nil, List.cons_append,
    List.nil_append]
  after_results_simp
  rfl

theorem V_main_v12 (c : Dev nD) :
    V m c main_v12 = shapeCast S4096
      (extractStridedSlice S4096x1 ![0, 1] (V m c main_v8) Facts₀.slices_S4096x2_S4096x1_0_1) Facts₀.shapeCasts_S4096x1_S4096 := by
  unfold V V0
  simp only [preOps, hostOps0, hostOps0_1, hostOps0_2, List.flatten_cons, List.flatten_nil, List.append_nil, List.cons_append,
    List.nil_append]
  after_results_simp
  rfl

/-- Entry `i` of a column cut out of a 4096 × 2 array and seen as 4096 entries is entry (i, column) of the array:
    the 4096 × 1 slice has entry (i, 0) at row-major position i, and the slice's entry (i, 0) is the array's
    (i, 0 + column). -/
theorem column_apply {α : Type} (x : S4096x2.Idx → α) (off : Fin 2 → Nat) (col : Fin 2) (h0 : off 0 = 0) (h1 : off 1 = col.val)
    (hs : S4096x2.Slices off S4096x1) (hc : S4096x1.ShapeCasts S4096) (i : Fin 4096) :
    shapeCast S4096 (extractStridedSlice S4096x1 off x hs) hc (ix1 i) = x (ix2 i col) := by
  refine (shapeCast_apply _ hc (ix1 i) (ix2 i (0 : Fin 1)) ?_).trans ?_
  · rw [Shape.rowMajor_val_two, Shape.rowMajor_val_one]
    show i.val * 1 + 0 = i.val
    omega
  · refine extractStridedSlice_apply off x hs _ (ix2 i col) fun a => ?_
    match a with
    | ⟨0, _⟩ => show i.val = off 0 + i.val; omega
    | ⟨1, _⟩ => show col.val = off 1 + 0; omega

/-- The first table holds the row numbers of endpoint 0. -/
theorem V_main_v10_apply (c : Dev nD) (i : Fin 4096) :
    V m c main_v10 (ix1 i)
      = Cert.Spec.gidx (m ((c.tc : Thread nD τ).loc main_arg1)) (m ((c.tc : Thread nD τ).loc main_arg2)) (ix2 i 0) := by
  rw [V_main_v10, V_main_v8, kidx_eq]
  exact column_apply _ ![0, 0] 0 rfl rfl _ _ i

/-- The second table holds the row numbers of endpoint 1. -/
theorem V_main_v12_apply (c : Dev nD) (i : Fin 4096) :
    V m c main_v12 (ix1 i)
      = Cert.Spec.gidx (m ((c.tc : Thread nD τ).loc main_arg1)) (m ((c.tc : Thread nD τ).loc main_arg2)) (ix2 i 1) := by
  rw [V_main_v12, V_main_v8, kidx_eq]
  exact column_apply _ ![0, 1] 1 rfl rfl _ _ i

end Cert.KernelIdeal.Hand

end
-- ==== Proof.KIAdm.lean ====
/-
  The launch's index tables satisfy the pipeline's side condition wherever every row number is a row of the node table.

  The two tables the launch finds are the two columns of the row numbers; a row number in range, read as a natural
  number, is below 262144; so every block the first two windows fetch lies inside the node table.
-/
import proofs.«428622_j19267223290700_2_alg».proof.Proof.KIAdmCore
import proofs.«428622_j19267223290700_2_alg».proof.Proof.KIHost
import proofs.«428622_j19267223290700_2_alg».proof.Proof.PreRead
import proofs.«428622_j19267223290700_2_alg».proof.Proof.Spec

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F] (m : (ℓ : Loc nD τ sig) → Buf (Elt F) ℓ)

/-- Where every row number is in range, the tables the launch finds are admissible, on every core. -/
theorem adm_of_inRange
    (hR : ∀ c : Dev nD, Cert.Spec.InRange (m ((c.tc : Thread nD τ).loc main_arg1)) (m ((c.tc : Thread nD τ).loc main_arg2))) :
    ∃ a : (pcfg0 (F := F)).Adm, ∀ (c : Dev nD) (k : Fin pre0.K), V0 m c (Proc.devRef .tc (pre0.ref k)) = a.1 k :=
  adm_of_tables m
    (fun c i => by rw [V_main_v10_apply]; exact Cert.PreRead.toNat_lt_of_inRange (hR c) _)
    (fun c i => by rw [V_main_v12_apply]; exact Cert.PreRead.toNat_lt_of_inRange (hR c) _)

end Cert.KernelIdeal.Hand

end
-- ==== Proof.KIFrame.lean ====
/-
  What the final memory says of the program's arguments and of its result, given that every array of the pipeline
  holds what the write-backs left and every bypassing buffer what the one operation after the launch leaves.

  The matrix and the bias are arrays of input windows, which are never written back: they hold what the launch found,
  and no operation before the launch writes them. The node table, the graph numbers and the local node numbers bypass
  the region; the operation after the launch writes the program's result only, leaving the region writes the launch's
  result only, and no operation before the launch writes them: they are as the program was started. The program's
  result is the launch's result (what the 4096 write-backs left, 4096 × 1 × 128) seen as 4096 × 128: the same numbers in
  row-major order, so entry (i, t) is entry (i, 0, t).
-/
import proofs.«428622_j19267223290700_2_alg».proof.Proof.KIExit
import proofs.«428622_j19267223290700_2_alg».proof.Proof.KIHost
import Idealize.ShloMosaic.Lib.StableHlo.Run
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (a : (pcfg0 (F := F)).Adm)

/-- A buffer that is neither the launch's result nor the program's result holds at the end what the launch found:
    the operation after the launch writes the program's result only, leaving the region the launch's result only. -/
theorem Vfin_of_ne (c : Dev nD) (b : Ref sig .tc) (h14 : b ≠ main_v14) (h15 : b ≠ main_v15) :
    Vfin m a c (Proc.devRef .tc b) = V m c b := by
  unfold Vfin
  rw [StableHlo.after_of_forall_not_mem]
  · unfold Wexit
    exact Function.update_of_ne (StableHlo.devRef_ne_of_ne h14) _ _
  · intro op hop
    simp only [tailOps, hostOps1, List.flatten_cons, List.flatten_nil, List.append_nil, List.mem_singleton] at hop
    subst hop
    rw [StableHlo.reshape_writes, Finset.mem_singleton]
    exact StableHlo.devRef_ne_of_ne h15

/-- The launch's result when the region is left is what the write-backs left. -/
theorem Wexit_v14 (c : Dev nD) : Wexit m a c (Proc.devRef .tc main_v14) = (dats m a 0 c).arrAt 4 (cfg0 a).N := by
  unfold Wexit
  exact Function.update_self _ _ _

/-- The five arguments are at the end as the program was started with them. -/
theorem args_of_post (s : MemSt nD τ sig (Elt F)) (h : Post m a s) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4) := by
  refine ⟨?_, ?_, ?_, ?_, ?_⟩
  · exact ((h c).2 main_arg0 (by decide)).trans ((Vfin_of_ne m a c main_arg0 (by decide) (by decide)).trans (V_main_arg0 m c))
  · exact ((h c).2 main_arg1 (by decide)).trans ((Vfin_of_ne m a c main_arg1 (by decide) (by decide)).trans (V_main_arg1 m c))
  · exact ((h c).2 main_arg2 (by decide)).trans ((Vfin_of_ne m a c main_arg2 (by decide) (by decide)).trans (V_main_arg2 m c))
  · exact ((h c).1 2).trans (((dats m a 0 c).arrAt_in 2 rfl _).trans ((A_eq m a c 2).trans (V_main_arg3 m c)))
  · exact ((h c).1 3).trans (((dats m a 0 c).arrAt_in 3 rfl _).trans ((A_eq m a c 3).trans (V_main_arg4 m c)))

/-- The program's result is what the write-backs left in the launch's result, seen as 4096 × 128. -/
theorem result_of_post (s : MemSt nD τ sig (Elt F)) (h : Post m a s) (c : Dev nD) :
    s.mem ((c.tc : Thread nD τ).loc main_v15)
      = shapeCast S4096x128 ((dats m a 0 c).arrAt 4 (cfg0 a).N) Facts₀.shapeCasts_S4096x1x128_S4096x128 := by
  rw [(h c).2 main_v15 (by decide)]
  unfold Vfin
  simp only [tailOps, hostOps1, List.flatten_cons, List.flatten_nil, List.append_nil]
  after_results
  rw [Wexit_v14]
  rfl

/-- Entry (i, t) of the program's result is entry (i, 0, t) of what the write-backs left: the same row-major position. -/
theorem result_apply (s : MemSt nD τ sig (Elt F)) (h : Post m a s) (c : Dev nD) (i : Fin 4096) (t : Fin 128) :
    s.mem ((c.tc : Thread nD τ).loc main_v15) (ix2 i t) = (dats m a 0 c).arrAt 4 (cfg0 a).N (ix3 i (0 : Fin 1) t) := by
  rw [result_of_post m a s h c]
  refine shapeCast_apply _ _ _ (ix3 i (0 : Fin 1) t) ?_
  rw [Shape.rowMajor_val_three, Shape.rowMajor_val_two]
  show (i.val * 1 + 0) * 128 + t.val = i.val * 128 + t.val
  omega

end Cert.KernelIdeal.Hand

end
-- ==== Proof.KIRun.lean ====
/-
  The idealized kernel's program runs to the end and leaves its arguments as they were, wherever every row number is a row of the
  node table: the two index tables the launch finds are then admissible, the body's obligation holds at every grid
  point, and the launch's final state is read at the argument arrays.
-/
import proofs.«428622_j19267223290700_2_alg».proof.Proof.KILaunch
import proofs.«428622_j19267223290700_2_alg».proof.Proof.KIObl
import proofs.«428622_j19267223290700_2_alg».proof.Proof.KIAdm
import proofs.«428622_j19267223290700_2_alg».proof.Proof.KIFrame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- Every weakly fair execution ends, faults nowhere, and leaves the five arguments unchanged. -/
theorem frame_run
    (hR : ∀ c : Dev nD, Cert.Spec.InRange (m ((c.tc : Thread nD τ).loc main_arg1)) (m ((c.tc : Thread nD τ).loc main_arg2))) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  obtain ⟨a, hpf⟩ := adm_of_inRange m hR
  exact (θ_run (defs (F := F)) _ _).mono (fun r h c => args_of_post m a r.2 h c)
    (run_main m ρ a (fun c => (body_obligation m a c).loose) hpf)

end Cert.KernelIdeal.Hand

end
-- ==== Proof.KIPay.lean ====
/-
  The kernel body's one stored value, read at one index. The body takes two rows of 256 features, lays them side by side
  as one row of 512 features, multiplies that row by the 512 × 128 matrix into a zero accumulator and adds the vector of
  128. At the ideal values narrowing to the short format is the identity and the product into zero is the plain sum, so
  element t of the stored value is the sum over the 512 features of feature times matrix entry, plus entry t of the vector.
-/
import proofs.«428622_j19267223290700_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandValue

open Idealize.ShloMosaic Idealize.ShloMosaic.ValueIdx
open Cert.KernelIdeal Cert.KernelIdeal.Gen

/-! ## The reshapes: the same row-major position -/

/-- A block of one row of 256 viewed as a 1 × 256 rectangle. -/
theorem cast_1x1x256_1x256 {α : Type} (v : S1x1x256.Idx → α) (h : S1x1x256.ShapeCasts S1x256) (c : Fin 256) :
    shapeCast S1x256 v h (ix2 (0 : Fin 1) c) = v (ix3 (0 : Fin 1) (0 : Fin 1) c) :=
  shapeCast_apply v h _ _ (by rw [Shape.rowMajor_val_three, Shape.rowMajor_val_two]; rfl)

/-- A vector of 128 viewed as a 1 × 128 rectangle. -/
theorem cast_128_1x128 {α : Type} (v : S128.Idx → α) (h : S128.ShapeCasts S1x128) (t : Fin 128) :
    shapeCast S1x128 v h (ix2 (0 : Fin 1) t) = v (ix1 t) :=
  shapeCast_apply v h _ _ (by rw [Shape.rowMajor_val_one, Shape.rowMajor_val_two]; show t.val = 0 * 128 + t.val; omega)

/-- A 1 × 128 rectangle viewed as a block of one row of 128. -/
theorem cast_1x128_1x1x128 {α : Type} (v : S1x128.Idx → α) (h : S1x128.ShapeCasts S1x1x128) (t : Fin 128) :
    shapeCast S1x1x128 v h (ix3 (0 : Fin 1) (0 : Fin 1) t) = v (ix2 (0 : Fin 1) t) :=
  shapeCast_apply v h _ _ (by rw [Shape.rowMajor_val_three, Shape.rowMajor_val_two]; rfl)

/-! ## The side-by-side row -/

/-- Two rows of 256 laid side by side read the first below position 256 and the second from there on. -/
theorem concat_apply {α : Type} (a b : S1x256.Idx → α) (h : Shape.Concatenates [S1x256, S1x256] S1x512 1) (k : Fin 512) :
    concatenate S1x512 1 [⟨S1x256, a⟩, ⟨S1x256, b⟩] h (ix2 (0 : Fin 1) k) =
      if hk : k.val < 256 then a (ix2 (0 : Fin 1) ⟨k.val, hk⟩) else b (ix2 (0 : Fin 1) ⟨k.val - 256, by omega⟩) := by
  by_cases hk : k.val < 256
  · rw [dif_pos hk]
    refine concatenate_pair_apply_left (1 : Fin S1x512.rank) a b h (ix2 (0 : Fin 1) k) rfl (ix2 (0 : Fin 1) ⟨k.val, hk⟩) ?_
    intro c
    match c with
    | ⟨0, _⟩ => rfl
    | ⟨1, _⟩ => rfl
  · rw [dif_neg hk]
    refine concatenate_pair_apply_right (1 : Fin S1x512.rank) a b h (ix2 (0 : Fin 1) k) rfl rfl
      (ix2 (0 : Fin 1) ⟨k.val - 256, by omega⟩) ?_ ?_
    · intro c hc
      match c, hc with
      | ⟨0, _⟩, _ => rfl
      | ⟨1, _⟩, hc => exact absurd rfl hc
    · show k.val - 256 + 256 = k.val
      omega

/-! ## The product -/

theorem lhs_pay_0 (i : S1x128.Idx) (q : dot_S1x512_S512x128_S1x128_1_0_0_1_n_n.contr.Idx) :
    (dot_S1x512_S512x128_S1x128_1_0_0_1_n_n.lhsIdx i q 0).val = (i 0).val := by
  unfold DotDims.lhsIdx
  rw [dif_neg (show ¬(0 : Fin S1x512.rank) ∈ dot_S1x512_S512x128_S1x128_1_0_0_1_n_n.lhsBatch by decide),
    dif_pos (show (0 : Fin S1x512.rank) ∈ dot_S1x512_S512x128_S1x128_1_0_0_1_n_n.lhsNonContracting by decide)]
  rfl

theorem lhs_pay_1 (i : S1x128.Idx) (q : dot_S1x512_S512x128_S1x128_1_0_0_1_n_n.contr.Idx) :
    (dot_S1x512_S512x128_S1x128_1_0_0_1_n_n.lhsIdx i q 1).val = (q ⟨0, by decide⟩).val :=
  dot_S1x512_S512x128_S1x128_1_0_0_1_n_n.lhsIdx_val_of_single rfl i q

theorem rhs_pay_0 (i : S1x128.Idx) (q : dot_S1x512_S512x128_S1x128_1_0_0_1_n_n.contr.Idx) :
    (dot_S1x512_S512x128_S1x128_1_0_0_1_n_n.rhsIdx i q 0).val = (q ⟨0, by decide⟩).val :=
  dot_S1x512_S512x128_S1x128_1_0_0_1_n_n.rhsIdx_val_of_single rfl i q

theorem rhs_pay_1 (i : S1x128.Idx) (q : dot_S1x512_S512x128_S1x128_1_0_0_1_n_n.contr.Idx) :
    (dot_S1x512_S512x128_S1x128_1_0_0_1_n_n.rhsIdx i q 1).val = (i 1).val := by
  unfold DotDims.rhsIdx
  rw [dif_neg (show ¬(1 : Fin S512x128.rank) ∈ dot_S1x512_S512x128_S1x128_1_0_0_1_n_n.rhsBatch by decide),
    dif_pos (show (1 : Fin S512x128.rank) ∈ dot_S1x512_S512x128_S1x128_1_0_0_1_n_n.rhsNonContracting by decide)]
  rfl

/-- The product of a 1 × 512 row with a 512 × 128 matrix into a zero accumulator, at the ideal values: the sum over the
    512 contracted positions. -/
theorem matmul_zero_apply {φ₁ φ₂ : FTy} (x : FVec Ideal S1x512 φ₁) (y : FVec Ideal S512x128 φ₂) (t : Fin 128) :
    matmul dot_S1x512_S512x128_S1x128_1_0_0_1_n_n none x y (constant S1x128 .f32 0x00000000#32) (ix2 (0 : Fin 1) t) =
      ∑ k : Fin 512, x (ix2 (0 : Fin 1) k) * y (ix2 k t) := by
  refine (Ideal.matmul_constant_zero_apply dot_S1x512_S512x128_S1x128_1_0_0_1_n_n none x y (ix2 (0 : Fin 1) t)).trans ?_
  rw [← Equiv.sum_comp (ValueIdx.contrEquiv1 dot_S1x512_S512x128_S1x128_1_0_0_1_n_n 512 rfl rfl).symm]
  refine Finset.sum_congr rfl fun k _ => ?_
  have hk := ValueIdx.contrEquiv1_symm_val dot_S1x512_S512x128_S1x128_1_0_0_1_n_n 512 rfl rfl k
  have el : dot_S1x512_S512x128_S1x128_1_0_0_1_n_n.lhsIdx (ix2 (0 : Fin 1) t)
      ((ValueIdx.contrEquiv1 dot_S1x512_S512x128_S1x128_1_0_0_1_n_n 512 rfl rfl).symm k) = ix2 (0 : Fin 1) k :=
    funext fun a => Fin.ext (by
      match a with
      | ⟨0, _⟩ => exact lhs_pay_0 _ _
      | ⟨1, _⟩ => exact (lhs_pay_1 _ _).trans hk)
  have er : dot_S1x512_S512x128_S1x128_1_0_0_1_n_n.rhsIdx (ix2 (0 : Fin 1) t)
      ((ValueIdx.contrEquiv1 dot_S1x512_S512x128_S1x128_1_0_0_1_n_n 512 rfl rfl).symm k) = ix2 k t :=
    funext fun a => Fin.ext (by
      match a with
      | ⟨0, _⟩ => exact (rhs_pay_0 _ _).trans hk
      | ⟨1, _⟩ => exact rhs_pay_1 _ _)
  rw [el, er]

/-! ## The stored value at an index -/

/-- Element t of the stored value: the sum over the 512 features (the first row's, then the second row's) of feature
    times matrix entry, plus entry t of the vector. -/
theorem pay_apply (x0 x4 : Vec Ideal S1x1x256 .f32) (x9 : Vec Ideal S512x128 .f32) (x12 : Vec Ideal S128 .f32) (t : Fin 128) :
    k0_pay1 (F := Ideal) x0 x4 x9 x12 (ix3 (0 : Fin 1) (0 : Fin 1) t) =
      (∑ k : Fin 512, (if h : k.val < 256 then x0 (ix3 (0 : Fin 1) (0 : Fin 1) ⟨k.val, h⟩)
          else x4 (ix3 (0 : Fin 1) (0 : Fin 1) ⟨k.val - 256, by omega⟩)) * x9 (ix2 k t)) + x12 (ix1 t) := by
  unfold k0_pay1
  refine (cast_1x128_1x1x128 _ _ t).trans ?_
  refine (addf_apply _ _ _).trans ?_
  refine congrArg₂ (· + ·) ?_ (cast_128_1x128 x12 _ t)
  refine (matmul_zero_apply _ _ t).trans ?_
  refine Finset.sum_congr rfl fun k _ => ?_
  refine congrArg₂ (· * ·) ?_ rfl
  refine (concat_apply _ _ _ k).trans ?_
  by_cases hk : k.val < 256
  · rw [dif_pos hk, dif_pos hk]
    refine (truncf_apply (ψ := .bf16) _ bitsLt_bf16_f32 _).trans ?_
    refine (cast_1x1x256_1x256 _ _ _).trans ?_
    rw [shapeCast_self]
  · rw [dif_neg hk, dif_neg hk]
    refine (truncf_apply (ψ := .bf16) _ bitsLt_bf16_f32 _).trans ?_
    refine (cast_1x1x256_1x256 _ _ _).trans ?_
    rw [shapeCast_self]

end Cert.KernelIdeal.HandValue

end
-- ==== Proof.KIValue.lean ====
/-
  The kernel's result array, read at one element. The launch runs 4096 points. Point u fetches two rows of the node
  table (seen as 262144 × 1 × 256): the rows numbered by the words the two index tables hold at u. It holds the whole
  512 × 128 matrix and the whole bias, and stores one row of 128 values: at t, the sum over the 512 features (the first
  row's 256, then the second row's 256) of feature times matrix entry, plus the bias at t. That row is written back as
  row u of the 4096 × 1 × 128 result.

  The two tables hold the two columns of the row numbers, and a row number in range, read unsigned, is the row the
  specification reads; so what point u stores is row u of the specification's result. Every point writes its block back
  (the next point's block is another row) and the 4096 blocks tile the result, so the result array ends holding the
  specification's result at every (i, 0, t).
-/
import proofs.«428622_j19267223290700_2_alg».proof.Proof.KIData
import proofs.«428622_j19267223290700_2_alg».proof.Proof.KIHost
import proofs.«428622_j19267223290700_2_alg».proof.Proof.KIPay
import proofs.«428622_j19267223290700_2_alg».proof.Proof.PreRead
import proofs.«428622_j19267223290700_2_alg».proof.Proof.Spec
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (m : (ℓ : Loc nD τ sig) → Buf (Elt Ideal) ℓ) (a : (pcfg0 (F := Ideal)).Adm)

/-! ## The grid and the index maps -/

/-- The grid has 4096 points. -/
theorem point_lt (u : Fin (cfg0 a).N) : u.val < 4096 := by
  have h := u.isLt
  have hN : (cfg0 a).N = 4096 := N_0
  omega

/-- The grid has one axis: a point's one coordinate is its number. -/
theorem coords_val (u : Fin (cfg0 a).N) : (((cfg0 a).grid.coords u) (0 : Fin 1)).val = u.val := by
  have hu := point_lt a u
  show u.val / 1 % 4096 = u.val
  omega

/-- The point's number as a 32-bit word reads back as the number. -/
theorem coordWord_toNat (u : Fin (cfg0 a).N) : (BitVec.ofNat 32 (((cfg0 a).grid.coords u) (0 : Fin 1)).val).toNat = u.val := by
  rw [coords_val, BitVec.toNat_ofNat]
  have := point_lt a u
  omega

/-- The first window's block index at point u: the first table's word at u, then 0, 0. -/
theorem index0_0 (u : Fin (cfg0 a).N) :
    ((cfg0 a).win 0).index u (0 : Fin 3) = (a.1 0 (ix1 (⟨u.val, point_lt a u⟩ : Fin 4096))).toNat := by
  show (a.1 0 _).toNat = (a.1 0 _).toNat
  refine congrArg (fun x => (a.1 0 x).toNat) ?_
  funext b
  apply Fin.ext
  match b with
  | ⟨0, _⟩ =>
    show (BitVec.ofNat 32 (((cfg0 a).grid.coords u) (0 : Fin 1)).val).toNat + 1 * 0 = u.val
    rw [coordWord_toNat]
    omega
theorem index0_1 (u : Fin (cfg0 a).N) : ((cfg0 a).win 0).index u (1 : Fin 3) = 0 := rfl
theorem index0_2 (u : Fin (cfg0 a).N) : ((cfg0 a).win 0).index u (2 : Fin 3) = 0 := rfl

/-- The second window's: the second table's word at u, then 0, 0. -/
theorem index1_0 (u : Fin (cfg0 a).N) :
    ((cfg0 a).win 1).index u (0 : Fin 3) = (a.1 1 (ix1 (⟨u.val, point_lt a u⟩ : Fin 4096))).toNat := by
  show (a.1 1 _).toNat = (a.1 1 _).toNat
  refine congrArg (fun x => (a.1 1 x).toNat) ?_
  funext b
  apply Fin.ext
  match b with
  | ⟨0, _⟩ =>
    show (BitVec.ofNat 32 (((cfg0 a).grid.coords u) (0 : Fin 1)).val).toNat + 1 * 0 = u.val
    rw [coordWord_toNat]
    omega
theorem index1_1 (u : Fin (cfg0 a).N) : ((cfg0 a).win 1).index u (1 : Fin 3) = 0 := rfl
theorem index1_2 (u : Fin (cfg0 a).N) : ((cfg0 a).win 1).index u (2 : Fin 3) = 0 := rfl

/-- The matrix's and the bias's windows stay at block 0. -/
theorem index2_0 (u : Fin (cfg0 a).N) : ((cfg0 a).win 2).index u (0 : Fin 2) = 0 := rfl
theorem index2_1 (u : Fin (cfg0 a).N) : ((cfg0 a).win 2).index u (1 : Fin 2) = 0 := rfl
theorem index3_0 (u : Fin (cfg0 a).N) : ((cfg0 a).win 3).index u (0 : Fin 1) = 0 := rfl

/-- The result's window at point u is block (u, 0, 0). -/
theorem index4_0 (u : Fin (cfg0 a).N) : ((cfg0 a).win 4).index u (0 : Fin 3) = u.val := coordWord_toNat a u
theorem index4_1 (u : Fin (cfg0 a).N) : ((cfg0 a).win 4).index u (1 : Fin 3) = 0 := rfl
theorem index4_2 (u : Fin (cfg0 a).N) : ((cfg0 a).win 4).index u (2 : Fin 3) = 0 := rfl

/-! ## The blocks the pipeline fetches, read at an index -/

/-- The four input blocks at point u, by their shapes. -/
abbrev blk0 (c : Dev nD) (u : Fin (cfg0 a).N) : Vec Ideal S1x1x256 .f32 := iblk m a c 0 u
abbrev blk1 (c : Dev nD) (u : Fin (cfg0 a).N) : Vec Ideal S1x1x256 .f32 := iblk m a c 1 u
abbrev blk2 (c : Dev nD) (u : Fin (cfg0 a).N) : Vec Ideal S512x128 .f32 := iblk m a c 2 u
abbrev blk3 (c : Dev nD) (u : Fin (cfg0 a).N) : Vec Ideal S128 .f32 := iblk m a c 3 u

/-- The arrays the pipeline reads, as the launch finds them, by their shapes. -/
abbrev nodesV (c : Dev nD) : S262144x1x256.Idx → EReal := V m c main_v13
abbrev matrixV (c : Dev nD) : S512x128.Idx → EReal := V m c main_arg3
abbrev biasV (c : Dev nD) : S128.Idx → EReal := V m c main_arg4

/-- The first block at point u is row r of the node table (seen as 262144 × 1 × 256), r the first table's word at u. -/
theorem blk0_apply (c : Dev nD) (u : Fin (cfg0 a).N) (q : Fin 256) (r : Fin 262144)
    (hr : r.val = (a.1 0 (ix1 (⟨u.val, point_lt a u⟩ : Fin 4096))).toNat) :
    blk0 m a c u (ix3 (0 : Fin 1) (0 : Fin 1) q) = nodesV m c (ix3 r (0 : Fin 1) q) := by
  show iblk m a c 0 u _ = _
  unfold iblk
  refine (View.read_apply _ _).trans ?_
  show V m c main_v13 _ = V m c main_v13 _
  refine congrArg (V m c main_v13) ?_
  funext b
  apply Fin.ext
  match b with
  | ⟨0, _⟩ =>
    show ((cfg0 a).win 0).index u (0 : Fin 3) * 1 + 1 * 0 = r.val
    rw [index0_0, hr]
    omega
  | ⟨1, _⟩ =>
    show ((cfg0 a).win 0).index u (1 : Fin 3) * 1 + 1 * 0 = 0
    rw [index0_1]
  | ⟨2, _⟩ =>
    show ((cfg0 a).win 0).index u (2 : Fin 3) * 256 + 1 * q.val = q.val
    rw [index0_2]
    omega

/-- The second block at point u is row r of the node table, r the second table's word at u. -/
theorem blk1_apply (c : Dev nD) (u : Fin (cfg0 a).N) (q : Fin 256) (r : Fin 262144)
    (hr : r.val = (a.1 1 (ix1 (⟨u.val, point_lt a u⟩ : Fin 4096))).toNat) :
    blk1 m a c u (ix3 (0 : Fin 1) (0 : Fin 1) q) = nodesV m c (ix3 r (0 : Fin 1) q) := by
  show iblk m a c 1 u _ = _
  unfold iblk
  refine (View.read_apply _ _).trans ?_
  show V m c main_v13 _ = V m c main_v13 _
  refine congrArg (V m c main_v13) ?_
  funext b
  apply Fin.ext
  match b with
  | ⟨0, _⟩ =>
    show ((cfg0 a).win 1).index u (0 : Fin 3) * 1 + 1 * 0 = r.val
    rw [index1_0, hr]
    omega
  | ⟨1, _⟩ =>
    show ((cfg0 a).win 1).index u (1 : Fin 3) * 1 + 1 * 0 = 0
    rw [index1_1]
  | ⟨2, _⟩ =>
    show ((cfg0 a).win 1).index u (2 : Fin 3) * 256 + 1 * q.val = q.val
    rw [index1_2]
    omega

/-- The third block is the whole matrix at every point. -/
theorem blk2_apply (c : Dev nD) (u : Fin (cfg0 a).N) (k : Fin 512) (t : Fin 128) :
    blk2 m a c u (ix2 k t) = matrixV m c (ix2 k t) := by
  show iblk m a c 2 u _ = _
  unfold iblk
  refine (View.read_apply _ _).trans ?_
  show V m c main_arg3 _ = V m c main_arg3 _
  refine congrArg (V m c main_arg3) ?_
  funext b
  apply Fin.ext
  match b with
  | ⟨0, _⟩ =>
    show ((cfg0 a).win 2).index u (0 : Fin 2) * 512 + 1 * k.val = k.val
    rw [index2_0]
    omega
  | ⟨1, _⟩ =>
    show ((cfg0 a).win 2).index u (1 : Fin 2) * 128 + 1 * t.val = t.val
    rw [index2_1]
    omega

/-- The fourth block is the whole bias at every point. -/
theorem blk3_apply (c : Dev nD) (u : Fin (cfg0 a).N) (t : Fin 128) :
    blk3 m a c u (ix1 t) = biasV m c (ix1 t) := by
  show iblk m a c 3 u _ = _
  unfold iblk
  refine (View.read_apply _ _).trans ?_
  show V m c main_arg4 _ = V m c main_arg4 _
  refine congrArg (V m c main_arg4) ?_
  funext b
  apply Fin.ext
  match b with
  | ⟨0, _⟩ =>
    show ((cfg0 a).win 3).index u (0 : Fin 1) * 128 + 1 * t.val = t.val
    rw [index3_0]
    omega

/-! ## What point u leaves in the result's block -/

/-- Element t of what point u stores: the sum over the 512 features (row r0 of the node table, then row r1) of feature
    times matrix entry, plus the bias at t. -/
theorem point_apply (c : Dev nD) (u : Fin (cfg0 a).N) (t : Fin 128) (r0 r1 : Fin 262144)
    (hr0 : r0.val = (a.1 0 (ix1 (⟨u.val, point_lt a u⟩ : Fin 4096))).toNat)
    (hr1 : r1.val = (a.1 1 (ix1 (⟨u.val, point_lt a u⟩ : Fin 4096))).toNat) :
    k0_pay1 (F := Ideal) (blk0 m a c u) (blk1 m a c u) (blk2 m a c u) (blk3 m a c u) (ix3 (0 : Fin 1) (0 : Fin 1) t)
      = (∑ k : Fin 512,
          (if h : k.val < 256 then nodesV m c (ix3 r0 (0 : Fin 1) (⟨k.val, h⟩ : Fin 256))
            else nodesV m c (ix3 r1 (0 : Fin 1) (⟨k.val - 256, by omega⟩ : Fin 256)))
            * matrixV m c (ix2 k t))
        + biasV m c (ix1 t) := by
  refine (pay_apply (blk0 m a c u) (blk1 m a c u) (blk2 m a c u) (blk3 m a c u) t).trans ?_
  refine congrArg₂ (· + ·) (Finset.sum_congr rfl fun k _ => ?_) (blk3_apply m a c u t)
  refine congrArg₂ (· * ·) ?_ (blk2_apply m a c u k t)
  by_cases h : k.val < 256
  · rw [dif_pos h, dif_pos h]
    exact blk0_apply m a c u ⟨k.val, h⟩ r0 hr0
  · rw [dif_neg h, dif_neg h]
    exact blk1_apply m a c u ⟨k.val - 256, by omega⟩ r1 hr1

/-! ## The result array as one function of the arguments -/

/-- What the launch finds in the buffers the pipeline reads: the two tables hold the admissible contents, which are the
    two columns of the row numbers; the row numbers are rows of the node table; the node table seen as 262144 × 1 × 256
    is the node table; the matrix and the bias are as the program was started with them. -/
structure Finds : Prop where
  tables : ∀ (c : Dev nD) (k : Fin 2), V0 m c (Proc.devRef .tc (pre0.ref k)) = a.1 k
  inRange : ∀ c : Dev nD, Cert.Spec.InRange (m ((c.tc : Thread nD τ).loc main_arg1)) (m ((c.tc : Thread nD τ).loc main_arg2))
  nodes : ∀ (c : Dev nD) (r : Fin 262144) (q : Fin 256),
    V m c main_v13 (ix3 r (0 : Fin 1) q) = m ((c.tc : Thread nD τ).loc main_arg0) (ix2 r q)
  first : ∀ (c : Dev nD) (i : Fin 4096), V m c main_v10 (ix1 i)
    = Cert.Spec.gidx (m ((c.tc : Thread nD τ).loc main_arg1)) (m ((c.tc : Thread nD τ).loc main_arg2)) (ix2 i (0 : Fin 2))
  second : ∀ (c : Dev nD) (i : Fin 4096), V m c main_v12 (ix1 i)
    = Cert.Spec.gidx (m ((c.tc : Thread nD τ).loc main_arg1)) (m ((c.tc : Thread nD τ).loc main_arg2)) (ix2 i (1 : Fin 2))
  matrix : ∀ c : Dev nD, V m c main_arg3 = m ((c.tc : Thread nD τ).loc main_arg3)
  bias : ∀ c : Dev nD, V m c main_arg4 = m ((c.tc : Thread nD τ).loc main_arg4)

/-- The specification's result at the program's arguments. -/
abbrev specG (c : Dev nD) (i : Fin 4096) (t : Fin 128) : EReal :=
  Cert.Spec.G (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) i t

variable {m a}

/-- The word the first table holds at u is the row number of (u, 0); the second's, of (u, 1). -/
theorem Finds.word0 (H : Finds m a) (c : Dev nD) (i : Fin 4096) :
    a.1 0 (ix1 i) = Cert.Spec.gidx (m ((c.tc : Thread nD τ).loc main_arg1)) (m ((c.tc : Thread nD τ).loc main_arg2)) (ix2 i (0 : Fin 2)) :=
  (congrFun (H.tables c 0).symm (ix1 i)).trans (H.first c i)
theorem Finds.word1 (H : Finds m a) (c : Dev nD) (i : Fin 4096) :
    a.1 1 (ix1 i) = Cert.Spec.gidx (m ((c.tc : Thread nD τ).loc main_arg1)) (m ((c.tc : Thread nD τ).loc main_arg2)) (ix2 i (1 : Fin 2)) :=
  (congrFun (H.tables c 1).symm (ix1 i)).trans (H.second c i)

/-- What point u stores at t is the specification's result at (u, t): the two rows fetched are the rows the
    specification reads, feature k of the first 256 from the first and of the last 256 from the second. -/
theorem point_eq_G (H : Finds m a) (c : Dev nD) (u : Fin (cfg0 a).N) (t : Fin 128) :
    k0_pay1 (F := Ideal) (blk0 m a c u) (blk1 m a c u) (blk2 m a c u) (blk3 m a c u) (ix3 (0 : Fin 1) (0 : Fin 1) t)
      = specG m c ⟨u.val, point_lt a u⟩ t := by
  have hr0 := (Cert.PreRead.row_val_of_inRange (H.inRange c) ⟨u.val, point_lt a u⟩ (0 : Fin 2)).trans
    (congrArg BitVec.toNat (H.word0 c ⟨u.val, point_lt a u⟩).symm)
  have hr1 := (Cert.PreRead.row_val_of_inRange (H.inRange c) ⟨u.val, point_lt a u⟩ (1 : Fin 2)).trans
    (congrArg BitVec.toNat (H.word1 c ⟨u.val, point_lt a u⟩).symm)
  refine (point_apply m a c u t _ _ hr0 hr1).trans ?_
  unfold specG Cert.Spec.G
  refine congrArg₂ (· + ·) (Finset.sum_congr rfl fun k _ => ?_) (congrFun (H.bias c) (ix1 t))
  refine congrArg₂ (· * ·) ?_ (congrFun (H.matrix c) (ix2 k t))
  unfold Cert.Spec.query
  by_cases h : k.val < 256
  · rw [dif_pos h]
    refine (H.nodes c _ _).trans ?_
    have e1 : (0 : Fin 2) = ⟨k.val / 256, by omega⟩ := Fin.ext (by show 0 = k.val / 256; omega)
    have e2 : (⟨k.val, h⟩ : Fin 256) = ⟨k.val % 256, Nat.mod_lt _ (by decide)⟩ := Fin.ext (by show k.val = k.val % 256; omega)
    exact congrArg₂ (fun (j : Fin 2) (q : Fin 256) => m ((c.tc : Thread nD τ).loc main_arg0)
      (ix2 (Cert.Spec.row (m ((c.tc : Thread nD τ).loc main_arg1)) (m ((c.tc : Thread nD τ).loc main_arg2)) ⟨u.val, point_lt a u⟩ j) q)) e1 e2
  · rw [dif_neg h]
    refine (H.nodes c _ _).trans ?_
    have e1 : (1 : Fin 2) = ⟨k.val / 256, by omega⟩ := Fin.ext (by show 1 = k.val / 256; omega)
    have e2 : (⟨k.val - 256, by omega⟩ : Fin 256) = ⟨k.val % 256, Nat.mod_lt _ (by decide)⟩ :=
      Fin.ext (by show k.val - 256 = k.val % 256; omega)
    exact congrArg₂ (fun (j : Fin 2) (q : Fin 256) => m ((c.tc : Thread nD τ).loc main_arg0)
      (ix2 (Cert.Spec.row (m ((c.tc : Thread nD τ).loc main_arg1)) (m ((c.tc : Thread nD τ).loc main_arg2)) ⟨u.val, point_lt a u⟩ j) q)) e1 e2

/-- What the result array ends holding: element (i, 0, t) is the specification's result at (i, t). -/
abbrev resultV (m : (ℓ : Loc nD τ sig) → Buf (Elt Ideal) ℓ) (c : Dev nD) : S4096x1x128.Idx → EReal :=
  fun j => specG m c (j 0) (j 2)

/-- What point u writes back is its block of that one function: row u. -/
theorem flushed4_eq (H : Finds m a) (c : Dev nD) (u : Fin (cfg0 a).N) :
    (dats m a 0 c).flushed 4 u = (((cfg0 a).win 4).blk u).view.read (Elt Ideal) (resultV m c) := by
  show ((cfg0 a).win 4).cut ((cfg0 a).grid.coords u) ((dats m a 0 c).after 4 u) = _
  rw [after0_4]
  funext j
  have h0 : (j (0 : Fin 3)).val < 1 := (j (0 : Fin 3)).isLt
  have h1 : (j (1 : Fin 3)).val < 1 := (j (1 : Fin 3)).isLt
  have h2 : (j (2 : Fin 3)).val < 128 := (j (2 : Fin 3)).isLt
  obtain ⟨t, rfl⟩ : ∃ t : Fin 128, j = (ix3 (0 : Fin 1) (0 : Fin 1) t : S1x1x128.Idx) :=
    ⟨⟨(j (2 : Fin 3)).val, h2⟩, funext fun b => Fin.ext (by
      match b with
      | ⟨0, _⟩ => show (j (0 : Fin 3)).val = 0; omega
      | ⟨1, _⟩ => show (j (1 : Fin 3)).val = 0; omega
      | ⟨2, _⟩ => rfl)⟩
  refine Eq.trans ?_ (View.read_apply _ _).symm
  show k0_pay1 (F := Ideal) (blk0 m a c u) (blk1 m a c u) (blk2 m a c u) (blk3 m a c u) (ix3 (0 : Fin 1) (0 : Fin 1) t)
    = resultV m c ((((cfg0 a).win 4).blk u).view.emb (ix3 (0 : Fin 1) (0 : Fin 1) t))
  refine (point_eq_G H c u t).trans ?_
  refine congrArg₂ (specG m c) (Fin.ext ?_) (Fin.ext ?_)
  · show u.val = ((cfg0 a).win 4).index u (0 : Fin 3) * 1 + 1 * 0
    rw [index4_0]
    omega
  · show t.val = ((cfg0 a).win 4).index u (2 : Fin 3) * 128 + 1 * t.val
    rw [index4_2]
    omega

/-- Every point writes its block back: the next point's block is another row. -/
theorem flush4 (u : Fin (cfg0 a).N) : ((cfg0 a).win 4).flush u = true := by
  unfold Pipeline.Window.flush
  have ho : ((cfg0 a).win 4).isOut = true := rfl
  rw [ho, Bool.true_and, Bool.or_eq_true, decide_eq_true_eq, decide_eq_true_eq]
  have hlt : u.val < (cfg0 a).grid.N := u.isLt
  by_cases h : u.val + 1 = (cfg0 a).grid.N
  · exact Or.inl h
  · refine Or.inr ⟨by omega, fun e => ?_⟩
    have e0 := congrFun e (0 : Fin 3)
    rw [index4_0, index4_0] at e0
    exact absurd e0 (by show ¬(u.val + 1 = u.val); omega)

/-- The blocks tile the result: row i is point i's block. -/
theorem cover4 (c : Dev nD) (i : (((cfg0 a).win 4).arr.view.loc (c.tc : Thread nD τ)).2.ty.Idx) :
    ∃ u : Fin (cfg0 a).N, ((cfg0 a).win 4).flush u = true ∧ i ∈ (((cfg0 a).win 4).blk u).view.set := by
  have hN : (cfg0 a).N = 4096 := N_0
  have hi0 : (i (0 : Fin 3)).val < 4096 := (i (0 : Fin 3)).isLt
  have hi1 : (i (1 : Fin 3)).val < 1 := (i (1 : Fin 3)).isLt
  have hi2 : (i (2 : Fin 3)).val < 128 := (i (2 : Fin 3)).isLt
  have hu : (i (0 : Fin 3)).val < (cfg0 a).N := by omega
  refine ⟨⟨(i (0 : Fin 3)).val, hu⟩, flush4 _, ?_⟩
  have key : ∀ b : Fin 3, ((cfg0 a).win 4).index ⟨(i (0 : Fin 3)).val, hu⟩ b * S1x1x128.size b ≤ (i b).val
      ∧ (i b).val < ((cfg0 a).win 4).index ⟨(i (0 : Fin 3)).val, hu⟩ b * S1x1x128.size b + S1x1x128.size b := by
    intro b
    match b with
    | ⟨0, _⟩ =>
      show ((cfg0 a).win 4).index ⟨(i (0 : Fin 3)).val, hu⟩ (0 : Fin 3) * 1 ≤ (i (0 : Fin 3)).val
        ∧ (i (0 : Fin 3)).val < ((cfg0 a).win 4).index ⟨(i (0 : Fin 3)).val, hu⟩ (0 : Fin 3) * 1 + 1
      rw [index4_0]
      show (i (0 : Fin 3)).val * 1 ≤ (i (0 : Fin 3)).val ∧ (i (0 : Fin 3)).val < (i (0 : Fin 3)).val * 1 + 1
      omega
    | ⟨1, _⟩ =>
      show ((cfg0 a).win 4).index ⟨(i (0 : Fin 3)).val, hu⟩ (1 : Fin 3) * 1 ≤ (i (1 : Fin 3)).val
        ∧ (i (1 : Fin 3)).val < ((cfg0 a).win 4).index ⟨(i (0 : Fin 3)).val, hu⟩ (1 : Fin 3) * 1 + 1
      rw [index4_1]
      omega
    | ⟨2, _⟩ =>
      show ((cfg0 a).win 4).index ⟨(i (0 : Fin 3)).val, hu⟩ (2 : Fin 3) * 128 ≤ (i (2 : Fin 3)).val
        ∧ (i (2 : Fin 3)).val < ((cfg0 a).win 4).index ⟨(i (0 : Fin 3)).val, hu⟩ (2 : Fin 3) * 128 + 128
      rw [index4_2]
      omega
  exact (congrArg (fun S => i ∈ S) (View.set_slice_whole main_v14 (((cfg0 a).win 4).rect ⟨(i (0 : Fin 3)).val, hu⟩))).mpr
    (Rect.mem_set_unit.2 key)

/-- So the result array ends holding the specification's result, row by row. -/
theorem arr4_eq (H : Finds m a) (c : Dev nD) : (dats m a 0 c).arrAt 4 (cfg0 a).N = resultV m c :=
  (dats m a 0 c).arrAt_eq_of_cover 4 (resultV m c) (fun u _ => flushed4_eq H c u) (cover4 c)

/-- The result array read at (i, 0, t). -/
theorem arrAt4_of_finds (H : Finds m a) (c : Dev nD) (i : Fin 4096) (t : Fin 128) :
    (dats m a 0 c).arrAt 4 (cfg0 a).N (ix3 i (0 : Fin 1) t) = specG m c i t :=
  congrFun (arr4_eq H c) (ix3 i (0 : Fin 1) t)

variable (m a)

/-- THE KERNEL'S RESULT AT (i, 0, t): where the admissible table contents are what the launch finds in the two tables and
    every row number is a row of the node table, the result array after the launch holds the specification's result. -/
theorem arrAt4_apply
    (hpf : ∀ c k, Cert.KernelIdeal.Hand.V0 m c (Proc.devRef .tc (pre0.ref k)) = a.1 k)
    (hR : ∀ c : Dev nD, Cert.Spec.InRange (m ((c.tc : Thread nD τ).loc main_arg1)) (m ((c.tc : Thread nD τ).loc main_arg2)))
    (c : Dev nD) (i : Fin 4096) (t : Fin 128) :
    (Cert.KernelIdeal.Hand.dats m a 0 c).arrAt 4 (cfg0 a).N (ValueIdx.ix3 i (0 : Fin 1) t)
      = Cert.Spec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) i t :=
  arrAt4_of_finds
    ⟨hpf, hR, fun c r q => V_main_v13_apply m c r q, fun c i => V_main_v10_apply m c i, fun c i => V_main_v12_apply m c i,
      fun c => V_main_arg3 m c, fun c => V_main_arg4 m c⟩ c i t

end Cert.KernelIdeal.HandValue

end
-- ==== Proof.Out.lean ====
/-
  The result of both programs as one function on the 4096 × 128 result's indices: entry (i, t) is graph i's query vector
  times column t of the matrix, plus the bias at t.
-/
import proofs.«428622_j19267223290700_2_alg».proof.Proof.Spec

noncomputable section

namespace Cert.Spec

open Idealize.ShloMosaic Idealize.ShloMosaic.ValueIdx
open Cert.Pre_finite_inputs

/-- `G` at a two-coordinate index. -/
def Gout (emb : S262144x256.Idx → EReal) (ids : IVec S262144 32) (tg : IVec S4096x2 32) (W : S512x128.Idx → EReal) (b : S128.Idx → EReal) :
    (⟨2, ![4096, 128]⟩ : Shape).Idx → EReal :=
  fun y => G emb ids tg W b ⟨(y 0).val, idx2_lt0 y⟩ ⟨(y 1).val, idx2_lt1 y⟩

theorem Gout_ix2 (emb : S262144x256.Idx → EReal) (ids : IVec S262144 32) (tg : IVec S4096x2 32) (W : S512x128.Idx → EReal) (b : S128.Idx → EReal)
    (i : Fin 4096) (t : Fin 128) : Gout emb ids tg W b (ix2 i t) = G emb ids tg W b i t := rfl

end Cert.Spec

end
-- ==== Proof.KIResult.lean ====
/-
  At the extended reals the idealized kernel's program ends with its result at the common function of the arguments: the result buffer is the
  result array seen as 4096 × 128, and row i of the result array is what grid point i wrote back, the body's one stored
  value at the rows the two index tables name.
-/
import proofs.«428622_j19267223290700_2_alg».proof.Proof.KIRun
import proofs.«428622_j19267223290700_2_alg».proof.Proof.KIValue
import proofs.«428622_j19267223290700_2_alg».proof.Proof.Out

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand

/-- Every weakly fair execution ends with the result at `Gout` of the arguments and the arguments unchanged. -/
theorem value_run (m : (ℓ : Loc nD τ sig) → Buf (Elt Ideal) ℓ) (ρ : Dev nD → PrngReg)
    (hR : ∀ c : Dev nD, Cert.Spec.InRange (m ((c.tc : Thread nD τ).loc main_arg1)) (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v15)
        = Cert.Spec.Gout (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  obtain ⟨a, hpf⟩ := adm_of_inRange m hR
  refine (θ_run (defs (F := Ideal)) _ _).mono (fun r h c => ⟨?_, args_of_post m a r.2 h c⟩)
    (run_main m ρ a (fun c => (body_obligation m a c).loose) hpf)
  funext y
  obtain ⟨i, t, rfl⟩ : ∃ (i : Fin 4096) (t : Fin 128), y = ix2 i t := ⟨y 0, y 1, eq_ix2 y⟩
  rw [Cert.Spec.Gout_ix2]
  exact (result_apply m a r.2 h c i t).trans (arrAt4_apply m a hpf hR c i t)

end Cert.KernelIdeal.HandValue

end
-- ==== Proof.RefTerm.lean ====
/-
  The reference's result as one term of its five arguments, operation by operation as the program computes it:
  the row numbers (node counts by a segment sum of ones, exclusive prefix sums, plus the local node number); a negative
  row number counted back from the table's end; the two rows of each graph gathered from the node table and laid side
  by side as 512 features; the product with the 512 × 128 matrix; the bias added to every row.
-/
import proofs.«428622_j19267223290700_2_alg».proof.ReferenceIdeal
import proofs.«428622_j19267223290700_2_alg».proof.Proof.Gen.ReferenceIdeal

noncomputable section

namespace Cert.ReferenceIdeal.Hand

open Idealize.ShloMosaic
open Cert.ReferenceIdeal Cert.ReferenceIdeal.Facts₀ Cert.ReferenceIdeal.Facts

variable {F : FTy → Type} [FloatOps F]

/-- The row numbers, in the reference's own operations. -/
def refIdx (a1 : IVec S262144 32) (a2 : IVec S4096x2 32) : IVec S4096x2 32 :=
  let ones : IVec S262144 32 := broadcastInDim S262144 ![] bcast_S_S262144 (constantI S_ 32 1#32)
  let zeros : IVec S4096 32 := broadcastInDim S4096 ![] bcast_S_S4096 (constantI S_ 32 0#32)
  let col : IVec S262144x1 32 := broadcastInDim S262144x1 ![0] bcast_S262144_S262144x1_0 a1
  let counts : IVec S4096 32 := Host.scatter scatter_S4096_S262144x1_S262144_n_0_0_1 IntOp.addi zeros col ones
  let running : IVec S4096 32 :=
    Host.reduceWindow IntOp.addi ![4096] ![1] ![4095] ![0] counts (broadcastInDim S_ ![] bcast_S_S_ (constantI S_ 32 0#32))
      reduceWindows_S4096_S4096_w4096s1p4095_0 h_S_
  let offsets : IVec S4096 32 := subi running counts
  addi (broadcastInDim S4096x2 ![0, 1] bcast_S4096x1_S4096x2_0_1 (broadcastInDim S4096x1 ![0] bcast_S4096_S4096x1_0 offsets)) a2

/-- The reference's result. -/
def refTerm (a0 : FVec F S262144x256 .f32) (a1 : IVec S262144 32) (a2 : IVec S4096x2 32) (a3 : FVec F S512x128 .f32)
    (a4 : FVec F S128 .f32) : FVec F S4096x128 .f32 :=
  let v8 : IVec S4096x2 32 := refIdx a1 a2
  let v9 : IVec S4096x2 32 := broadcastInDim S4096x2 ![] bcast_S_S4096x2 (constantI S_ 32 0#32)
  let v10 : IVec S4096x2 1 := cmpi .slt v8 v9
  let v11 : IVec S4096x2 32 := broadcastInDim S4096x2 ![] bcast_S_S4096x2 (constantI S_ 32 262144#32)
  let v12 : IVec S4096x2 32 := addi v8 v11
  let v13 : IVec S4096x2 32 := select v10 v12 v8
  let v14 : IVec S4096x2x1 32 := broadcastInDim S4096x2x1 ![0, 1] bcast_S4096x2_S4096x2x1_0_1 v13
  let v15 : FVec F S4096x2x256 .f32 := Host.gather gather_S262144x256_S4096x2x1_S4096x2x256_2_0_n_n_0_2_1256 a0 v14
  let v16 : FVec F S4096x512 .f32 := shapeCast S4096x512 v15 shapeCasts_S4096x2x256_S4096x512
  let v17 : FVec F S4096x128 .f32 := Host.dotGeneral dot_S4096x512_S512x128_S4096x128_1_0_0_1_n_n none v16 a3
  let v18 : FVec F S1x128 .f32 := broadcastInDim S1x128 ![1] bcast_S128_S1x128_1 a4
  let v19 : FVec F S4096x128 .f32 := broadcastInDim S4096x128 ![0, 1] bcast_S1x128_S4096x128_0_1 v18
  addf v17 v19

end Cert.ReferenceIdeal.Hand

end
-- ==== Proof.RefRun.lean ====
/-
  The reference program as one straight line of its twenty-seven operations, and what every run of it leaves.

  The program calls the running-sum function once, which calls its inner function once; unfolding the two calls at
  the call site puts the inner function's three operations (the scalar zero, its rank-0 broadcast, the windowed sum
  of the node counts) between the segment sum and the subtraction. Every operation writes a buffer of its own, so the
  contents of a buffer after the line is the composition of the operations above it: the result buffer holds the
  term `refTerm` of the five arguments, and the five argument buffers are written by no operation.
-/
import proofs.«428622_j19267223290700_2_alg».proof.Proof.RefTerm
import proofs.«428622_j19267223290700_2_alg».proof.ReferenceIdeal
import proofs.«428622_j19267223290700_2_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The program's operations in order, the two nested calls unfolded at the call site: six operations up to the
    segment sum, the inner function's three over the call's own buffers, then eighteen more. -/
abbrev ops : List (HloOp τ sig (Elt F)) :=
  [ nullary main_c (constantI S_ 32 1#32),
    unary main_c main_v0 (broadcastInDim S262144 ![] bcast_S_S262144 : (⟨S_, .i32⟩ : BufTy).Contents (Elt F) → (⟨S262144, .i32⟩ : BufTy).Contents (Elt F)),
    nullary main_c_0 (constantI S_ 32 0#32),
    unary main_c_0 main_v1 (broadcastInDim S4096 ![] bcast_S_S4096 : (⟨S_, .i32⟩ : BufTy).Contents (Elt F) → (⟨S4096, .i32⟩ : BufTy).Contents (Elt F)),
    unary main_arg1 main_v2 (broadcastInDim S262144x1 ![0] bcast_S262144_S262144x1_0 : (⟨S262144, .i32⟩ : BufTy).Contents (Elt F) → (⟨S262144x1, .i32⟩ : BufTy).Contents (Elt F)),
    ternary main_v1 main_v2 main_v0 main_v3 ((fun x i u => Host.scatter scatter_S4096_S262144x1_S262144_n_0_0_1 IntOp.addi x i u) : (⟨S4096, .i32⟩ : BufTy).Contents (Elt F) → (⟨S262144x1, .i32⟩ : BufTy).Contents (Elt F) → (⟨S262144, .i32⟩ : BufTy).Contents (Elt F) → (⟨S4096, .i32⟩ : BufTy).Contents (Elt F)),
    TRef.nullary main_call0.call0.c (constantI S_ 32 0#32),
    TRef.unary main_call0.call0.c main_call0.call0.v0 (broadcastInDim S_ ![] bcast_S_S_),
    TRef.binary (.of main_v3 : TRef sig ⟨S4096, .i32⟩) main_call0.call0.v0 main_call0.call0.v1 (fun x v => Host.reduceWindow IntOp.addi ![4096] ![1] ![4095] ![0] x v reduceWindows_S4096_S4096_w4096s1p4095_0 h_S_),
    binary main_v4 main_v3 main_v5 (subi : (⟨S4096, .i32⟩ : BufTy).Contents (Elt F) → (⟨S4096, .i32⟩ : BufTy).Contents (Elt F) → (⟨S4096, .i32⟩ : BufTy).Contents (Elt F)),
    unary main_v5 main_v6 (broadcastInDim S4096x1 ![0] bcast_S4096_S4096x1_0 : (⟨S4096, .i32⟩ : BufTy).Contents (Elt F) → (⟨S4096x1, .i32⟩ : BufTy).Contents (Elt F)),
    unary main_v6 main_v7 (broadcastInDim S4096x2 ![0, 1] bcast_S4096x1_S4096x2_0_1 : (⟨S4096x1, .i32⟩ : BufTy).Contents (Elt F) → (⟨S4096x2, .i32⟩ : BufTy).Contents (Elt F)),
    binary main_v7 main_arg2 main_v8 (addi : (⟨S4096x2, .i32⟩ : BufTy).Contents (Elt F) → (⟨S4096x2, .i32⟩ : BufTy).Contents (Elt F) → (⟨S4096x2, .i32⟩ : BufTy).Contents (Elt F)),
    nullary main_c_1 (constantI S_ 32 0#32),
    unary main_c_1 main_v9 (broadcastInDim S4096x2 ![] bcast_S_S4096x2 : (⟨S_, .i32⟩ : BufTy).Contents (Elt F) → (⟨S4096x2, .i32⟩ : BufTy).Contents (Elt F)),
    binary main_v8 main_v9 main_v10 (cmpi .slt : (⟨S4096x2, .i32⟩ : BufTy).Contents (Elt F) → (⟨S4096x2, .i32⟩ : BufTy).Contents (Elt F) → (⟨S4096x2, .i1⟩ : BufTy).Contents (Elt F)),
    nullary main_c_2 (constantI S_ 32 262144#32),
    unary main_c_2 main_v11 (broadcastInDim S4096x2 ![] bcast_S_S4096x2 : (⟨S_, .i32⟩ : BufTy).Contents (Elt F) → (⟨S4096x2, .i32⟩ : BufTy).Contents (Elt F)),
    binary main_v8 main_v11 main_v12 (addi : (⟨S4096x2, .i32⟩ : BufTy).Contents (Elt F) → (⟨S4096x2, .i32⟩ : BufTy).Contents (Elt F) → (⟨S4096x2, .i32⟩ : BufTy).Contents (Elt F)),
    ternary main_v10 main_v12 main_v8 main_v13 (select : (⟨S4096x2, .i1⟩ : BufTy).Contents (Elt F) → (⟨S4096x2, .i32⟩ : BufTy).Contents (Elt F) → (⟨S4096x2, .i32⟩ : BufTy).Contents (Elt F) → (⟨S4096x2, .i32⟩ : BufTy).Contents (Elt F)),
    unary main_v13 main_v14 (broadcastInDim S4096x2x1 ![0, 1] bcast_S4096x2_S4096x2x1_0_1 : (⟨S4096x2, .i32⟩ : BufTy).Contents (Elt F) → (⟨S4096x2x1, .i32⟩ : BufTy).Contents (Elt F)),
    binary main_arg0 main_v14 main_v15 ((fun x i => Host.gather gather_S262144x256_S4096x2x1_S4096x2x256_2_0_n_n_0_2_1256 x i) : (⟨S262144x256, .f32⟩ : BufTy).Contents (Elt F) → (⟨S4096x2x1, .i32⟩ : BufTy).Contents (Elt F) → (⟨S4096x2x256, .f32⟩ : BufTy).Contents (Elt F)),
    reshape main_v15 main_v16 rfl shapeCasts_S4096x2x256_S4096x512,
    binary main_v16 main_arg3 main_v17 ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F)),
    unary main_arg4 main_v18 (broadcastInDim S1x128 ![1] bcast_S128_S1x128_1 : (⟨S128, .f32⟩ : BufTy).Contents (Elt F) → (⟨S1x128, .f32⟩ : BufTy).Contents (Elt F)),
    unary main_v18 main_v19 (broadcastInDim S4096x128 ![0, 1] bcast_S1x128_S4096x128_0_1 : (⟨S1x128, .f32⟩ : BufTy).Contents (Elt F) → (⟨S4096x128, .f32⟩ : BufTy).Contents (Elt F)),
    binary main_v17 main_v19 main_v20 (addf : (⟨S4096x128, .f32⟩ : BufTy).Contents (Elt F) → (⟨S4096x128, .f32⟩ : BufTy).Contents (Elt F) → (⟨S4096x128, .f32⟩ : BufTy).Contents (Elt F)) ]

set_option maxRecDepth 1024 in
/-- The program is that straight line: the two functions' definitions unfolded at their calls and the call's record
    at its fields, both sides are one chain of steps once sequencing is reassociated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., reshape_bufs_sub .., binary_bufs_sub .., unary_bufs_sub .., unary_bufs_sub .., binary_bufs_sub ..⟩

/-- Every buffer after the run, as the fold of the operations' results over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceWindow Host.gather Host.scatter in
set_option maxRecDepth 8192 in
/-- The fold at the result buffer is `refTerm` of the contents of the five argument buffers: each operation's result
    at its own buffer is its function of the contents of its operands' buffers, at any other buffer what was there;
    the inner function's typed references are these literal buffers at their own types, so their transports are the
    identity; what is left is `refTerm` with its intermediate values written out. -/
theorem out_eq (V : Valuation τ sig (Elt F)) :
    after ops V (main_v20 : DevRef τ sig)
      = refTerm (F := F) (V (main_arg0 : DevRef τ sig)) (V (main_arg1 : DevRef τ sig)) (V (main_arg2 : DevRef τ sig))
          (V (main_arg3 : DevRef τ sig)) (V (main_arg4 : DevRef τ sig)) := by
  after_results_simp
  simp only [TRef.ofBuf, TRef.toBuf, cast_eq]
  rfl

/-- No operation writes an argument buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On the one device, for any float values, from any memory with zero counters: every weakly fair execution of the
    program terminates with the result buffer at `refTerm` of the five arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v20)
          = refTerm (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v20).trans (out_eq _), (h c main_arg0).trans (arg0_eq _),
      (h c main_arg1).trans (arg1_eq _), (h c main_arg2).trans (arg2_eq _), (h c main_arg3).trans (arg3_eq _),
      (h c main_arg4).trans (arg4_eq _)⟩)
    (run_fold m ρ)

end Cert.ReferenceIdeal.Hand

end
-- ==== Proof.LibRowGather3.lean ====
/-
  A host gather of whole rows through a rank-3 array of start indices, read at one element.

  `table[idx]` over an [N × C] table with an [E × J] array of row numbers prints as a `stablehlo.gather` whose start
  indices are laid out as [E × J × 1] (the last axis the index vector's), whose row axis is collapsed and start-indexed
  and whose column axis is the one offset axis: result element (e, j, q) is the table's element (row, q), `row` the
  start index of (e, j) read signed and clamped into the table.
-/
import Idealize.ShloMosaic.PureOps.Ideal
import Idealize.ShloMosaic.Lib.ValueIdx

noncomputable section

namespace Cert.Gcn3

open Idealize.ShloMosaic Idealize.ShloMosaic.ValueIdx

/-- Result element (e, j, q) of a row gather through an [E × J × 1] array of start indices is the table's element
    (row, q), `row` the start index of (e, j) read signed and clamped into `[0, N − 1]`. -/
theorem gather_rows3 {α : Type} {N E J C w : Nat} (d : GatherDims ⟨2, ![N, C]⟩ ⟨3, ![E, J, 1]⟩ ⟨3, ![E, J, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![E, J, 1]⟩ w) (e : Fin E) (j : Fin J) (q : Fin C) (hN : 0 < N) :
    Host.gather d x idx (ix3 e j q) = x (ix2 ⟨min (idx (ix3 e j (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's batch axes are axes 0 and 1 in order, its one offset axis is axis 2
  have hbd : d.batchDims = [0, 1] := by
    show (⟨3, ![E, J, C]⟩ : Shape).kept d.offsetDims = [0, 1]
    rw [hoff]; rfl
  have hsk : d.siKept = [0, 1] := by
    show (List.finRange 3).filter (fun b : Fin 3 => decide (b.val ≠ d.indexVectorDim)) = [0, 1]
    rw [hivd]; rfl
  -- start-indices axis b (0 or 1) reads the result's coordinate on batch axis b
  have key : ∀ (l l' : List (Fin 3)) (b : Fin 3) (h : List.idxOf b l' < l.length), l = [0, 1] → l' = [0, 1] → b.val < 2 →
      l[List.idxOf b l'] = b := by
    intro l l' b h hl hl' hb2
    subst hl hl'
    match b, hb2 with
    | ⟨0, _⟩, _ => rfl
    | ⟨1, _⟩, _ => rfl
  have hq : ∀ X : Fin 3, X ∈ d.offsetDims → ((ix3 e j q : (⟨3, ![E, J, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix3 e j q) idx 0 + d.batchCoord (ix3 e j q) 0 + d.offCoord (ix3 e j q) 0
      = min (idx (ix3 e j (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix3 e j (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [key _ _ _ _ hbd hsk Nat.zero_lt_two]
    | ⟨1, _⟩ =>
      unfold GatherDims.siIdx
      rw [dif_neg (by rw [hivd]; simp)]
      unfold GatherDims.siCoord
      apply Fin.ext
      simp only [Fin.val_cast]
      rw [key _ _ _ _ hbd hsk Nat.one_lt_two]
    | ⟨2, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix3 e j q) idx 1 + d.batchCoord (ix3 e j q) 1 + d.offCoord (ix3 e j q) 1 = q.val
    rw [GatherDims.batchCoord_eq_zero _ _ _ (hb _), Nat.add_zero]
    unfold GatherDims.start GatherDims.offCoord
    rw [dif_neg hm, dif_pos hk, Nat.zero_add]
    exact hq _ (List.getElem_mem _)

end Cert.Gcn3

end
-- ==== Proof.RefValue.lean ====
/-
  The reference's result read at one element (i, t), at the extended reals: the sum over the 512 features of the query
  vector's feature times the matrix's entry, plus the bias at t.

  The row numbers the reference computes are the specification's (the prefix sum's initial value is a rank-0 broadcast
  of zero, which is zero). Where every row number is a row of the table the sign fix (a negative row number counted
  back from the table's end) changes nothing; the gather of whole rows then reads the table at that row; the reshape
  of the two gathered rows into one vector of 512 features reads feature k from endpoint k / 256 at column k % 256;
  the contraction over one axis is a plain sum over that axis; the bias broadcast to every row reads the bias at t.
-/
import proofs.«428622_j19267223290700_2_alg».proof.Proof.Spec
import proofs.«428622_j19267223290700_2_alg».proof.Proof.RefTerm
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Affine
import Idealize.ShloMosaic.Lib.StackMember
import proofs.«428622_j19267223290700_2_alg».proof.Proof.LibRowGather3

noncomputable section

namespace Cert.RefValue

open Idealize.ShloMosaic Idealize.ShloMosaic.ValueIdx
open Cert.ReferenceIdeal Cert.ReferenceIdeal.Hand

/-- The reference's row numbers are the specification's: the two terms differ only in the prefix sum's initial value,
    a rank-0 broadcast of the zero word against the zero word itself. -/
theorem refIdx_eq_gidx (a1 : IVec S262144 32) (a2 : IVec S4096x2 32) : refIdx a1 a2 = Cert.Spec.gidx a1 a2 := by
  have h0 : broadcastInDim S_ ![] Facts₀.bcast_S_S_ (constantI S_ 32 0#32) = constantI S_ 32 0#32 := rfl
  unfold refIdx Cert.Spec.gidx
  dsimp only
  rw [h0]
  rfl

/-- Where a word read signed is at least 0, the sign fix keeps it. -/
theorem signFix_apply (g : IVec S4096x2 32) (x : S4096x2.Idx) (hx : 0 ≤ (g x).toInt) :
    select (cmpi .slt g (broadcastInDim S4096x2 ![] Facts₀.bcast_S_S4096x2 (constantI S_ 32 0#32)))
      (addi g (broadcastInDim S4096x2 ![] Facts₀.bcast_S_S4096x2 (constantI S_ 32 262144#32))) g x = g x := by
  rw [select_apply]
  have hc : cmpi .slt g (broadcastInDim S4096x2 ![] Facts₀.bcast_S_S4096x2 (constantI S_ 32 0#32)) x = 0#1 := by
    apply eq_zero_of_ne_one
    intro h1
    have h2 : (g x).toInt < (0#32 : BitVec 32).toInt := IntOp.cmpi_slt.1 h1
    have h3 : (0#32 : BitVec 32).toInt = 0 := by decide
    omega
  rw [hc, select_zero]

/-- A word read signed that is at least 0 reads the same unsigned. -/
theorem toInt_toNat_of_nonneg (v : BitVec 32) (h : 0 ≤ v.toInt) : v.toInt.toNat = v.toNat := by
  have e := BitVec.toInt_eq_toNat_cond v
  have hlt := v.isLt
  by_cases c : 2 * v.toNat < 2 ^ 32
  · rw [if_pos c] at e; omega
  · rw [if_neg c] at e; omega

/-- The row numbers laid out as [4096 × 2 × 1] read, at (i, j, 0), the row number of (i, j). -/
theorem idx3_apply (g : IVec S4096x2 32) (i : Fin 4096) (j : Fin 2) :
    broadcastInDim S4096x2x1 ![0, 1] Facts₀.bcast_S4096x2_S4096x2x1_0_1 g (ix3 i j (0 : Fin 1)) = g (ix2 i j) := by
  refine broadcastInDim_apply _ _ g _ (ix2 i j) ?_
  intro a
  match a with
  | ⟨0, _⟩ => rfl
  | ⟨1, _⟩ => rfl

/-- The gather of whole rows read at (i, j, q): the table's row numbered by (i, j), read signed and clamped into the
    table, at column q. -/
theorem gathered_apply (a0 : FVec Ideal S262144x256 .f32) (g : IVec S4096x2 32) (i : Fin 4096) (j : Fin 2) (q : Fin 256) :
    Host.gather gather_S262144x256_S4096x2x1_S4096x2x256_2_0_n_n_0_2_1256 a0
        (broadcastInDim S4096x2x1 ![0, 1] Facts₀.bcast_S4096x2_S4096x2x1_0_1 g) (ix3 i j q)
      = a0 (ix2 ⟨min (g (ix2 i j)).toInt.toNat (262144 - 1), by omega⟩ q) := by
  rw [Cert.Gcn3.gather_rows3 gather_S262144x256_S4096x2x1_S4096x2x256_2_0_n_n_0_2_1256 rfl rfl rfl rfl rfl a0 _ i j q
    (by decide)]
  refine congrArg a0 (congrArg (fun r => ix2 r q) (Fin.ext ?_))
  show min (broadcastInDim S4096x2x1 ![0, 1] Facts₀.bcast_S4096x2_S4096x2x1_0_1 g (ix3 i j (0 : Fin 1))).toInt.toNat (262144 - 1)
    = min (g (ix2 i j)).toInt.toNat (262144 - 1)
  rw [idx3_apply]

/-- The two gathered rows of each graph as one vector of 512 features: feature k is column k % 256 of endpoint k / 256. -/
theorem reshaped_apply (x : FVec Ideal S4096x2x256 .f32) (i : Fin 4096) (k : Fin 512) :
    shapeCast S4096x512 x Facts₀.shapeCasts_S4096x2x256_S4096x512 (ix2 i k)
      = x (ix3 i (⟨k.val / 256, by omega⟩ : Fin 2) (⟨k.val % 256, Nat.mod_lt _ (by decide)⟩ : Fin 256)) := by
  refine shapeCast_apply x _ (ix2 i k) _ ?_
  rw [Shape.rowMajor_val_three, Shape.rowMajor_val_two]
  show (i.val * 2 + k.val / 256) * 256 + k.val % 256 = i.val * 512 + k.val
  omega

/-- The contraction of the 512 features against the matrix, read at (i, t), is the plain sum over the features. -/
theorem dot_apply (x : FVec Ideal S4096x512 .f32) (a3 : FVec Ideal S512x128 .f32) (i : Fin 4096) (t : Fin 128) :
    Host.dotGeneral dot_S4096x512_S512x128_S4096x128_1_0_0_1_n_n none x a3 (ix2 i t)
      = ∑ k : Fin 512, x (ix2 i k) * a3 (ix2 k t) :=
  Idealize.ShloMosaic.StackMember.dotGeneral_plain_apply (m := 4096) (n := 128) (k := 512) none x a3 i t

/-- The bias laid along every row reads, at (i, t), the bias at t. -/
theorem bias_apply (a4 : FVec Ideal S128 .f32) (i : Fin 4096) (t : Fin 128) :
    broadcastInDim S4096x128 ![0, 1] Facts₀.bcast_S1x128_S4096x128_0_1
        (broadcastInDim S1x128 ![1] Facts₀.bcast_S128_S1x128_1 a4) (ix2 i t) = a4 (ix1 t) := by
  rw [broadcastInDim_apply _ _ _ (ix2 i t) (ix2 (0 : Fin 1) t) (by
    intro a
    match a with
    | ⟨0, _⟩ => rfl
    | ⟨1, _⟩ => rfl)]
  refine broadcastInDim_apply _ _ a4 _ (ix1 t) ?_
  intro a
  match a with
  | ⟨0, _⟩ => rfl

/-- Where every row number is a row of the table, the sign fix of the reference's row numbers is the specification's
    row numbers. -/
theorem signFixed_eq_gidx (a1 : IVec S262144 32) (a2 : IVec S4096x2 32) (h : Cert.Spec.InRange a1 a2) :
    select (cmpi .slt (refIdx a1 a2) (broadcastInDim S4096x2 ![] Facts₀.bcast_S_S4096x2 (constantI S_ 32 0#32)))
      (addi (refIdx a1 a2) (broadcastInDim S4096x2 ![] Facts₀.bcast_S_S4096x2 (constantI S_ 32 262144#32))) (refIdx a1 a2)
      = Cert.Spec.gidx a1 a2 := by
  rw [refIdx_eq_gidx]
  funext x
  exact signFix_apply _ x (h x).1

/-- The reference's result at (i, t) is the specification's: the same sum over the 512 features, term by term, plus the
    same bias. -/
theorem refTerm_eq_G (a0 : FVec Ideal Cert.ReferenceIdeal.S262144x256 .f32) (a1 : IVec Cert.ReferenceIdeal.S262144 32)
    (a2 : IVec Cert.ReferenceIdeal.S4096x2 32) (a3 : FVec Ideal Cert.ReferenceIdeal.S512x128 .f32)
    (a4 : FVec Ideal Cert.ReferenceIdeal.S128 .f32)
    (h : Cert.Spec.InRange a1 a2) (i : Fin 4096) (t : Fin 128) :
    Cert.ReferenceIdeal.Hand.refTerm (F := Ideal) a0 a1 a2 a3 a4 (ValueIdx.ix2 i t) = Cert.Spec.G a0 a1 a2 a3 a4 i t := by
  unfold refTerm
  dsimp only
  rw [addf_apply, dot_apply, bias_apply, signFixed_eq_gidx a1 a2 h]
  unfold Cert.Spec.G
  congr 1
  refine Finset.sum_congr rfl fun k _ => ?_
  congr 1
  rw [reshaped_apply, gathered_apply]
  unfold Cert.Spec.query Cert.Spec.row
  refine congrArg a0 (congrArg (fun r => ix2 r _) (Fin.ext ?_))
  show min (Cert.Spec.gidx a1 a2 (ix2 i ⟨k.val / 256, _⟩)).toInt.toNat (262144 - 1)
    = min (Cert.Spec.gidx a1 a2 (ix2 i ⟨k.val / 256, _⟩)).toNat 262143
  rw [toInt_toNat_of_nonneg _ (h _).1]

end Cert.RefValue

end
-- ==== Proof.lean ====
/-
  The kernel gathers, for each of 4096 graphs, the two rows of a 262144 × 256 node table named by two index tables, lays them side
  by side as one vector of 512 features, multiplies by a 512 × 128 matrix and adds a bias; the reference computes the same
  result with one gather, one reshape, one matrix product and one broadcast sum. The row numbers are the exclusive prefix sums
  of the graphs' node counts plus a local node number, computed by the same host operations in both programs.

  The claim is made where the float inputs are finite and every row number is a row of the table (0 ≤ row < 262144, read
  as a signed word). There the kernel's table-indexed blocks lie inside the table, so its pipeline runs, and the reference's
  sign fix and clamp of the row numbers are the identity, so both read the same rows. At the extended reals both results
  are, entry by entry, the sum over the 512 features of feature times matrix entry, plus the bias: sums and products in
  the same order, so no finiteness is used. The kernel's narrowing of its operands to bf16 is the identity there, and the
  ideal pass rewrote nothing, so the idealized kernel is the kernel's own text.
-/
import proofs.«428622_j19267223290700_2_alg».proof.Defs
import proofs.«428622_j19267223290700_2_alg».proof.Proof.Gen.Kernel
import proofs.«428622_j19267223290700_2_alg».proof.Proof.Gen.KernelIdeal
import proofs.«428622_j19267223290700_2_alg».proof.Proof.Gen.ReferenceIdeal
import proofs.«428622_j19267223290700_2_alg».proof.Proof.Gen.Pre_finite_inputs
import proofs.«428622_j19267223290700_2_alg».proof.Proof.PreRead
import proofs.«428622_j19267223290700_2_alg».proof.Proof.KWRun
import proofs.«428622_j19267223290700_2_alg».proof.Proof.KIRun
import proofs.«428622_j19267223290700_2_alg».proof.Proof.KIResult
import proofs.«428622_j19267223290700_2_alg».proof.Proof.RefRun
import proofs.«428622_j19267223290700_2_alg».proof.Proof.RefValue
import proofs.«428622_j19267223290700_2_alg».proof.Proof.Out

noncomputable section

namespace Cert.Proof

open Idealize.ShloMosaic Idealize.ShloMosaic.ValueIdx Idealize.SL.Sem

/-- The word-level kernel runs to the end and leaves its arguments as they were. -/
theorem frame_k : Cert.frame_Kernel := fun m ρ hpre =>
  Cert.Kernel.Hand.frame_run m ρ (fun c => Cert.PreRead.inRange_of_pre _ _ _ _ _ (hpre c))

/-- So does the idealized kernel. -/
theorem frame_ki : Cert.frame_KernelIdeal := fun m ρ hpre =>
  Cert.KernelIdeal.Hand.frame_run m ρ (fun c => Cert.PreRead.inRange_of_pre _ _ _ _ _ (hpre c))

/-- So does the reference: its run, with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- From memories that agree on the arguments both idealized programs end with their results at the common function of
    the arguments: the kernel's by its pipeline's write-backs, the reference's by its operations read at an index. -/
theorem algebraic : Cert.algebraic_KernelIdeal_ReferenceIdeal := by
  intro m ρ m' ρ' hpre hagree
  have hR : ∀ c : Dev Cert.KernelIdeal.nD, Cert.Spec.InRange
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    fun c => Cert.PreRead.inRange_of_pre _ _ _ _ _ (hpre c)
  refine ⟨_, Cert.KernelIdeal.HandValue.value_run m ρ hR, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2]
  funext y
  obtain ⟨i, t, rfl⟩ : ∃ (i : Fin 4096) (t : Fin 128), y = ix2 i t := ⟨y 0, y 1, eq_ix2 y⟩
  rw [Cert.Spec.Gout_ix2]
  exact Cert.RefValue.refTerm_eq_G _ _ _ _ _ (hR c) i t

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
